-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S8192x9 .f32
  ∧ IdealRules.sign_bit.Statement Cert.KernelIdeal.S8192x9 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S10 : Shape := ⟨1, ![10]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S1048576x10 .f32) (main_arg1 : FVec F S1048576x10 .f32) (main_arg2 : FVec F S10 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S1048576x10 .f32 := Host.absf main_arg1
  let main_cst_0 : FVec F S_ .f32 := constant S_ .f32 0x7F800000#32
  let main_v5 : FVec F S1048576x10 .f32 := broadcastInDim S1048576x10 ![] bcast_S_S1048576x10 main_cst_0
  let main_v6 : IVec S1048576x10 1 := cmpf .olt main_v4 main_v5
  let main_c_1 : IVec S_ 1 := constantI S_ 1 1#1
  let main_v7 : IVec S_ 1 := (fun x v => Host.reduce IntOp.andi x v reducesTo_S1048576x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S1048576x10 : Shape := ⟨2, ![1048576, 10]⟩
abbrev S10 : Shape := ⟨1, ![10]⟩
abbrev S1x10 : Shape := ⟨2, ![1, 10]⟩
abbrev S1x9 : Shape := ⟨2, ![1, 9]⟩
abbrev S1x8 : Shape := ⟨2, ![1, 8]⟩
abbrev S1x45 : Shape := ⟨2, ![1, 45]⟩
abbrev S8192x10 : Shape := ⟨2, ![8192, 10]⟩
abbrev S8192x9 : Shape := ⟨2, ![8192, 9]⟩
abbrev S9 : Shape := ⟨1, ![9]⟩
abbrev S8192x8 : Shape := ⟨2, ![8192, 8]⟩
abbrev S8 : Shape := ⟨1, ![8]⟩
abbrev S8192x1 : Shape := ⟨2, ![8192, 1]⟩
abbrev S8192x45 : Shape := ⟨2, ![8192, 45]⟩
abbrev S45 : Shape := ⟨1, ![45]⟩
abbrev S_ : Shape := ⟨0, ![]⟩

abbrev nBuf : Space → Nat
  | .hbm => 55
  | .vmem => 10
  | .smem => 0
  | _ => 0

abbrev bufTy : (tb : Table) → Fin (tcTables nBuf tb) → BufTy
  | .hbm, ⟨0, _⟩ => ⟨S1048576x10, .f32⟩
  | .hbm, ⟨1, _⟩ => ⟨S1048576x10, .f32⟩
  | .hbm, ⟨2, _⟩ => ⟨S10, .f32⟩
  | .hbm, ⟨3, _⟩ => ⟨S1x10, .f32⟩
  | .hbm, ⟨4, _⟩ => ⟨S1x9, .f32⟩
  | .hbm, ⟨5, _⟩ => ⟨S1x8, .f32⟩
  | .hbm, ⟨6, _⟩ => ⟨S1x45, .f32⟩
  | .hbm, ⟨7, _⟩ => ⟨S1x45, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S45, .f32⟩
  | .hbm, ⟨21, _⟩ => ⟨S45, .f32⟩
  | .hbm, ⟨22, _⟩ => ⟨S_, .f32⟩
  | .hbm, ⟨23, _⟩ => ⟨S45, .f32⟩
  | .hbm, ⟨24, _⟩ => ⟨S45, .i1⟩
  | .hbm, ⟨25, _⟩ => ⟨S_, .f32⟩
  | .hbm, ⟨26, _⟩ => ⟨S45, .f32⟩
  | .hbm, ⟨27, _⟩ => ⟨S45, .f32⟩
  | .hbm, ⟨28, _⟩ => ⟨S45, .f32⟩
  | .hbm, ⟨29, _⟩ => ⟨S_, .f32⟩
  | .hbm, ⟨30, _⟩ => ⟨S_, .f32⟩
  | .hbm, ⟨31, _⟩ => ⟨S45, .f32⟩
  | .hbm, ⟨32, _⟩ => ⟨S45, .f32⟩
  | .hbm, ⟨33, _⟩ => ⟨S_, .f32⟩
  | .hbm, ⟨34, _⟩ => ⟨S45, .f32⟩
  | .hbm, ⟨35, _⟩ => ⟨S45, .i1⟩
  | .hbm, ⟨36, _⟩ => ⟨S45, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S8192x10, .f32⟩
  | .local _ .vmem, ⟨1, _⟩ => ⟨S8192x10, .f32⟩
  | .local _ .vmem, ⟨2, _⟩ => ⟨S8192x10, .f32⟩
  | .local _ .vmem, ⟨3, _⟩ => ⟨S8192x10, .f32⟩
  | .local _ .vmem, ⟨4, _⟩ => ⟨S10, .f32⟩
  | .local _ .vmem, ⟨5, _⟩ => ⟨S1x10, .f32⟩
  | .local _ .vmem, ⟨6, _⟩ => ⟨S1x9, .f32⟩
  | .local _ .vmem, ⟨7, _⟩ => ⟨S1x8, .f32⟩
  | .local _ .vmem, ⟨8, _⟩ => ⟨S1x45, .f32⟩
  | .local _ .vmem, ⟨9, _⟩ => ⟨S1x45, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_7 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_cst_8 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_cst_10 : Ref sig .tc := ⟨.hbm, 39, rfl⟩
abbrev main_v19 : Ref sig .tc := ⟨.hbm, 40, rfl⟩
abbrev main_cst_11 : Ref sig .tc := ⟨.hbm, 41, rfl⟩
abbrev main_v20 : Ref sig .tc := ⟨.hbm, 42, rfl⟩
abbrev main_v21 : Ref sig .tc := ⟨.hbm, 43, rfl⟩
abbrev main_cst_12 : Ref sig .tc := ⟨.hbm, 44, rfl⟩
abbrev main_v22 : Ref sig .tc := ⟨.hbm, 45, rfl⟩
abbrev main_cst_13 : Ref sig .tc := ⟨.hbm, 46, rfl⟩
abbrev main_v23 : Ref sig .tc := ⟨.hbm, 47, rfl⟩
abbrev main_v24 : Ref sig .tc := ⟨.hbm, 48, rfl⟩
abbrev main_cst_14 : Ref sig .tc := ⟨.hbm, 49, rfl⟩
abbrev main_v25 : Ref sig .tc := ⟨.hbm, 50, rfl⟩
abbrev main_v26 : Ref sig .tc := ⟨.hbm, 51, rfl⟩
abbrev main_cst_15 : Ref sig .tc := ⟨.hbm, 52, rfl⟩
abbrev main_v27 : Ref sig .tc := ⟨.hbm, 53, rfl⟩
abbrev main_v28 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x45 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x45 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S1x10_S1x10_0_0 : ∀ a, (![0, 0] : Fin 2 → Nat) a + S1x10.size a ≤ S1x10.size a
  h_S1x10 : 0 < S1x10.numel
  inb_S1x9_S1x9_0_0 : ∀ a, (![0, 0] : Fin 2 → Nat) a + S1x9.size a ≤ S1x9.size a
  h_S1x9 : 0 < S1x9.numel
  inb_S1x8_S1x8_0_0 : ∀ a, (![0, 0] : Fin 2 → Nat) a + S1x8.size a ≤ S1x8.size a
  h_S1x8 : 0 < S1x8.numel
  inb_S1x45_S1x45_0_0 : ∀ a, (![0, 0] : Fin 2 → Nat) a + S1x45.size a ≤ S1x45.size a
  h_S1x45 : 0 < S1x45.numel
  inb_S8192x10_S8192x10_0_0 : ∀ a, (![0, 0] : Fin 2 → Nat) a + S8192x10.size a ≤ S8192x10.size a
  h_S8192x10 : 0 < S8192x10.numel
  inb_S10_S10_0 : ∀ a, (![0] : Fin 1 → Nat) a + S10.size a ≤ S10.size a
  h_S10 : 0 < S10.numel
  shapeCasts_S10_S1x10 : S10.ShapeCasts S1x10
  broadcasts_S1x10_S8192x10 : S1x10.Broadcasts S8192x10
  shapeCasts_S1x10_S1x10 : S1x10.ShapeCasts S1x10
  reduces_S8192x10_S10 : S8192x10.Reduces [0] S10
  slices_S8192x10_o0_1_S8192x9 : S8192x10.Slices ![0, 1] S8192x9
  slices_S8192x10_o0_0_S8192x9 : S8192x10.Slices ![0, 0] S8192x9
  natLt_1_32 : 1 < 32
  shapeCasts_S1x9_S1x9 : S1x9.ShapeCasts S1x9
  reduces_S8192x9_S9 : S8192x9.Reduces [0] S9
  shapeCasts_S9_S1x9 : S9.ShapeCasts S1x9
  slices_S8192x10_o0_2_S8192x8 : S8192x10.Slices ![0, 2] S8192x8
  slices_S8192x10_o0_1_S8192x8 : S8192x10.Slices ![0, 1] S8192x8
  slices_S8192x10_o0_0_S8192x8 : S8192x10.Slices ![0, 0] S8192x8
  shapeCasts_S1x8_S1x8 : S1x8.ShapeCasts S1x8
  reduces_S8192x8_S8 : S8192x8.Reduces [0] S8
  shapeCasts_S8_S1x8 : S8.ShapeCasts S1x8
  slices_S8192x10_o0_0_S8192x1 : S8192x10.Slices ![0, 0] S8192x1
  slices_S8192x10_o0_1_S8192x1 : S8192x10.Slices ![0, 1] S8192x1
  slices_S8192x10_o0_2_S8192x1 : S8192x10.Slices ![0, 2] S8192x1
  slices_S8192x10_o0_3_S8192x1 : S8192x10.Slices ![0, 3] S8192x1
  slices_S8192x10_o0_4_S8192x1 : S8192x10.Slices ![0, 4] S8192x1
  slices_S8192x10_o0_5_S8192x1 : S8192x10.Slices ![0, 5] S8192x1
  slices_S8192x10_o0_6_S8192x1 : S8192x10.Slices ![0, 6] S8192x1
  slices_S8192x10_o0_7_S8192x1 : S8192x10.Slices ![0, 7] S8192x1
  slices_S8192x10_o0_8_S8192x1 : S8192x10.Slices ![0, 8] S8192x1
  concatenates_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x45_d1 : Shape.Concatenates (S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: S8192x1 :: []) S8192x45 1
  slices_S8192x10_o0_9_S8192x1 : S8192x10.Slices ![0, 9] S8192x1
  shapeCasts_S1x45_S1x45 : S1x45.ShapeCasts S1x45
  reduces_S8192x45_S45 : S8192x45.Reduces [0] S45
  shapeCasts_S45_S1x45 : S45.ShapeCasts S1x45
  reducesTo_S1x10_S_d0_1 : S1x10.ReducesTo [0, 1] S_
  h_S_ : 0 < S_.numel
  reducesTo_S1x9_S_d0_1 : S1x9.ReducesTo [0, 1] S_
  reducesTo_S1x8_S_d0_1 : S1x8.ReducesTo [0, 1] S_
  shapeCasts_S1x45_S45 : S1x45.ShapeCasts S45
  bcast_S_S45 : S_.BroadcastsInDim S45 (![] : Fin 0 → Fin S45.rank)
  reducesTo_S45_S_d0 : S45.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S1048576x10.size a
  hwx0_0 : ∀ i : grid0.Coords, EltTy.bits .f32 = 32 ∨ (Rect.block (s := S1048576x10) S8192x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x10.size a ≤ S1048576x10.size a
  hwx0_1 : ∀ i : grid0.Coords, EltTy.bits .f32 = 32 ∨ (Rect.block (s := S1048576x10) S8192x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10.size a ≤ S10.size a
  hwx0_2 : ∀ i : grid0.Coords, EltTy.bits .f32 = 32 ∨ (Rect.block (s := S10) S10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x9.size a ≤ S1x9.size a
  hwx0_4 : ∀ i : grid0.Coords, EltTy.bits .f32 = 32 ∨ (Rect.block (s := S1x9) S1x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x45.size a ≤ S1x45.size a
  hwx0_6 : ∀ i : grid0.Coords, EltTy.bits .f32 = 32 ∨ (Rect.block (s := S1x45) S1x45.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x45.size a ≤ S1x45.size a
  hwx0_7 : ∀ i : grid0.Coords, EltTy.bits .f32 = 32 ∨ (Rect.block (s := S1x45) S1x45.size (cc0_transform_7 i) (hinb0_7 i)).WholeWords (EltTy.packing .f32)

variable [Facts₀]

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x10.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x9.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x45.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x45.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S10 : Shape := ⟨1, ![10]⟩
abbrev S45 : Shape := ⟨1, ![45]⟩
abbrev S1x10 : Shape := ⟨2, ![1, 10]⟩
abbrev S_ : Shape := ⟨0, ![]⟩
abbrev S1048576x9 : Shape := ⟨2, ![1048576, 9]⟩
abbrev S1048576x8 : Shape := ⟨2, ![1048576, 8]⟩
abbrev S45x1 : Shape := ⟨2, ![45, 1]⟩
abbrev S1048576x45 : Shape := ⟨2, ![1048576, 45]⟩

abbrev nBuf : Space → Nat
  | .hbm => 140
  | .vmem => 0
  | .smem => 0
  | _ => 0

abbrev hbmTy0_0 (i : Nat) : BufTy := match i % 128 with
  | 0 => ⟨S1048576x10, .f32⟩
  | 1 => ⟨S1048576x10, .f32⟩
  | 2 => ⟨S10, .f32⟩
  | 3 => ⟨S45, .i32⟩
  | 4 => ⟨S45, .i1⟩
  | 5 => ⟨S45, .i32⟩
  | 6 => ⟨S45, .i1⟩
  | 7 => ⟨S45, .i1⟩
  | 8 => ⟨S45, .i1⟩
  | 9 => ⟨S1048576x10, .f32⟩
  | 10 => ⟨S1048576x10, .f32⟩
  | 11 => ⟨S1x10, .f32⟩
  | 12 => ⟨S1048576x10, .f32⟩
  | 13 => ⟨S1048576x10, .f32⟩
  | 14 => ⟨S_, .f32⟩
  | 15 => ⟨S_, .f32⟩
  | 16 => ⟨S_, .f32⟩
  | 17 => ⟨S_, .f32⟩
  | 18 => ⟨S1048576x9, .f32⟩
  | 19 => ⟨S1048576x9, .f32⟩
  | 20 => ⟨S1048576x9, .f32⟩
  | 21 => ⟨S1048576x9, .f32⟩
  | 22 => ⟨S1048576x9, .f32⟩
  | 23 => ⟨S1048576x9, .f32⟩
  | 24 => ⟨S1048576x9, .f32⟩
  | 25 => ⟨S1048576x9, .f32⟩
  | 26 => ⟨S1048576x9, .i1⟩
  | 27 => ⟨S1048576x9, .f32⟩
  | 28 => ⟨S1048576x9, .f32⟩
  | 29 => ⟨S_, .f32⟩
  | 30 => ⟨S1048576x9, .f32⟩
  | 31 => ⟨S1048576x9, .f32⟩
  | 32 => ⟨S1048576x9, .f32⟩
  | 33 => ⟨S_, .f32⟩
  | 34 => ⟨S_, .f32⟩
  | 35 => ⟨S_, .f32⟩
  | 36 => ⟨S_, .f32⟩
  | 37 => ⟨S1048576x8, .f32⟩
  | 38 => ⟨S1048576x8, .f32⟩
  | 39 => ⟨S_, .f32⟩
  | 40 => ⟨S1048576x8, .f32⟩
  | 41 => ⟨S1048576x8, .f32⟩
  | 42 => ⟨S1048576x8, .f32⟩
  | 43 => ⟨S1048576x8, .f32⟩
  | 44 => ⟨S1048576x8, .f32⟩
  | 45 => ⟨S1048576x8, .f32⟩
  | 46 => ⟨S1048576x8, .f32⟩
  | 47 => ⟨S_, .f32⟩
  | 48 => ⟨S1048576x8, .f32⟩
  | 49 => ⟨S1048576x8, .f32⟩
  | 50 => ⟨S1048576x8, .f32⟩
  | 51 => ⟨S1048576x8, .f32⟩
  | 52 => ⟨S1048576x8, .f32⟩
  | 53 => ⟨S1048576x8, .f32⟩
  | 54 => ⟨S1048576x8, .f32⟩
  | 55 => ⟨S_, .f32⟩
  | 56 => ⟨S_, .f32⟩
  | 57 => ⟨S_, .f32⟩
  | 58 => ⟨S_, .f32⟩
  | 59 => ⟨S_, .i32⟩
  | 60 => ⟨S45, .i32⟩
  | 61 => ⟨S45, .i32⟩
  | 62 => ⟨S45, .i32⟩
  | 63 => ⟨S45x1, .i32⟩
  | 64 => ⟨S1048576x45, .f32⟩
  | 65 => ⟨S_, .i32⟩
  | 66 => ⟨S45, .i32⟩
  | 67 => ⟨S45, .i32⟩
  | 68 => ⟨S45, .i32⟩
  | 69 => ⟨S45x1, .i32⟩
  | 70 => ⟨S1048576x45, .f32⟩
  | 71 => ⟨S1048576x45, .f32⟩
  | 72 => ⟨S_, .i32⟩
  | 73 => ⟨S45, .i32⟩
  | 74 => ⟨S45, .i32⟩
  | 75 => ⟨S45, .i32⟩
  | 76 => ⟨S45x1, .i32⟩
  | 77 => ⟨S1048576x45, .f32⟩
  | 78 => ⟨S_, .i32⟩
  | 79 => ⟨S45, .i32⟩
  | 80 => ⟨S45, .i32⟩
  | 81 => ⟨S45, .i32⟩
  | 82 => ⟨S45x1, .i32⟩
  | 83 => ⟨S1048576x45, .f32⟩
  | 84 => ⟨S1048576x45, .f32⟩
  | 85 => ⟨S1048576x45, .f32⟩
  | 86 => ⟨S_, .f32⟩
  | 87 => ⟨S1048576x45, .f32⟩
  | 88 => ⟨S1048576x45, .i1⟩
  | 89 => ⟨S1048576x45, .f32⟩
  | 90 => ⟨S1048576x45, .f32⟩
  | 91 => ⟨S1048576x45, .f32⟩
  | 92 => ⟨S_, .f32⟩
  | 93 => ⟨S1048576x45, .f32⟩
  | 94 => ⟨S1048576x45, .f32⟩
  | 95 => ⟨S1048576x45, .f32⟩
  | 96 => ⟨S_, .f32⟩
  | 97 => ⟨S1048576x45, .f32⟩
  | 98 => ⟨S1048576x45, .f32⟩
  | 99 => ⟨S_, .f32⟩
  | 100 => ⟨S1048576x45, .f32⟩
  | 101 => ⟨S1048576x45, .f32⟩
  | 102 => ⟨S_, .f32⟩
  | 103 => ⟨S45, .f32⟩
  | 104 => ⟨S_, .f32⟩
  | 105 => ⟨S45, .f32⟩
  | 106 => ⟨S45, .i1⟩
  | 107 => ⟨S1048576x45, .f32⟩
  | 108 => ⟨S_, .f32⟩
  | 109 => ⟨S45, .f32⟩
  | 110 => ⟨S_, .f32⟩
  | 111 => ⟨S45, .f32⟩
  | 112 => ⟨S45, .f32⟩
  | 113 => ⟨S45, .f32⟩
  | 114 => ⟨S_, .f32⟩
  | 115 => ⟨S_, .f32⟩
  | 116 => ⟨S45, .f32⟩
  | 117 => ⟨S45, .f32⟩
  | 118 => ⟨S_, .f32⟩
  | 119 => ⟨S45, .f32⟩
  | 120 => ⟨S45, .i1⟩
  | 121 => ⟨S45, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1048576x10, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S1048576x10, .f32⟩

abbrev hbmTy (i : Nat) : BufTy := match i / 128 with
  | 0 => hbmTy0_0 i
  | 1 => hbmTy0_1 i
  | _ => ⟨S1048576x10, .f32⟩

abbrev bufTy : (tb : Table) → Fin (tcTables nBuf tb) → BufTy
  | .hbm, ⟨i, _⟩ => hbmTy i
  | _, _ => ⟨S1048576x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_c_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_14 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_16 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_19 : Ref sig .tc := ⟨.hbm, 96, rfl⟩
abbrev main_v72 : Ref sig .tc := ⟨.hbm, 97, rfl⟩
abbrev main_v73 : Ref sig .tc := ⟨.hbm, 98, rfl⟩
abbrev main_call0_cst : Ref sig .tc := ⟨.hbm, 99, rfl⟩
abbrev main_call0_v0 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_cst_21 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_22 : Ref sig .tc := ⟨.hbm, 108, rfl⟩
abbrev main_v79 : Ref sig .tc := ⟨.hbm, 109, rfl⟩
abbrev main_cst_23 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_24 : Ref sig .tc := ⟨.hbm, 114, rfl⟩
abbrev main_call1_v0 : Ref sig .tc := ⟨.hbm, 115, rfl⟩
abbrev main_call1_v1 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_26 : Ref sig .tc := ⟨.hbm, 122, rfl⟩
abbrev main_v87 : Ref sig .tc := ⟨.hbm, 123, rfl⟩
abbrev main_cst_27 : Ref sig .tc := ⟨.hbm, 124, rfl⟩
abbrev main_v88 : Ref sig .tc := ⟨.hbm, 125, rfl⟩
abbrev main_cst_28 : Ref sig .tc := ⟨.hbm, 126, rfl⟩
abbrev main_v89 : Ref sig .tc := ⟨.hbm, 127, rfl⟩
abbrev main_v90 : Ref sig .tc := ⟨.hbm, 128, rfl⟩
abbrev main_cst_29 : Ref sig .tc := ⟨.hbm, 129, rfl⟩
abbrev main_v91 : Ref sig .tc := ⟨.hbm, 130, rfl⟩
abbrev main_cst_30 : Ref sig .tc := ⟨.hbm, 131, rfl⟩
abbrev main_v92 : Ref sig .tc := ⟨.hbm, 132, rfl⟩
abbrev main_v93 : Ref sig .tc := ⟨.hbm, 133, rfl⟩
abbrev main_cst_31 : Ref sig .tc := ⟨.hbm, 134, rfl⟩
abbrev main_v94 : Ref sig .tc := ⟨.hbm, 135, rfl⟩
abbrev main_v95 : Ref sig .tc := ⟨.hbm, 136, rfl⟩
abbrev main_cst_32 : Ref sig .tc := ⟨.hbm, 137, rfl⟩
abbrev main_v96 : Ref sig .tc := ⟨.hbm, 138, rfl⟩
abbrev main_v97 : Ref sig .tc := ⟨.hbm, 139, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S1048576x10_0_1 : S1x10.BroadcastsInDim S1048576x10 (![0, 1] : Fin 2 → Fin S1048576x10.rank)
  reducesTo_S1048576x10_S_d0_1 : S1048576x10.ReducesTo [0, 1] S_
  h_S_ : 0 < S_.numel
  slices_S1048576x10_S1048576x9_0_1 : S1048576x10.Slices ![0, 1] S1048576x9
  slices_S1048576x10_S1048576x9_0_0 : S1048576x10.Slices ![0, 0] S1048576x9
  bcast_S_S1048576x9 : S_.BroadcastsInDim S1048576x9 (![] : Fin 0 → Fin S1048576x9.rank)
  reducesTo_S1048576x9_S_d0_1 : S1048576x9.ReducesTo [0, 1] S_
  slices_S1048576x10_S1048576x8_0_2 : S1048576x10.Slices ![0, 2] S1048576x8
  slices_S1048576x10_S1048576x8_0_1 : S1048576x10.Slices ![0, 1] S1048576x8
  bcast_S_S1048576x8 : S_.BroadcastsInDim S1048576x8 (![] : Fin 0 → Fin S1048576x8.rank)
  slices_S1048576x10_S1048576x8_0_0 : S1048576x10.Slices ![0, 0] S1048576x8
  reducesTo_S1048576x8_S_d0_1 : S1048576x8.ReducesTo [0, 1] S_
  bcast_S_S45 : S_.BroadcastsInDim S45 (![] : Fin 0 → Fin S45.rank)
  bcast_S45_S45x1_0 : S45.BroadcastsInDim S45x1 (![0] : Fin 1 → Fin S45x1.rank)
  bcast_S_S1048576x45 : S_.BroadcastsInDim S1048576x45 (![] : Fin 0 → Fin S1048576x45.rank)
  reducesTo_S1048576x45_S45_d0 : S1048576x45.ReducesTo [0] S45
  reducesTo_S45_S_d0 : S45.ReducesTo [0] S_
  gather_S1048576x10_S45x1_S1048576x45_0_1_n_n_1_1_10485761_wf : GatherDims.WF S1048576x10 S45x1 S1048576x45 [0] [1] [] [1] [] 1 ![1048576, 1]

variable [Facts₀]

def gather_S1048576x10_S45x1_S1048576x45_0_1_n_n_1_1_10485761 : GatherDims S1048576x10 S45x1 S1048576x45 where
  offsetDims := [0]
  collapsedSliceDims := [1]
  operandBatchingDims := []
  startIndicesBatchingDims := []
  startIndexMap := [1]
  indexVectorDim := 1
  sliceSizes := ![1048576, 1]
  wf := gather_S1048576x10_S45x1_S1048576x45_0_1_n_n_1_1_10485761_wf

class Facts : Prop extends Facts₀ where

variable [Facts]
-- ==== Proof.KDefs.lean ====
/-
  The kernel body's five results at one grid point, as pure functions of the point's input blocks and of the running
  contents of the result it adds to: each is the body's printed arithmetic (the generated payload terms) composed in
  the order the body composes it. Stated for any float instance.

    kBase  x0 x1 x2 acc = acc + Σ_rows (x0 - x1)² · x2                      [1, 10]
    kDir   x0 x1 acc    = acc + Σ_rows mismatch · (1 + |Δ x1|)              [1, 9]
    kTrend x0 x1 acc    = acc + Σ_rows (second difference of x0 - of x1)²   [1, 8]
    kErr   x0 x1 acc    = acc + Σ_rows pair error · indicator               [1, 45]
    kCnt   x1 acc       = acc + Σ_rows indicator                            [1, 45]
-/
import proofs.«106290_j67534065762422_1_alg».proof.Proof.Gen.KernelIdeal.Skeleton

noncomputable section

namespace Cert.KernelIdeal.Acc

open Idealize.ShloMosaic Cert.KernelIdeal Cert.KernelIdeal.Gen

variable {F : FTy → Type} [FloatOps F]

/-- The predictions' first pair columns, [8192, 45]. -/
def predI (x0 : Vec F S8192x10 .f32) : FVec F S8192x45 .f32 := k0_pay25 x0 (k0_pay13 x0) (k0_pay14 x0) (k0_pay15 x0) (k0_pay16 x0) (k0_pay17 x0) (k0_pay18 x0) (k0_pay19 x0) (k0_pay20 x0) (k0_pay21 x0) (k0_pay22 x0) (k0_pay23 x0) (k0_pay24 x0)
/-- The predictions' second pair columns. -/
def predJ (x0 : Vec F S8192x10 .f32) : FVec F S8192x45 .f32 := k0_pay52 x0 (k0_pay26 x0) (k0_pay27 x0) (k0_pay28 x0) (k0_pay29 x0) (k0_pay30 x0) (k0_pay31 x0) (k0_pay32 x0) (k0_pay33 x0) (k0_pay34 x0) (k0_pay35 x0) (k0_pay36 x0) (k0_pay37 x0) (k0_pay38 x0) (k0_pay39 x0) (k0_pay40 x0) (k0_pay41 x0) (k0_pay42 x0) (k0_pay43 x0) (k0_pay44 x0) (k0_pay45 x0) (k0_pay46 x0) (k0_pay47 x0) (k0_pay48 x0) (k0_pay49 x0) (k0_pay50 x0) (k0_pay51 x0)
/-- The prediction differences over the pairs. -/
def pdiff (x0 : Vec F S8192x10 .f32) : FVec F S8192x45 .f32 := k0_pay93 (predI x0) (predJ x0)
/-- The target differences over the pairs. -/
def tdiff (x1 : Vec F S8192x10 .f32) : FVec F S8192x45 .f32 := k0_pay94 x1 (k0_pay53 x1) (k0_pay54 x1) (k0_pay55 x1) (k0_pay56 x1) (k0_pay57 x1) (k0_pay58 x1) (k0_pay59 x1) (k0_pay60 x1) (k0_pay61 x1) (k0_pay62 x1) (k0_pay63 x1) (k0_pay64 x1) (k0_pay65 x1) (k0_pay66 x1) (k0_pay67 x1) (k0_pay68 x1) (k0_pay69 x1) (k0_pay70 x1) (k0_pay71 x1) (k0_pay72 x1) (k0_pay73 x1) (k0_pay74 x1) (k0_pay75 x1) (k0_pay76 x1) (k0_pay77 x1) (k0_pay78 x1) (k0_pay79 x1) (k0_pay80 x1) (k0_pay81 x1) (k0_pay82 x1) (k0_pay83 x1) (k0_pay84 x1) (k0_pay85 x1) (k0_pay86 x1) (k0_pay87 x1) (k0_pay88 x1) (k0_pay89 x1) (k0_pay90 x1) (k0_pay91 x1) (k0_pay92 x1)
/-- The pair indicators. -/
def pind (x1 : Vec F S8192x10 .f32) : FVec F S8192x45 .f32 := k0_pay95 x1 (k0_pay53 x1) (k0_pay54 x1) (k0_pay55 x1) (k0_pay56 x1) (k0_pay57 x1) (k0_pay58 x1) (k0_pay59 x1) (k0_pay60 x1) (k0_pay61 x1) (k0_pay62 x1) (k0_pay63 x1) (k0_pay64 x1) (k0_pay65 x1) (k0_pay66 x1) (k0_pay67 x1) (k0_pay68 x1) (k0_pay69 x1) (k0_pay70 x1) (k0_pay71 x1) (k0_pay72 x1) (k0_pay73 x1) (k0_pay74 x1) (k0_pay75 x1) (k0_pay76 x1) (k0_pay77 x1) (k0_pay78 x1) (k0_pay79 x1) (k0_pay80 x1) (k0_pay81 x1) (k0_pay82 x1) (k0_pay83 x1) (k0_pay84 x1) (k0_pay85 x1) (k0_pay86 x1) (k0_pay87 x1) (k0_pay88 x1) (k0_pay89 x1) (k0_pay90 x1) (k0_pay91 x1) (k0_pay92 x1)

def kBase (x0 x1 : Vec F S8192x10 .f32) (x2 : Vec F S10 .f32) (acc : Vec F S1x10 .f32) : FVec F S1x10 .f32 := k0_pay8 x0 x1 x2 acc
def kDir (x0 x1 : Vec F S8192x10 .f32) (acc : Vec F S1x9 .f32) : FVec F S1x9 .f32 := k0_pay11 (k0_pay9 x1) (k0_pay10 x0 x1) acc
def kTrend (x0 x1 : Vec F S8192x10 .f32) (acc : Vec F S1x8 .f32) : FVec F S1x8 .f32 := k0_pay12 x0 x1 acc
def kErr (x0 x1 : Vec F S8192x10 .f32) (acc : Vec F S1x45 .f32) : FVec F S1x45 .f32 := k0_pay1 (pdiff x0) (tdiff x1) (pind x1) acc
def kCnt (x1 : Vec F S8192x10 .f32) (acc : Vec F S1x45 .f32) : FVec F S1x45 .f32 := k0_pay2 (pind x1) acc

end Cert.KernelIdeal.Acc

end
-- ==== Proof.KPieces.lean ====
/-
  What each of the body's two control cases leaves in the five result blocks, as the pure functions of KDefs: at the
  first grid point the body stores zeros, reads them back and adds the point's sums; at every later point it reads
  what the point before left and adds the point's sums.
-/
import proofs.«106290_j67534065762422_1_alg».proof.Proof.Gen.KernelIdeal.Frame
import proofs.«106290_j67534065762422_1_alg».proof.Proof.KDefs
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offsets of a whole rank-2 block are zero. -/
theorem hz2 : (![0, 0] : Fin 2 → Nat) = fun _ => 0 := funext fun a => by fin_cases a <;> rfl
/-- The offset of a whole rank-1 block is zero. -/
theorem hz1 : (![0] : Fin 1 → Nat) = fun _ => 0 := funext fun a => by fin_cases a; rfl

/-- At the first grid point the block of base sums is the stored zeros plus the point's sums: the later store
    covers the block, and the update's own read of the block reads the zeros back. -/
theorem out_A_3 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 : Vec F S8192x10 .f32) (x1 : Vec F S8192x10 .f32) (x2 : Vec F S10 .f32) :
    out0_A_3 c i arg1 harg1 arg2 harg2 arg3 harg3 arg4 harg4 arg5 harg5 arg6 harg6 arg7 harg7 arg8 harg8 hc0 x0 x1 x2 = kBase x0 x1 x2 k0_pay3 := by
  unfold out0_A_3
  rw [View.read_writes_eq_canon _ _ _ (cover0_A_3 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x10) hz2, View.readCov_unit_zero (S := S1x10) _ hz2]
  unfold kBase
  simp only [View.readAt_eq_ld, harg1.read_unread, harg2.read_unread, harg3.read_unread,
    View.ld_unit_zero (S := S8192x10) hz2, View.ld_unit_zero (S := S10) hz1]

/-- At the first grid point the block of direction sums is the stored zeros plus the point's sums: the later store
    covers the block, and the update's own read of the block reads the zeros back. -/
theorem out_A_4 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 : Vec F S8192x10 .f32) (x1 : Vec F S8192x10 .f32) (x2 : Vec F S10 .f32) :
    out0_A_4 c i arg1 harg1 arg2 harg2 arg3 harg3 arg4 harg4 arg5 harg5 arg6 harg6 arg7 harg7 arg8 harg8 hc0 x0 x1 x2 = kDir x0 x1 k0_pay4 := by
  unfold out0_A_4
  rw [View.read_writes_eq_canon _ _ _ (cover0_A_4 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x9) hz2, View.readCov_unit_zero (S := S1x9) _ hz2]
  unfold kDir
  simp only [View.readAt_eq_ld, harg1.read_unread, harg2.read_unread,
    View.ld_unit_zero (S := S8192x10) hz2]

/-- At the first grid point the block of trend sums is the stored zeros plus the point's sums: the later store
    covers the block, and the update's own read of the block reads the zeros back. -/
theorem out_A_5 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 : Vec F S8192x10 .f32) (x1 : Vec F S8192x10 .f32) (x2 : Vec F S10 .f32) :
    out0_A_5 c i arg1 harg1 arg2 harg2 arg3 harg3 arg4 harg4 arg5 harg5 arg6 harg6 arg7 harg7 arg8 harg8 hc0 x0 x1 x2 = kTrend x0 x1 k0_pay5 := by
  unfold out0_A_5
  rw [View.read_writes_eq_canon _ _ _ (cover0_A_5 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x8) hz2, View.readCov_unit_zero (S := S1x8) _ hz2]
  unfold kTrend
  simp only [View.readAt_eq_ld, harg1.read_unread, harg2.read_unread,
    View.ld_unit_zero (S := S8192x10) hz2]

/-- At the first grid point the block of pair error sums is the stored zeros plus the point's sums: the later store
    covers the block, and the update's own read of the block reads the zeros back. -/
theorem out_A_6 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 : Vec F S8192x10 .f32) (x1 : Vec F S8192x10 .f32) (x2 : Vec F S10 .f32) :
    out0_A_6 c i arg1 harg1 arg2 harg2 arg3 harg3 arg4 harg4 arg5 harg5 arg6 harg6 arg7 harg7 arg8 harg8 hc0 x0 x1 x2 = kErr x0 x1 k0_pay6 := by
  unfold out0_A_6
  rw [View.read_writes_eq_canon _ _ _ (cover0_A_6 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x45) hz2, View.readCov_unit_zero (S := S1x45) _ hz2]
  unfold kErr pdiff tdiff pind predI predJ
  simp only [View.readAt_eq_ld, harg1.read_unread, harg2.read_unread,
    View.ld_unit_zero (S := S8192x10) hz2]

/-- At the first grid point the block of pair counts is the stored zeros plus the point's sums: the later store
    covers the block, and the update's own read of the block reads the zeros back. -/
theorem out_A_7 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : cond0_0 i)
    (x0 : Vec F S8192x10 .f32) (x1 : Vec F S8192x10 .f32) (x2 : Vec F S10 .f32) :
    out0_A_7 c i arg1 harg1 arg2 harg2 arg3 harg3 arg4 harg4 arg5 harg5 arg6 harg6 arg7 harg7 arg8 harg8 hc0 x0 x1 x2 = kCnt x1 k0_pay7 := by
  unfold out0_A_7
  rw [View.read_writes_eq_canon _ _ _ (cover0_A_7 c i arg1 harg1 arg2 harg2 arg3 harg3 arg4 harg4 arg5 harg5 arg6 harg6 arg7 harg7 arg8 harg8 hc0 x0 x1 x2)]
  unfold kernelRun0_A
  dsimp only
  sl_unfold_words
  rw [View.canon_cons_unit_zero (S := S1x45) hz2, View.readCov_unit_zero (S := S1x45) _ hz2]
  unfold kCnt pind
  simp only [View.readAt_eq_ld, harg2.read_unread,
    View.ld_unit_zero (S := S8192x10) hz2]

/-- At a later grid point the block of base sums is what the point before left plus the point's sums: one store
    covers the block, and its payload reads the whole input blocks and the whole running block. -/
theorem out_B_3 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 : Vec F S8192x10 .f32) (x1 : Vec F S8192x10 .f32) (x2 : Vec F S10 .f32) (xo3 : Vec F S1x10 .f32) (xo4 : Vec F S1x9 .f32) (xo5 : Vec F S1x8 .f32) (xo6 : Vec F S1x45 .f32) (xo7 : Vec F S1x45 .f32) :
    out0_B_3 c i arg1 harg1 arg2 harg2 arg3 harg3 arg4 harg4 arg5 harg5 arg6 harg6 arg7 harg7 arg8 harg8 hc0 x0 x1 x2 xo3 xo4 xo5 xo6 xo7 = kBase x0 x1 x2 xo3 := by
  unfold out0_B_3
  rw [View.read_writes_eq_canon _ _ _ (cover0_B_3 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x10) hz2]
  unfold kBase
  simp only [View.readAt_eq_ld, harg1.read_unread, harg2.read_unread, harg3.read_unread, harg4.read_unread,
    View.ld_unit_zero (S := S8192x10) hz2, View.ld_unit_zero (S := S10) hz1, View.ld_unit_zero (S := S1x10) hz2]

/-- At a later grid point the block of direction sums is what the point before left plus the point's sums: one store
    covers the block, and its payload reads the whole input blocks and the whole running block. -/
theorem out_B_4 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 : Vec F S8192x10 .f32) (x1 : Vec F S8192x10 .f32) (x2 : Vec F S10 .f32) (xo3 : Vec F S1x10 .f32) (xo4 : Vec F S1x9 .f32) (xo5 : Vec F S1x8 .f32) (xo6 : Vec F S1x45 .f32) (xo7 : Vec F S1x45 .f32) :
    out0_B_4 c i arg1 harg1 arg2 harg2 arg3 harg3 arg4 harg4 arg5 harg5 arg6 harg6 arg7 harg7 arg8 harg8 hc0 x0 x1 x2 xo3 xo4 xo5 xo6 xo7 = kDir x0 x1 xo4 := by
  unfold out0_B_4
  rw [View.read_writes_eq_canon _ _ _ (cover0_B_4 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x9) hz2]
  unfold kDir
  simp only [View.readAt_eq_ld, harg1.read_unread, harg2.read_unread, harg5.read_unread,
    View.ld_unit_zero (S := S8192x10) hz2, View.ld_unit_zero (S := S1x9) hz2]

/-- At a later grid point the block of trend sums is what the point before left plus the point's sums: one store
    covers the block, and its payload reads the whole input blocks and the whole running block. -/
theorem out_B_5 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 : Vec F S8192x10 .f32) (x1 : Vec F S8192x10 .f32) (x2 : Vec F S10 .f32) (xo3 : Vec F S1x10 .f32) (xo4 : Vec F S1x9 .f32) (xo5 : Vec F S1x8 .f32) (xo6 : Vec F S1x45 .f32) (xo7 : Vec F S1x45 .f32) :
    out0_B_5 c i arg1 harg1 arg2 harg2 arg3 harg3 arg4 harg4 arg5 harg5 arg6 harg6 arg7 harg7 arg8 harg8 hc0 x0 x1 x2 xo3 xo4 xo5 xo6 xo7 = kTrend x0 x1 xo5 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x8) hz2]
  unfold kTrend
  simp only [View.readAt_eq_ld, harg1.read_unread, harg2.read_unread, harg6.read_unread,
    View.ld_unit_zero (S := S8192x10) hz2, View.ld_unit_zero (S := S1x8) hz2]

/-- At a later grid point the block of pair error sums is what the point before left plus the point's sums: one store
    covers the block, and its payload reads the whole input blocks and the whole running block. -/
theorem out_B_6 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 : Vec F S8192x10 .f32) (x1 : Vec F S8192x10 .f32) (x2 : Vec F S10 .f32) (xo3 : Vec F S1x10 .f32) (xo4 : Vec F S1x9 .f32) (xo5 : Vec F S1x8 .f32) (xo6 : Vec F S1x45 .f32) (xo7 : Vec F S1x45 .f32) :
    out0_B_6 c i arg1 harg1 arg2 harg2 arg3 harg3 arg4 harg4 arg5 harg5 arg6 harg6 arg7 harg7 arg8 harg8 hc0 x0 x1 x2 xo3 xo4 xo5 xo6 xo7 = kErr x0 x1 xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x45) hz2]
  unfold kErr pdiff tdiff pind predI predJ
  simp only [View.readAt_eq_ld, harg1.read_unread, harg2.read_unread, harg7.read_unread,
    View.ld_unit_zero (S := S8192x10) hz2, View.ld_unit_zero (S := S1x45) hz2]

/-- At a later grid point the block of pair counts is what the point before left plus the point's sums: one store
    covers the block, and its payload reads the whole input blocks and the whole running block. -/
theorem out_B_7 (c : Dev nD) (i : grid0.Coords) (arg1 : Memref sig .tc .vmem S8192x10 .f32) (harg1 : arg1.IsWhole) (arg2 : Memref sig .tc .vmem S8192x10 .f32) (harg2 : arg2.IsWhole) (arg3 : Memref sig .tc .vmem S10 .f32) (harg3 : arg3.IsWhole) (arg4 : Memref sig .tc .vmem S1x10 .f32) (harg4 : arg4.IsWhole) (arg5 : Memref sig .tc .vmem S1x9 .f32) (harg5 : arg5.IsWhole) (arg6 : Memref sig .tc .vmem S1x8 .f32) (harg6 : arg6.IsWhole) (arg7 : Memref sig .tc .vmem S1x45 .f32) (harg7 : arg7.IsWhole) (arg8 : Memref sig .tc .vmem S1x45 .f32) (harg8 : arg8.IsWhole) (hc0 : ¬cond0_0 i)
    (x0 : Vec F S8192x10 .f32) (x1 : Vec F S8192x10 .f32) (x2 : Vec F S10 .f32) (xo3 : Vec F S1x10 .f32) (xo4 : Vec F S1x9 .f32) (xo5 : Vec F S1x8 .f32) (xo6 : Vec F S1x45 .f32) (xo7 : Vec F S1x45 .f32) :
    out0_B_7 c i arg1 harg1 arg2 harg2 arg3 harg3 arg4 harg4 arg5 harg5 arg6 harg6 arg7 harg7 arg8 harg8 hc0 x0 x1 x2 xo3 xo4 xo5 xo6 xo7 = kCnt x1 xo7 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 xo3 xo4 xo5 xo6 xo7)]
  unfold kernelRun0_B
  dsimp only
  sl_unfold_words
  rw [View.canon_unit_zero (S := S1x45) hz2]
  unfold kCnt pind
  simp only [View.readAt_eq_ld, harg2.read_unread, harg8.read_unread,
    View.ld_unit_zero (S := S8192x10) hz2, View.ld_unit_zero (S := S1x45) hz2]

end Cert.KernelIdeal.Acc

end
-- ==== Proof.LibBlockPrefixSum.lean ====
/-
  A sum over `Fin N` taken block by block, in any commutative monoid.

  For a block width `B`, `blockPrefix B f n` is the sum of `f` over the first `n` blocks, that is over the
  positions below `B * n`. It starts at zero, grows by one block at a time,

      blockPrefix B f (n + 1) = blockPrefix B f n + ∑ j : Fin B, f (B * n + j),

  and once the blocks exhaust the range (`B * n = N`) it is the whole sum `∑ k : Fin N, f k`. Only the
  commutativity and associativity of the addition are used, so the statements hold on the extended reals,
  infinite entries included.

  How it is obtained: `f` is continued by zero beyond `N`, which makes the prefix a sum over an initial
  segment of the naturals; an initial segment of length `B * n + B` splits into the one of length `B * n`
  and a shifted segment of length `B`, and on positions below `N` the continuation is `f` itself.
-/
import Mathlib.Algebra.BigOperators.Fin

namespace BlockPrefixSum

open Finset
open scoped BigOperators

variable {M : Type*} [AddCommMonoid M] {N : ℕ}

/-- `f` continued by zero beyond `N`. -/
def continued (f : Fin N → M) (k : ℕ) : M := if h : k < N then f ⟨k, h⟩ else 0

/-- On a position below `N` the continuation is `f`. -/
theorem continued_of_lt (f : Fin N → M) (k : ℕ) (h : k < N) : continued f k = f ⟨k, h⟩ := dif_pos h

/-- The sum of `f` over its first `n` blocks of width `B`. -/
def blockPrefix (B : ℕ) (f : Fin N → M) (n : ℕ) : M := ∑ k ∈ range (B * n), continued f k

/-- No block: the empty sum. -/
theorem blockPrefix_zero (B : ℕ) (f : Fin N → M) : blockPrefix B f 0 = 0 := by
  unfold blockPrefix
  rw [Nat.mul_zero, range_zero, sum_empty]

/-- One more block: the prefix grows by that block's sum. -/
theorem blockPrefix_succ (B : ℕ) (f : Fin N → M) (n : ℕ) (h : B * n + B ≤ N) :
    blockPrefix B f (n + 1)
      = blockPrefix B f n + ∑ j : Fin B, f ⟨B * n + j.val, lt_of_lt_of_le (Nat.add_lt_add_left j.isLt _) h⟩ := by
  unfold blockPrefix
  rw [Nat.mul_succ, sum_range_add]
  congr 1
  rw [Finset.sum_range]
  exact Finset.sum_congr rfl fun j _ => continued_of_lt f _ _

/-- All the blocks: the whole sum. -/
theorem blockPrefix_all (B : ℕ) (f : Fin N → M) (n : ℕ) (h : B * n = N) :
    blockPrefix B f n = ∑ k : Fin N, f k := by
  unfold blockPrefix
  rw [h, Finset.sum_range]
  exact Finset.sum_congr rfl fun k _ => continued_of_lt f _ k.isLt

end BlockPrefixSum
-- ==== Proof.Spec.lean ====
/-
  The loss both programs compute, written once as plain mathematics on the extended reals.

  For prediction and target rows p, t (ten entries each) and a weight vector w the loss has four parts, each a
  sum over all rows of a per-row term:
    * base:   (p j - t j)² · w j,                                   ten columns;
    * direction: [sign (p (j+1) - p j) ≠ sign (t (j+1) - t j)] · (1 + |t (j+1) - t j|),   nine columns;
    * trend:  ((p (j+2) - 2 p (j+1) + p j) - (t (j+2) - 2 t (j+1) + t j))²,   eight columns;
    * ranking, over the 45 pairs I < J of columns, with td = t I - t J and pd = p I - p J:
        the indicator [|td| > θ], and max (1 - td · pd / (|td| + ε), 0) times that indicator.
  The column sums of the first three are added up and divided by the number of entries; the pair sums go through
  the mean over the pairs that occur at all. That last stretch (`lossTail`) is the same list of operations in both
  programs and is kept closed.
-/
import Idealize.ShloMosaic.PureOps.Ideal
import Idealize.ShloMosaic.PureOps.Ideal.Laws
import Idealize.ShloMosaic.Lib.ValueIdx
import proofs.«106290_j67534065762422_1_alg».proof.Proof.LibBlockPrefixSum

noncomputable section

namespace Loss

open Idealize.ShloMosaic Idealize.ShloMosaic.ValueIdx
open scoped BigOperators

/-- The shapes, as literals. -/
abbrev SB10 : Shape := ⟨2, ![1048576, 10]⟩
abbrev SB9 : Shape := ⟨2, ![1048576, 9]⟩
abbrev SB8 : Shape := ⟨2, ![1048576, 8]⟩
abbrev SB45 : Shape := ⟨2, ![1048576, 45]⟩
abbrev ST10 : Shape := ⟨2, ![8192, 10]⟩
abbrev S10 : Shape := ⟨1, ![10]⟩
abbrev S45 : Shape := ⟨1, ![45]⟩
abbrev S1x10 : Shape := ⟨2, ![1, 10]⟩
abbrev S1x9 : Shape := ⟨2, ![1, 9]⟩
abbrev S1x8 : Shape := ⟨2, ![1, 8]⟩
abbrev S1x45 : Shape := ⟨2, ![1, 45]⟩
abbrev S0 : Shape := ⟨0, ![]⟩

/-- The first column of pair k. -/
def pairI : Fin 45 → Fin 10 := ![0, 0, 0, 0, 0, 0, 0, 0, 0, 1, 1, 1, 1, 1, 1, 1, 1, 2, 2, 2, 2, 2, 2, 2, 3, 3, 3, 3, 3, 3, 4, 4, 4, 4, 4, 5, 5, 5, 5, 6, 6, 6, 7, 7, 8]
/-- The second column of pair k. -/
def pairJ : Fin 45 → Fin 10 := ![1, 2, 3, 4, 5, 6, 7, 8, 9, 2, 3, 4, 5, 6, 7, 8, 9, 3, 4, 5, 6, 7, 8, 9, 4, 5, 6, 7, 8, 9, 5, 6, 7, 8, 9, 6, 7, 8, 9, 7, 8, 9, 8, 9, 9]

/-- A one-bit word as a number: 0 or 1. -/
def bitf (b : BitVec 1) : EReal := ((b.toNat : ℝ) : EReal)

/-- Row b of an [n, 10] array. -/
def rowOf {n : Nat} (X : (⟨2, ![n, 10]⟩ : Shape).Idx → EReal) (b : Fin n) : Fin 10 → EReal := fun j => X (ix2 b j)
/-- A [10] vector as a function of its coordinate. -/
def vecOf (W : S10.Idx → EReal) : Fin 10 → EReal := fun j => W (ix1 j)

/-- The base term of a row at column j. -/
def baseRow (p t w : Fin 10 → EReal) (j : Fin 10) : EReal := (p j - t j) * (p j - t j) * w j

/-- The direction term of a row at column j < 9. -/
def dirRow (p t : Fin 10 → EReal) (j : Fin 9) : EReal :=
  bitf (Ideal.cmp .une (Ideal.sign (p ⟨j.val + 1, by omega⟩ - p ⟨j.val, by omega⟩))
      (Ideal.sign (t ⟨j.val + 1, by omega⟩ - t ⟨j.val, by omega⟩)))
    * (Ideal.ofBits .f32 0x3F800000#32
        + max (t ⟨j.val + 1, by omega⟩ - t ⟨j.val, by omega⟩) (-(t ⟨j.val + 1, by omega⟩ - t ⟨j.val, by omega⟩)))

/-- The second difference of a row at column j < 8. -/
def secondDiff (p : Fin 10 → EReal) (j : Fin 8) : EReal :=
  p ⟨j.val + 2, by omega⟩ - Ideal.ofBits .f32 0x40000000#32 * p ⟨j.val + 1, by omega⟩ + p ⟨j.val, by omega⟩

/-- The trend term of a row at column j < 8. -/
def trendRow (p t : Fin 10 → EReal) (j : Fin 8) : EReal :=
  (secondDiff p j - secondDiff t j) * (secondDiff p j - secondDiff t j)

/-- The pair indicator of a row at pair k: the target difference exceeds the threshold in absolute value. -/
def sigRow (t : Fin 10 → EReal) (k : Fin 45) : EReal :=
  bitf (Ideal.cmp .ogt (max (t (pairI k) - t (pairJ k)) (-(t (pairI k) - t (pairJ k)))) (Ideal.ofBits .f32 0x3C23D70A#32))

/-- The pair error of a row at pair k, times the indicator. -/
def errRow (p t : Fin 10 → EReal) (k : Fin 45) : EReal :=
  max (Ideal.ofBits .f32 0x3F800000#32
        - Ideal.div ((t (pairI k) - t (pairJ k)) * (p (pairI k) - p (pairJ k)))
            (max (t (pairI k) - t (pairJ k)) (-(t (pairI k) - t (pairJ k))) + Ideal.ofBits .f32 0x322BCC77#32))
      (Ideal.ofBits .f32 0x00000000#32)
    * sigRow t k

/-! ## The whole arrays of per-row terms (the reference's intermediate arrays) -/

def baseArr (P T : SB10.Idx → EReal) (W : S10.Idx → EReal) : SB10.Idx → EReal :=
  fun i => baseRow (rowOf P (i 0)) (rowOf T (i 0)) (vecOf W) (i 1)
def dirArr (P T : SB10.Idx → EReal) : SB9.Idx → EReal := fun i => dirRow (rowOf P (i 0)) (rowOf T (i 0)) (i 1)
def trendArr (P T : SB10.Idx → EReal) : SB8.Idx → EReal := fun i => trendRow (rowOf P (i 0)) (rowOf T (i 0)) (i 1)
def sigArr (T : SB10.Idx → EReal) : SB45.Idx → EReal := fun i => sigRow (rowOf T (i 0)) (i 1)
def errArr (P T : SB10.Idx → EReal) : SB45.Idx → EReal := fun i => errRow (rowOf P (i 0)) (rowOf T (i 0)) (i 1)

/-! ## Their column sums (what the kernel's five accumulators end at) -/

def baseCol (P T : SB10.Idx → EReal) (W : S10.Idx → EReal) : S1x10.Idx → EReal :=
  fun i => ∑ b : Fin 1048576, baseRow (rowOf P b) (rowOf T b) (vecOf W) (i 1)
def dirCol (P T : SB10.Idx → EReal) : S1x9.Idx → EReal := fun i => ∑ b : Fin 1048576, dirRow (rowOf P b) (rowOf T b) (i 1)
def trendCol (P T : SB10.Idx → EReal) : S1x8.Idx → EReal := fun i => ∑ b : Fin 1048576, trendRow (rowOf P b) (rowOf T b) (i 1)
def sigCol (T : SB10.Idx → EReal) : S1x45.Idx → EReal := fun i => ∑ b : Fin 1048576, sigRow (rowOf T b) (i 1)
def errCol (P T : SB10.Idx → EReal) : S1x45.Idx → EReal := fun i => ∑ b : Fin 1048576, errRow (rowOf P b) (rowOf T b) (i 1)

/-! ## The closing stretch, shared by the two programs

From the three total sums (rank 0), the per-pair counts `cnt` and the per-pair error sums `err` (both [45]):
the three means, the mean over the pairs that occur of err / max (cnt, 1), and the weighted sum. The operations
are the host operations both programs end with, in their order. -/

def lossTail (sb sd st : FVec Ideal S0 .f32) (cnt err : FVec Ideal S45 .f32) : FVec Ideal S0 .f32 :=
  let zero0 : FVec Ideal S0 .f32 := constant S0 .f32 0x00000000#32
  let one0 : FVec Ideal S0 .f32 := constant S0 .f32 0x3F800000#32
  let base := Host.divf sb (constant S0 .f32 0x4B200000#32)
  let dir := Host.divf sd (constant S0 .f32 0x4B100000#32)
  let trend := Host.divf st (constant S0 .f32 0x4B000000#32)
  let zero45 : FVec Ideal S45 .f32 := broadcastInDim S45 ![] (by decide) zero0
  let one45 : FVec Ideal S45 .f32 := broadcastInDim S45 ![] (by decide) one0
  let pairMean : FVec Ideal S45 .f32 :=
    select (cmpf .ogt cnt zero45) (Host.divf err (maximumf cnt one45)) (broadcastInDim S45 ![] (by decide) (id zero0))
  let occ : FVec Ideal S45 .f32 := uitofp .f32 (cmpf .ogt cnt zero45)
  let nPairs : FVec Ideal S0 .f32 := Host.reduceAdd occ zero0 (by decide : S45.ReducesTo [0] S0) (by decide)
  let sumMean : FVec Ideal S0 .f32 := Host.reduceAdd pairMean zero0 (by decide : S45.ReducesTo [0] S0) (by decide)
  let ranking := Host.divf sumMean (maximumf nPairs one0)
  addf (addf (addf (mulf one0 base) (mulf (constant S0 .f32 0x3E99999A#32) dir))
    (mulf (constant S0 .f32 0x3E4CCCCD#32) trend)) (mulf (constant S0 .f32 0x3DCCCCCD#32) ranking)

/-- The kernel's result from what its five accumulators end at: the closing stretch over the three [1, k] arrays'
    total sums and the two [1, 45] arrays read as [45]. -/
def kernelTotal (a3 : S1x10.Idx → EReal) (a4 : S1x9.Idx → EReal) (a5 : S1x8.Idx → EReal) (a6 a7 : S1x45.Idx → EReal) :
    FVec Ideal S0 .f32 :=
  lossTail
    (Host.reduceAdd (F := Ideal) (φ := .f32) a3 (constant S0 .f32 0x00000000#32) (by decide : S1x10.ReducesTo [0, 1] S0) (by decide))
    (Host.reduceAdd (F := Ideal) (φ := .f32) a4 (constant S0 .f32 0x00000000#32) (by decide : S1x9.ReducesTo [0, 1] S0) (by decide))
    (Host.reduceAdd (F := Ideal) (φ := .f32) a5 (constant S0 .f32 0x00000000#32) (by decide : S1x8.ReducesTo [0, 1] S0) (by decide))
    (shapeCast S45 a7 (by decide))
    (shapeCast S45 a6 (by decide))

/-- The reference's result from the argument arrays: the closing stretch over the total sums of the three arrays of
    per-row terms and the column sums of the two pair arrays. -/
def refTotal (P T : SB10.Idx → EReal) (W : S10.Idx → EReal) : FVec Ideal S0 .f32 :=
  lossTail
    (Host.reduceAdd (F := Ideal) (φ := .f32) (baseArr P T W) (constant S0 .f32 0x00000000#32) (by decide : SB10.ReducesTo [0, 1] S0) (by decide))
    (Host.reduceAdd (F := Ideal) (φ := .f32) (dirArr P T) (constant S0 .f32 0x00000000#32) (by decide : SB9.ReducesTo [0, 1] S0) (by decide))
    (Host.reduceAdd (F := Ideal) (φ := .f32) (trendArr P T) (constant S0 .f32 0x00000000#32) (by decide : SB8.ReducesTo [0, 1] S0) (by decide))
    (Host.reduceAdd (F := Ideal) (φ := .f32) (sigArr T) (constant S0 .f32 0x00000000#32) (by decide : SB45.ReducesTo [0] S45) (by decide))
    (Host.reduceAdd (F := Ideal) (φ := .f32) (errArr P T) (constant S0 .f32 0x00000000#32) (by decide : SB45.ReducesTo [0] S45) (by decide))

end Loss

end
-- ==== Proof.KPay.lean ====
/-
  The body's five results at one grid point, read at an entry on the extended reals: the running contents at that entry
  plus the sum over the block's 8192 rows of the row's term (Spec). The zero blocks the first point stores are zero.
-/
import proofs.«106290_j67534065762422_1_alg».proof.Proof.KDefs
import proofs.«106290_j67534065762422_1_alg».proof.Proof.Spec
import Idealize.ShloMosaic.Lib.Pipeline.Value
import Idealize.ShloMosaic.Lib.ValueLayout
import Idealize.ShloMosaic.Lib.KernelVsHost

noncomputable section

namespace Cert.KernelIdeal.Acc

open Idealize.ShloMosaic Idealize.ShloMosaic.ValueIdx Cert.KernelIdeal Cert.KernelIdeal.Gen
open scoped BigOperators

/-! ## The index a one-axis reduction over the rows reads: (r, j) -/

theorem lift10 (j : Fin 10) (r : Fin 8192) : reduces_S8192x10_S10.lift (ix1 j) r = ix2 r j := by
  funext a
  match a with
  | ⟨0, _⟩ => exact Fin.ext rfl
  | ⟨1, _⟩ => exact Fin.ext rfl

theorem lift9 (j : Fin 9) (r : Fin 8192) : reduces_S8192x9_S9.lift (ix1 j) r = ix2 r j := by
  funext a
  match a with
  | ⟨0, _⟩ => exact Fin.ext rfl
  | ⟨1, _⟩ => exact Fin.ext rfl

theorem lift8 (j : Fin 8) (r : Fin 8192) : reduces_S8192x8_S8.lift (ix1 j) r = ix2 r j := by
  funext a
  match a with
  | ⟨0, _⟩ => exact Fin.ext rfl
  | ⟨1, _⟩ => exact Fin.ext rfl

/-! ## The base term -/

theorem kBase_ix (x0 x1 : Vec Ideal S8192x10 .f32) (x2 : Vec Ideal S10 .f32) (acc : Vec Ideal S1x10 .f32) (u : Fin 1) (j : Fin 10) :
    kBase (F := Ideal) x0 x1 x2 acc (ix2 u j)
      = acc (ix2 u j) + ∑ r : Fin 8192, Loss.baseRow (Loss.rowOf x0 r) (Loss.rowOf x1 r) (Loss.vecOf x2) j := by
  unfold kBase k0_pay8
  dsimp only
  refine (addf_apply _ _ _).trans ?_
  refine congrArg₂ (· + ·) ?_ ?_
  · exact congrFun (shapeCast_self acc _) (ix2 u j)
  · refine (shapeCast_a_1a_apply _ _ u j).trans ?_
    refine (Ideal.multiReduction_add_single _ _ _ _ _ (ix1 j)).trans ?_
    refine Finset.sum_congr rfl fun (r : Fin 8192) _ => ?_
    refine (congrArg _ (lift10 j r)).trans ?_
    have hw : broadcastTo S8192x10 (shapeCast S1x10 x2 shapeCasts_S10_S1x10) broadcasts_S1x10_S8192x10 (ix2 r j) = x2 (ix1 j) :=
      (broadcastTo_1b_ab_apply _ _ r j).trans (shapeCast_a_1a_apply _ _ 0 j)
    show (x0 (ix2 r j) - x1 (ix2 r j)) * (x0 (ix2 r j) - x1 (ix2 r j))
        * broadcastTo S8192x10 (shapeCast S1x10 x2 shapeCasts_S10_S1x10) broadcasts_S1x10_S8192x10 (ix2 r j) = _
    rw [hw]
    rfl

theorem kBase_apply (x0 x1 : Vec Ideal S8192x10 .f32) (x2 : Vec Ideal S10 .f32) (acc : Vec Ideal S1x10 .f32) (i : S1x10.Idx) :
    kBase (F := Ideal) x0 x1 x2 acc i
      = acc i + ∑ r : Fin 8192, Loss.baseRow (Loss.rowOf x0 r) (Loss.rowOf x1 r) (Loss.vecOf x2) (i 1) := by
  obtain ⟨u, j, rfl⟩ : ∃ (u : Fin 1) (j : Fin 10), i = ix2 u j := ⟨i 0, i 1, eq_ix2 i⟩
  exact kBase_ix x0 x1 x2 acc u j

/-! ## The direction term -/

/-- The difference of neighbouring columns, at (r, j): column j + 1 minus column j. -/
theorem pay9_ix (x : Vec Ideal S8192x10 .f32) (r : Fin 8192) (j : Fin 9) :
    k0_pay9 (F := Ideal) x (ix2 r j) = x (ix2 r ⟨j.val + 1, by omega⟩) - x (ix2 r ⟨j.val, by omega⟩) := by
  unfold k0_pay9
  refine (subf_apply _ _ _).trans ?_
  refine congrArg₂ (· - ·) ?_ ?_
  · exact slice2_axis1_apply 1 x _ r j _ (Nat.add_comm _ _)
  · exact slice2_axis1_apply 0 x _ r j _ (Nat.zero_add _).symm

/-- On the extended reals "ordered and not equal" and "unordered or not equal" are both "not equal". -/
theorem cmp_one_eq_une (x y : EReal) : Ideal.cmp .one x y = Ideal.cmp .une x y := rfl

/-- A bit widened to a word and converted signed is the bit as a number. -/
theorem sitofp_bit (b : BitVec 1) : FloatOps.sitofp (F := Ideal) .f32 (b.setWidth 32) = Loss.bitf b := by
  show ((((b.setWidth 32).toInt : ℝ)) : EReal) = ((b.toNat : ℝ) : EReal)
  rw [toInt_setWidth_bit]
  norm_cast

/-- The mismatch word at (r, j): the bit "the two differences' signs differ", widened. -/
theorem pay10_ix (x0 x1 : Vec Ideal S8192x10 .f32) (r : Fin 8192) (j : Fin 9) :
    k0_pay10 (F := Ideal) x0 x1 (ix2 r j)
      = (Ideal.cmp .une (Ideal.sign (x0 (ix2 r ⟨j.val + 1, by omega⟩) - x0 (ix2 r ⟨j.val, by omega⟩)))
          (Ideal.sign (x1 (ix2 r ⟨j.val + 1, by omega⟩) - x1 (ix2 r ⟨j.val, by omega⟩)))).setWidth 32 := by
  unfold k0_pay10
  refine (extui_apply _ _ _).trans ?_
  refine congrArg (BitVec.setWidth 32) ?_
  refine (cmpf_apply _ _ _ _).trans ?_
  refine (Ideal.cmpf_def _ _ _).trans ?_
  refine (cmp_one_eq_une _ _).trans ?_
  refine congrArg₂ (Ideal.cmp .une) ?_ ?_
  · refine (Ideal.jnp_sign_eq_sign_f32 (k0_pay9 (F := Ideal) x0 (ix2 r j))).trans ?_
    exact congrArg Ideal.sign (pay9_ix x0 r j)
  · refine (Ideal.jnp_sign_eq_sign_f32 (k0_pay9 (F := Ideal) x1 (ix2 r j))).trans ?_
    exact congrArg Ideal.sign (pay9_ix x1 r j)

theorem kDir_ix (x0 x1 : Vec Ideal S8192x10 .f32) (acc : Vec Ideal S1x9 .f32) (u : Fin 1) (j : Fin 9) :
    kDir (F := Ideal) x0 x1 acc (ix2 u j)
      = acc (ix2 u j) + ∑ r : Fin 8192, Loss.dirRow (Loss.rowOf x0 r) (Loss.rowOf x1 r) j := by
  unfold kDir k0_pay11
  dsimp only
  refine (addf_apply _ _ _).trans ?_
  refine congrArg₂ (· + ·) ?_ ?_
  · exact congrFun (shapeCast_self acc _) (ix2 u j)
  · refine (shapeCast_a_1a_apply _ _ u j).trans ?_
    refine (Ideal.multiReduction_add_single _ _ _ _ _ (ix1 j)).trans ?_
    refine Finset.sum_congr rfl fun (r : Fin 8192) _ => ?_
    refine (congrArg _ (lift9 j r)).trans ?_
    show FloatOps.sitofp (F := Ideal) .f32 (k0_pay10 (F := Ideal) x0 x1 (ix2 r j))
        * (Scalar.ofBits (F := Ideal) .f32 0x3F800000#32 + FloatOps.absf (k0_pay9 (F := Ideal) x1 (ix2 r j))) = _
    rw [pay10_ix, pay9_ix, sitofp_bit]
    rfl

theorem kDir_apply (x0 x1 : Vec Ideal S8192x10 .f32) (acc : Vec Ideal S1x9 .f32) (i : S1x9.Idx) :
    kDir (F := Ideal) x0 x1 acc i = acc i + ∑ r : Fin 8192, Loss.dirRow (Loss.rowOf x0 r) (Loss.rowOf x1 r) (i 1) := by
  obtain ⟨u, j, rfl⟩ : ∃ (u : Fin 1) (j : Fin 9), i = ix2 u j := ⟨i 0, i 1, eq_ix2 i⟩
  exact kDir_ix x0 x1 acc u j

/-! ## The trend term -/

theorem kTrend_ix (x0 x1 : Vec Ideal S8192x10 .f32) (acc : Vec Ideal S1x8 .f32) (u : Fin 1) (j : Fin 8) :
    kTrend (F := Ideal) x0 x1 acc (ix2 u j)
      = acc (ix2 u j) + ∑ r : Fin 8192, Loss.trendRow (Loss.rowOf x0 r) (Loss.rowOf x1 r) j := by
  unfold kTrend k0_pay12
  dsimp only
  refine (addf_apply _ _ _).trans ?_
  refine congrArg₂ (· + ·) ?_ ?_
  · exact congrFun (shapeCast_self acc _) (ix2 u j)
  · refine (shapeCast_a_1a_apply _ _ u j).trans ?_
    refine (Ideal.multiReduction_add_single _ _ _ _ _ (ix1 j)).trans ?_
    refine Finset.sum_congr rfl fun (r : Fin 8192) _ => ?_
    refine (congrArg _ (lift8 j r)).trans ?_
    have s2 : ∀ x : Vec Ideal S8192x10 .f32,
        extractStridedSlice S8192x8 ![0, 2] x slices_S8192x10_o0_2_S8192x8 (ix2 r j) = x (ix2 r ⟨j.val + 2, by omega⟩) :=
      fun x => slice2_axis1_apply 2 x _ r j _ (Nat.add_comm _ _)
    have s1 : ∀ x : Vec Ideal S8192x10 .f32,
        extractStridedSlice S8192x8 ![0, 1] x slices_S8192x10_o0_1_S8192x8 (ix2 r j) = x (ix2 r ⟨j.val + 1, by omega⟩) :=
      fun x => slice2_axis1_apply 1 x _ r j _ (Nat.add_comm _ _)
    have s0 : ∀ x : Vec Ideal S8192x10 .f32,
        extractStridedSlice S8192x8 ![0, 0] x slices_S8192x10_o0_0_S8192x8 (ix2 r j) = x (ix2 r ⟨j.val, by omega⟩) :=
      fun x => slice2_axis1_apply 0 x _ r j _ (Nat.zero_add _).symm
    simp only [mulf_apply, subf_apply, addf_apply, broadcast_apply, s2, s1, s0]
    rfl

theorem kTrend_apply (x0 x1 : Vec Ideal S8192x10 .f32) (acc : Vec Ideal S1x8 .f32) (i : S1x8.Idx) :
    kTrend (F := Ideal) x0 x1 acc i = acc i + ∑ r : Fin 8192, Loss.trendRow (Loss.rowOf x0 r) (Loss.rowOf x1 r) (i 1) := by
  obtain ⟨u, j, rfl⟩ : ∃ (u : Fin 1) (j : Fin 8), i = ix2 u j := ⟨i 0, i 1, eq_ix2 i⟩
  exact kTrend_ix x0 x1 acc u j

/-! ## The zero blocks -/

theorem zero3 : (k0_pay3 : FVec Ideal S1x10 .f32) = fun _ => 0 := by
  unfold k0_pay3
  funext i
  exact Ideal.ofBits_zero_f32
theorem zero4 : (k0_pay4 : FVec Ideal S1x9 .f32) = fun _ => 0 := by
  unfold k0_pay4
  funext i
  exact Ideal.ofBits_zero_f32
theorem zero5 : (k0_pay5 : FVec Ideal S1x8 .f32) = fun _ => 0 := by
  unfold k0_pay5
  funext i
  exact Ideal.ofBits_zero_f32
theorem zero6 : (k0_pay6 : FVec Ideal S1x45 .f32) = fun _ => 0 := by
  unfold k0_pay6
  funext i
  exact Ideal.ofBits_zero_f32
theorem zero7 : (k0_pay7 : FVec Ideal S1x45 .f32) = fun _ => 0 := by
  unfold k0_pay7
  funext i
  exact Ideal.ofBits_zero_f32

end Cert.KernelIdeal.Acc

end
-- ==== Proof.KPair.lean ====
/-
  The two pair results of the body at one grid point, read at an entry on the extended reals: the 45 pair columns are
  laid side by side from single columns of the block, so entry (r, k) of each laid-out array is the block's row r at
  the pair's column; the running contents plus the sum over the rows of the row's pair term (Spec).
-/
import proofs.«106290_j67534065762422_1_alg».proof.Proof.KDefs
import proofs.«106290_j67534065762422_1_alg».proof.Proof.Spec
import Idealize.ShloMosaic.Lib.Pipeline.Value
import Idealize.ShloMosaic.Lib.ValueLayout
import Idealize.ShloMosaic.Lib.KernelVsHost

noncomputable section

namespace Cert.KernelIdeal.Acc

open Idealize.ShloMosaic Idealize.ShloMosaic.ValueIdx Cert.KernelIdeal Cert.KernelIdeal.Gen
open scoped BigOperators

/-- Any single column of a ten-column block can be cut out. -/
private theorem slicesCol (c : Fin 10) : S8192x10.Slices ![0, c.val] S8192x1 :=
  ⟨rfl, fun a => by
    match a with
    | ⟨0, _⟩ => exact Nat.le_refl _
    | ⟨1, _⟩ => exact (show c.val + 1 ≤ 10 by omega)⟩

/-- Forty-five single columns of a ten-column block laid side by side, the k-th being the block's column c k:
    entry (r, k) of the result is entry (r, c k) of the block. -/
private theorem concatCols_apply {α : Type} (x : S8192x10.Idx → α) (c : Fin 45 → Fin 10)
    (h : Shape.Concatenates ((List.ofFn fun n : Fin 45 =>
      (⟨S8192x1, extractStridedSlice S8192x1 ![0, (c n).val] x (slicesCol (c n))⟩ : (s : Shape) × (s.Idx → α))).map (·.1)) S8192x45 1)
    (r : Fin 8192) (k : Fin 45) :
    concatenate S8192x45 1 (List.ofFn fun n : Fin 45 =>
      (⟨S8192x1, extractStridedSlice S8192x1 ![0, (c n).val] x (slicesCol (c n))⟩ : (s : Shape) × (s.Idx → α))) h (ix2 r k)
      = x (ix2 r (c k)) :=
  (concatenate_ofFn_unit_apply (t := S8192x45) (s₁ := S8192x1) 1
    (fun n : Fin 45 => extractStridedSlice S8192x1 ![0, (c n).val] x (slicesCol (c n))) h rfl rfl
    (ix2 r k) k rfl (ix2 r 0) (fun b hb => by
      match b with
      | ⟨0, _⟩ => rfl
      | ⟨1, _⟩ => exact absurd rfl hb)).trans
  (extractStridedSlice_apply ![0, (c k).val] x (slicesCol (c k)) (ix2 r 0) (ix2 r (c k)) (fun a => by
    match a with
    | ⟨0, _⟩ => simp
    | ⟨1, _⟩ => simp))

/-- Entry (r, k) of the predictions' first pair columns is the block's row r at the pair's first column. -/
theorem predI_apply (x0 : Vec Ideal S8192x10 .f32) (r : Fin 8192) (k : Fin 45) :
    predI (F := Ideal) x0 (ix2 r k) = x0 (ix2 r (Loss.pairI k)) :=
  concatCols_apply x0 Loss.pairI concatenates_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x45_d1 r k

/-- Entry (r, k) of the predictions' second pair columns is the block's row r at the pair's second column. -/
theorem predJ_apply (x0 : Vec Ideal S8192x10 .f32) (r : Fin 8192) (k : Fin 45) :
    predJ (F := Ideal) x0 (ix2 r k) = x0 (ix2 r (Loss.pairJ k)) :=
  concatCols_apply x0 Loss.pairJ concatenates_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x45_d1 r k

/-- Entry (r, k) of the prediction differences: the block's row r at the pair's two columns, subtracted. -/
theorem pdiff_apply (x0 : Vec Ideal S8192x10 .f32) (r : Fin 8192) (k : Fin 45) :
    pdiff (F := Ideal) x0 (ix2 r k) = x0 (ix2 r (Loss.pairI k)) - x0 (ix2 r (Loss.pairJ k)) :=
  (subf_apply (predI x0) (predJ x0) (ix2 r k)).trans (congrArg₂ (· - ·) (predI_apply x0 r k) (predJ_apply x0 r k))

/-- Entry (r, k) of the target differences likewise. -/
theorem tdiff_apply (x1 : Vec Ideal S8192x10 .f32) (r : Fin 8192) (k : Fin 45) :
    tdiff (F := Ideal) x1 (ix2 r k) = x1 (ix2 r (Loss.pairI k)) - x1 (ix2 r (Loss.pairJ k)) :=
  (subf_apply _ _ (ix2 r k)).trans (congrArg₂ (· - ·)
    (concatCols_apply x1 Loss.pairI concatenates_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x45_d1 r k)
    (concatCols_apply x1 Loss.pairJ concatenates_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x1_S8192x45_d1 r k))

/-- Entry (r, k) of the indicators: the row's pair indicator. -/
theorem pind_apply (x1 : Vec Ideal S8192x10 .f32) (r : Fin 8192) (k : Fin 45) :
    pind (F := Ideal) x1 (ix2 r k) = Loss.sigRow (Loss.rowOf x1 r) k := by
  refine (congrFun (sitofp_extui_eq_uitofp (φ := .f32) _ (by decide)) (ix2 r k)).trans ?_
  show Loss.bitf (Ideal.cmp .ogt (max (tdiff x1 (ix2 r k)) (-(tdiff x1 (ix2 r k)))) (Ideal.ofBits .f32 0x3C23D70A#32)) = _
  rw [tdiff_apply]
  rfl

/-- The index a sum over the rows inserts row r into, at pair k. -/
private theorem lift_row (h : S8192x45.Reduces [0] S45) (j : S45.Idx) (r : Fin 8192) : h.lift j r = ix2 r (j 0) := by
  funext a
  match a with
  | ⟨0, _⟩ => exact Fin.ext rfl
  | ⟨1, _⟩ => exact Fin.ext rfl

theorem kErr_apply (x0 x1 : Vec Ideal S8192x10 .f32) (acc : Vec Ideal S1x45 .f32) (i : S1x45.Idx) :
    kErr (F := Ideal) x0 x1 acc i = acc i + ∑ r : Fin 8192, Loss.errRow (Loss.rowOf x0 r) (Loss.rowOf x1 r) (i 1) := by
  obtain ⟨a, k, rfl⟩ : ∃ (a : Fin 1) (k : Fin 45), i = ix2 a k := ⟨i 0, i 1, eq_ix2 i⟩
  refine (addf_apply _ _ _).trans (congrArg₂ (· + ·) (congrFun (shapeCast_self acc shapeCasts_S1x45_S1x45) _) ?_)
  refine (shapeCast_addUnit_apply (n := 1) ![45] _ shapeCasts_S45_S1x45 _).trans ?_
  refine (Ideal.multiReduction_add_single _ 0x00000000#32 reduces_S8192x45_S45 (.inl rfl) rfl _).trans ?_
  refine Finset.sum_congr rfl (fun (r : Fin 8192) _ => ?_)
  refine (congrArg _ (lift_row reduces_S8192x45_S45 _ r)).trans ?_
  show max (Ideal.ofBits .f32 0x3F800000#32
        - Ideal.div (tdiff x1 (ix2 r k) * pdiff x0 (ix2 r k))
            (max (tdiff x1 (ix2 r k)) (-(tdiff x1 (ix2 r k))) + Ideal.ofBits .f32 0x322BCC77#32))
      (Ideal.ofBits .f32 0x00000000#32) * pind x1 (ix2 r k) = Loss.errRow (Loss.rowOf x0 r) (Loss.rowOf x1 r) k
  rw [tdiff_apply, pdiff_apply, pind_apply]
  rfl

theorem kCnt_apply (x1 : Vec Ideal S8192x10 .f32) (acc : Vec Ideal S1x45 .f32) (i : S1x45.Idx) :
    kCnt (F := Ideal) x1 acc i = acc i + ∑ r : Fin 8192, Loss.sigRow (Loss.rowOf x1 r) (i 1) := by
  obtain ⟨a, k, rfl⟩ : ∃ (a : Fin 1) (k : Fin 45), i = ix2 a k := ⟨i 0, i 1, eq_ix2 i⟩
  refine (addf_apply _ _ _).trans (congrArg₂ (· + ·) (congrFun (shapeCast_self acc shapeCasts_S1x45_S1x45) _) ?_)
  refine (shapeCast_addUnit_apply (n := 1) ![45] _ shapeCasts_S45_S1x45 _).trans ?_
  refine (Ideal.multiReduction_add_single _ 0x00000000#32 reduces_S8192x45_S45 (.inl rfl) rfl _).trans ?_
  refine Finset.sum_congr rfl (fun (r : Fin 8192) _ => ?_)
  refine (congrArg _ (lift_row reduces_S8192x45_S45 _ r)).trans ?_
  exact pind_apply x1 r k

end Cert.KernelIdeal.Acc

end
-- ==== Proof.KAccum.lean ====
/-
  The five accumulators over the grid, on the extended reals. After grid point n each holds, at every entry, the sum of
  the row terms over the rows of the first n + 1 blocks of 8192 rows: the first point starts from zero and adds block 0,
  every later point adds its own block to what the point before left. After the last point (128 blocks, all 1048576
  rows) that is the column sum over every row, and since the blocks' index maps never move, the one write-back, after
  the last point, leaves exactly that in the array.
-/
import proofs.«106290_j67534065762422_1_alg».proof.Proof.Gen.KernelIdeal.Frame
import proofs.«106290_j67534065762422_1_alg».proof.Proof.KPieces
import proofs.«106290_j67534065762422_1_alg».proof.Proof.KPay
import proofs.«106290_j67534065762422_1_alg».proof.Proof.KPair
import proofs.«106290_j67534065762422_1_alg».proof.Proof.Spec
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

open scoped BigOperators

variable (m : (ℓ : Loc nD τ sig) → Buf (Elt Ideal) ℓ)

namespace Accum

/-- The argument arrays as the region finds them, and the three input blocks at a grid point, at their literal types. -/
abbrev parr (c : Dev nD) : Vec Ideal S1048576x10 .f32 := V m c main_arg0
abbrev tarr (c : Dev nD) : Vec Ideal S1048576x10 .f32 := V m c main_arg1
abbrev warr (c : Dev nD) : Vec Ideal S10 .f32 := V m c main_arg2
abbrev pblk (c : Dev nD) (t : Fin cfg0.N) : Vec Ideal S8192x10 .f32 := iblk m c 0 t
abbrev tblk (c : Dev nD) (t : Fin cfg0.N) : Vec Ideal S8192x10 .f32 := iblk m c 1 t
abbrev wblk (c : Dev nD) (t : Fin cfg0.N) : Vec Ideal S10 .f32 := iblk m c 2 t

/-- The printed index maps, decided over the grid: the two row windows sit at block (t, 0), the weight window at block 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = 0 :=
  (by decide +kernel : ∀ t : Fin grid0.N, _)

theorem rows_lt (t : Fin cfg0.N) (r : Fin 8192) : 8192 * t.val + r.val < 1048576 := by
  have hN : cfg0.N = 128 := N_0
  have h1 := t.isLt
  have h2 := r.isLt
  omega

/-- Entry (r, j) of the predictions' block at point t is entry (8192 t + r, j) of the predictions. -/
theorem pblk_apply (c : Dev nD) (t : Fin cfg0.N) (r : Fin 8192) (j : Fin 10) :
    pblk m c t (ix2 r j) = parr m c (ix2 ⟨8192 * t.val + r.val, rows_lt t r⟩ j) := by
  show V m c main_arg0 (((cfg0.win 0).blk t).view.emb (ix2 r j)) = V m c main_arg0 (ix2 ⟨8192 * t.val + r.val, rows_lt t r⟩ j)
  congr 1
  funext a
  apply Fin.ext
  match a with
  | ⟨0, _⟩ => show win0_0.index t 0 * 8192 + 1 * r.val = 8192 * t.val + r.val; rw [(idx_in t).1]; omega
  | ⟨1, _⟩ => show win0_0.index t 1 * 10 + 1 * j.val = j.val; rw [(idx_in t).2.1]; omega

/-- Entry (r, j) of the targets' block at point t is entry (8192 t + r, j) of the targets. -/
theorem tblk_apply (c : Dev nD) (t : Fin cfg0.N) (r : Fin 8192) (j : Fin 10) :
    tblk m c t (ix2 r j) = tarr m c (ix2 ⟨8192 * t.val + r.val, rows_lt t r⟩ j) := by
  show V m c main_arg1 (((cfg0.win 1).blk t).view.emb (ix2 r j)) = V m c main_arg1 (ix2 ⟨8192 * t.val + r.val, rows_lt t r⟩ j)
  congr 1
  funext a
  apply Fin.ext
  match a with
  | ⟨0, _⟩ => show win0_1.index t 0 * 8192 + 1 * r.val = 8192 * t.val + r.val; rw [(idx_in t).2.2.1]; omega
  | ⟨1, _⟩ => show win0_1.index t 1 * 10 + 1 * j.val = j.val; rw [(idx_in t).2.2.2.1]; omega

/-- The weights' block at every point is the whole weight vector. -/
theorem wblk_apply (c : Dev nD) (t : Fin cfg0.N) (j : Fin 10) : wblk m c t (ix1 j) = warr m c (ix1 j) := by
  show V m c main_arg2 (((cfg0.win 2).blk t).view.emb (ix1 j)) = V m c main_arg2 (ix1 j)
  congr 1
  funext a
  apply Fin.ext
  match a with
  | ⟨0, _⟩ => show win0_2.index t 0 * 10 + 1 * j.val = j.val; rw [(idx_in t).2.2.2.2]; omega

/-- Row r of a block at point t is row 8192 t + r of the array. -/
theorem prow (c : Dev nD) (t : Fin cfg0.N) (r : Fin 8192) :
    Loss.rowOf (pblk m c t) r = Loss.rowOf (parr m c) ⟨8192 * t.val + r.val, rows_lt t r⟩ :=
  funext fun j => pblk_apply m c t r j
theorem trow (c : Dev nD) (t : Fin cfg0.N) (r : Fin 8192) :
    Loss.rowOf (tblk m c t) r = Loss.rowOf (tarr m c) ⟨8192 * t.val + r.val, rows_lt t r⟩ :=
  funext fun j => tblk_apply m c t r j
theorem wvec (c : Dev nD) (t : Fin cfg0.N) : Loss.vecOf (wblk m c t) = Loss.vecOf (warr m c) :=
  funext fun j => wblk_apply m c t j

/-! ## Prefix sums over blocks of 8192 rows -/

/-- A family of running values that starts at the first block's sum and grows by one block's sum per step is, after
    step n, the sum over the first n + 1 blocks. -/
theorem prefix_induction {K : Type} {N : ℕ} (hN : 8192 * N = 1048576) (f : K → Fin 1048576 → EReal)
    (out : (n : ℕ) → n < N → K → EReal)
    (h0 : ∀ (hn : 0 < N) (i : K),
      out 0 hn i = 0 + ∑ r : Fin 8192, f i ⟨8192 * 0 + r.val, by have := r.isLt; omega⟩)
    (hS : ∀ (n : ℕ) (hn : n + 1 < N) (i : K),
      out (n + 1) hn i = out n (Nat.lt_of_succ_lt hn) i
        + ∑ r : Fin 8192, f i ⟨8192 * (n + 1) + r.val, by have := r.isLt; omega⟩) :
    ∀ (n : ℕ) (hn : n < N) (i : K), out n hn i = BlockPrefixSum.blockPrefix 8192 (f i) (n + 1)
  | 0, hn, i => by
    rw [h0 hn i, BlockPrefixSum.blockPrefix_succ 8192 (f i) 0 (by omega), BlockPrefixSum.blockPrefix_zero]
  | n + 1, hn, i => by
    rw [hS n hn i, prefix_induction hN f out h0 hS n (Nat.lt_of_succ_lt hn) i,
      BlockPrefixSum.blockPrefix_succ 8192 (f i) (n + 1) (by omega)]

/-! ## The last point and the write-back -/

/-- The last grid point. -/
abbrev tlast : Fin cfg0.N := ⟨127, by rw [show cfg0.N = 128 from N_0]; decide⟩

theorem eq_tlast_of_flush (t : Fin cfg0.N) (h : t.val % 128 = 127) : t = tlast := by
  have hN : cfg0.N = 128 := N_0
  have := t.isLt
  exact Fin.ext (by show t.val = 127; omega)

/-! ## The base accumulator -/

/-- The base term of row b at column j. -/
abbrev baseF (c : Dev nD) (j : Fin 10) (b : Fin 1048576) : EReal :=
  Loss.baseRow (Loss.rowOf (parr m c) b) (Loss.rowOf (tarr m c) b) (Loss.vecOf (warr m c)) j

/-- What the first point leaves: the body's sum over the point's blocks, added to the zero block. -/
theorem after_A_3 (c : Dev nD) (t : Fin cfg0.N) (h0 : t.val % 128 = 0) :
    (outsAt0 m c t.val t.isLt).1 = kBase (pblk m c t) (tblk m c t) (wblk m c t) (k0_pay3 : FVec Ideal S1x10 .f32) := by
  rw [outsAt0_A m c t h0]
  dsimp only
  exact out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    ((hcond0_0 t).mpr h0) (iblk m c 0 t) (iblk m c 1 t) (iblk m c 2 t)

/-- What a later point leaves: the body's sum over the point's blocks, added to what the point before left. -/
theorem after_B_3 (c : Dev nD) (t : Fin cfg0.N) (h0 : ¬t.val % 128 = 0) :
    (outsAt0 m c t.val t.isLt).1
      = kBase (pblk m c t) (tblk m c t) (wblk m c t) (outsAt0 m c (t.val - 1) (Nat.lt_of_le_of_lt (Nat.sub_le _ _) t.isLt)).1 := by
  rw [outsAt0_B m c t h0]
  dsimp only
  exact out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2.1
    (outsAt0 m c (t.val - 1) (Nat.lt_of_le_of_lt (Nat.sub_le _ _) t.isLt)).2.2.2.2

/-- One block's sum of base terms, over the block's rows or over the arrays' rows 8192 t + r. -/
theorem block_3 (c : Dev nD) (t : Fin cfg0.N) (j : Fin 10) :
    ∑ r : Fin 8192, Loss.baseRow (Loss.rowOf (pblk m c t) r) (Loss.rowOf (tblk m c t) r) (Loss.vecOf (wblk m c t)) j
      = ∑ r : Fin 8192, baseF m c j ⟨8192 * t.val + r.val, rows_lt t r⟩ :=
  Finset.sum_congr rfl fun r _ => by rw [prow, trow, wvec]

/-- After point n the base accumulator holds the sums over the rows of the first n + 1 blocks. -/
theorem inv3 (c : Dev nD) : ∀ (n : ℕ) (hn : n < cfg0.N) (i : S1x10.Idx),
    (outsAt0 m c n hn).1 i = BlockPrefixSum.blockPrefix 8192 (baseF m c (i 1)) (n + 1) :=
  prefix_induction (N := cfg0.N) (by rw [show cfg0.N = 128 from N_0]) (fun (i : S1x10.Idx) => baseF m c (i 1))
    (fun n hn i => (outsAt0 m c n hn).1 i)
    (fun hn i => by
      refine (congrFun (after_A_3 m c ⟨0, hn⟩ rfl) i).trans ?_
      refine (kBase_apply (pblk m c ⟨0, hn⟩) (tblk m c ⟨0, hn⟩) (wblk m c ⟨0, hn⟩) (k0_pay3 : FVec Ideal S1x10 .f32) i).trans ?_
      rw [zero3, block_3 m c ⟨0, hn⟩ (i 1)])
    (fun n hn i => by
      have hN : cfg0.N = 128 := N_0
      have hB : ¬(⟨n + 1, hn⟩ : Fin cfg0.N).val % 128 = 0 := by dsimp only; omega
      refine (congrFun (after_B_3 m c ⟨n + 1, hn⟩ hB) i).trans ?_
      refine (kBase_apply (pblk m c ⟨n + 1, hn⟩) (tblk m c ⟨n + 1, hn⟩) (wblk m c ⟨n + 1, hn⟩) _ i).trans ?_
      rw [block_3 m c ⟨n + 1, hn⟩ (i 1)]
      rfl)

/-- After the last point it holds the column sums over every row. -/
theorem last3 (c : Dev nD) :
    (outsAt0 m c tlast.val tlast.isLt).1 = Loss.baseCol (parr m c) (tarr m c) (warr m c) :=
  funext fun i => (inv3 m c 127 tlast.isLt i).trans
    (BlockPrefixSum.blockPrefix_all 8192 (baseF m c (i 1)) 128 (by norm_num))

/-- Its one write-back, after the last point: the block is the whole array. -/
theorem flushed3_eq (c : Dev nD) (t : Fin cfg0.N) (hf : (cfg0.win 3).flush t = true) :
    (dats m 0 c).flushed 3 t
      = ((cfg0.win 3).blk t).view.read (Elt Ideal) (Loss.baseCol (parr m c) (tarr m c) (warr m c)) := by
  obtain rfl : t = tlast := eq_tlast_of_flush t ((flush0_3 t).mp hf)
  show (cfg0.win 3).cut (grid0.coords tlast) ((dats m 0 c).after 3 tlast) = _
  rw [after0_3, last3]
  have hz' : (fun a => win0_3.index tlast a * main_v0_0.ty.shape.size a) = fun _ => 0 :=
    funext fun a => by fin_cases a <;> decide +kernel
  exact (Memref.read_access_unit_zero (Elt Ideal) main_v0_0 hz' (fun a => by rw [congrFun hz' a]; simp)
    (Loss.baseCol (parr m c) (tarr m c) (warr m c))).symm

/-! ## The direction accumulator -/

/-- The direction term of row b at column j. -/
abbrev dirF (c : Dev nD) (j : Fin 9) (b : Fin 1048576) : EReal :=
  Loss.dirRow (Loss.rowOf (parr m c) b) (Loss.rowOf (tarr m c) b) j

/-- What the first point leaves: the body's sum over the point's blocks, added to the zero block. -/
theorem after_A_4 (c : Dev nD) (t : Fin cfg0.N) (h0 : t.val % 128 = 0) :
    (outsAt0 m c t.val t.isLt).2.1 = kDir (pblk m c t) (tblk m c t) (k0_pay4 : FVec Ideal S1x9 .f32) := by
  rw [outsAt0_A m c t h0]
  dsimp only
  exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    ((hcond0_0 t).mpr h0) (iblk m c 0 t) (iblk m c 1 t) (iblk m c 2 t)

/-- What a later point leaves: the body's sum over the point's blocks, added to what the point before left. -/
theorem after_B_4 (c : Dev nD) (t : Fin cfg0.N) (h0 : ¬t.val % 128 = 0) :
    (outsAt0 m c t.val t.isLt).2.1
      = kDir (pblk m c t) (tblk m c t) (outsAt0 m c (t.val - 1) (Nat.lt_of_le_of_lt (Nat.sub_le _ _) t.isLt)).2.1 := by
  rw [outsAt0_B m c t h0]
  dsimp only
  exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2.1
    (outsAt0 m c (t.val - 1) (Nat.lt_of_le_of_lt (Nat.sub_le _ _) t.isLt)).2.2.2.2

/-- One block's sum of direction terms, over the block's rows or over the arrays' rows 8192 t + r. -/
theorem block_4 (c : Dev nD) (t : Fin cfg0.N) (j : Fin 9) :
    ∑ r : Fin 8192, Loss.dirRow (Loss.rowOf (pblk m c t) r) (Loss.rowOf (tblk m c t) r) j
      = ∑ r : Fin 8192, dirF m c j ⟨8192 * t.val + r.val, rows_lt t r⟩ :=
  Finset.sum_congr rfl fun r _ => by rw [prow, trow]

/-- After point n the direction accumulator holds the sums over the rows of the first n + 1 blocks. -/
theorem inv4 (c : Dev nD) : ∀ (n : ℕ) (hn : n < cfg0.N) (i : S1x9.Idx),
    (outsAt0 m c n hn).2.1 i = BlockPrefixSum.blockPrefix 8192 (dirF m c (i 1)) (n + 1) :=
  prefix_induction (N := cfg0.N) (by rw [show cfg0.N = 128 from N_0]) (fun (i : S1x9.Idx) => dirF m c (i 1))
    (fun n hn i => (outsAt0 m c n hn).2.1 i)
    (fun hn i => by
      refine (congrFun (after_A_4 m c ⟨0, hn⟩ rfl) i).trans ?_
      refine (kDir_apply (pblk m c ⟨0, hn⟩) (tblk m c ⟨0, hn⟩) (k0_pay4 : FVec Ideal S1x9 .f32) i).trans ?_
      rw [zero4, block_4 m c ⟨0, hn⟩ (i 1)])
    (fun n hn i => by
      have hN : cfg0.N = 128 := N_0
      have hB : ¬(⟨n + 1, hn⟩ : Fin cfg0.N).val % 128 = 0 := by dsimp only; omega
      refine (congrFun (after_B_4 m c ⟨n + 1, hn⟩ hB) i).trans ?_
      refine (kDir_apply (pblk m c ⟨n + 1, hn⟩) (tblk m c ⟨n + 1, hn⟩) _ i).trans ?_
      rw [block_4 m c ⟨n + 1, hn⟩ (i 1)]
      rfl)

/-- After the last point it holds the column sums over every row. -/
theorem last4 (c : Dev nD) :
    (outsAt0 m c tlast.val tlast.isLt).2.1 = Loss.dirCol (parr m c) (tarr m c) :=
  funext fun i => (inv4 m c 127 tlast.isLt i).trans
    (BlockPrefixSum.blockPrefix_all 8192 (dirF m c (i 1)) 128 (by norm_num))

/-- Its one write-back, after the last point: the block is the whole array. -/
theorem flushed4_eq (c : Dev nD) (t : Fin cfg0.N) (hf : (cfg0.win 4).flush t = true) :
    (dats m 0 c).flushed 4 t
      = ((cfg0.win 4).blk t).view.read (Elt Ideal) (Loss.dirCol (parr m c) (tarr m c)) := by
  obtain rfl : t = tlast := eq_tlast_of_flush t ((flush0_4 t).mp hf)
  show (cfg0.win 4).cut (grid0.coords tlast) ((dats m 0 c).after 4 tlast) = _
  rw [after0_4, last4]
  have hz' : (fun a => win0_4.index tlast a * main_v0_1.ty.shape.size a) = fun _ => 0 :=
    funext fun a => by fin_cases a <;> decide +kernel
  exact (Memref.read_access_unit_zero (Elt Ideal) main_v0_1 hz' (fun a => by rw [congrFun hz' a]; simp)
    (Loss.dirCol (parr m c) (tarr m c))).symm

/-! ## The trend accumulator -/

/-- The trend term of row b at column j. -/
abbrev trendF (c : Dev nD) (j : Fin 8) (b : Fin 1048576) : EReal :=
  Loss.trendRow (Loss.rowOf (parr m c) b) (Loss.rowOf (tarr m c) b) j

/-- What the first point leaves: the body's sum over the point's blocks, added to the zero block. -/
theorem after_A_5 (c : Dev nD) (t : Fin cfg0.N) (h0 : t.val % 128 = 0) :
    (outsAt0 m c t.val t.isLt).2.2.1 = kTrend (pblk m c t) (tblk m c t) (k0_pay5 : FVec Ideal S1x8 .f32) := by
  rw [outsAt0_A m c t h0]
  dsimp only
  exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    ((hcond0_0 t).mpr h0) (iblk m c 0 t) (iblk m c 1 t) (iblk m c 2 t)

/-- What a later point leaves: the body's sum over the point's blocks, added to what the point before left. -/
theorem after_B_5 (c : Dev nD) (t : Fin cfg0.N) (h0 : ¬t.val % 128 = 0) :
    (outsAt0 m c t.val t.isLt).2.2.1
      = kTrend (pblk m c t) (tblk m c t) (outsAt0 m c (t.val - 1) (Nat.lt_of_le_of_lt (Nat.sub_le _ _) t.isLt)).2.2.1 := by
  rw [outsAt0_B m c t h0]
  dsimp only
  exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2.1
    (outsAt0 m c (t.val - 1) (Nat.lt_of_le_of_lt (Nat.sub_le _ _) t.isLt)).2.2.2.2

/-- One block's sum of trend terms, over the block's rows or over the arrays' rows 8192 t + r. -/
theorem block_5 (c : Dev nD) (t : Fin cfg0.N) (j : Fin 8) :
    ∑ r : Fin 8192, Loss.trendRow (Loss.rowOf (pblk m c t) r) (Loss.rowOf (tblk m c t) r) j
      = ∑ r : Fin 8192, trendF m c j ⟨8192 * t.val + r.val, rows_lt t r⟩ :=
  Finset.sum_congr rfl fun r _ => by rw [prow, trow]

/-- After point n the trend accumulator holds the sums over the rows of the first n + 1 blocks. -/
theorem inv5 (c : Dev nD) : ∀ (n : ℕ) (hn : n < cfg0.N) (i : S1x8.Idx),
    (outsAt0 m c n hn).2.2.1 i = BlockPrefixSum.blockPrefix 8192 (trendF m c (i 1)) (n + 1) :=
  prefix_induction (N := cfg0.N) (by rw [show cfg0.N = 128 from N_0]) (fun (i : S1x8.Idx) => trendF m c (i 1))
    (fun n hn i => (outsAt0 m c n hn).2.2.1 i)
    (fun hn i => by
      refine (congrFun (after_A_5 m c ⟨0, hn⟩ rfl) i).trans ?_
      refine (kTrend_apply (pblk m c ⟨0, hn⟩) (tblk m c ⟨0, hn⟩) (k0_pay5 : FVec Ideal S1x8 .f32) i).trans ?_
      rw [zero5, block_5 m c ⟨0, hn⟩ (i 1)])
    (fun n hn i => by
      have hN : cfg0.N = 128 := N_0
      have hB : ¬(⟨n + 1, hn⟩ : Fin cfg0.N).val % 128 = 0 := by dsimp only; omega
      refine (congrFun (after_B_5 m c ⟨n + 1, hn⟩ hB) i).trans ?_
      refine (kTrend_apply (pblk m c ⟨n + 1, hn⟩) (tblk m c ⟨n + 1, hn⟩) _ i).trans ?_
      rw [block_5 m c ⟨n + 1, hn⟩ (i 1)]
      rfl)

/-- After the last point it holds the column sums over every row. -/
theorem last5 (c : Dev nD) :
    (outsAt0 m c tlast.val tlast.isLt).2.2.1 = Loss.trendCol (parr m c) (tarr m c) :=
  funext fun i => (inv5 m c 127 tlast.isLt i).trans
    (BlockPrefixSum.blockPrefix_all 8192 (trendF m c (i 1)) 128 (by norm_num))

/-- Its one write-back, after the last point: the block is the whole array. -/
theorem flushed5_eq (c : Dev nD) (t : Fin cfg0.N) (hf : (cfg0.win 5).flush t = true) :
    (dats m 0 c).flushed 5 t
      = ((cfg0.win 5).blk t).view.read (Elt Ideal) (Loss.trendCol (parr m c) (tarr m c)) := by
  obtain rfl : t = tlast := eq_tlast_of_flush t ((flush0_5 t).mp hf)
  show (cfg0.win 5).cut (grid0.coords tlast) ((dats m 0 c).after 5 tlast) = _
  rw [after0_5, last5]
  have hz' : (fun a => win0_5.index tlast a * main_v0_2.ty.shape.size a) = fun _ => 0 :=
    funext fun a => by fin_cases a <;> decide +kernel
  exact (Memref.read_access_unit_zero (Elt Ideal) main_v0_2 hz' (fun a => by rw [congrFun hz' a]; simp)
    (Loss.trendCol (parr m c) (tarr m c))).symm

/-! ## The pair-error accumulator -/

/-- The pair-error term of row b at pair j. -/
abbrev errF (c : Dev nD) (j : Fin 45) (b : Fin 1048576) : EReal :=
  Loss.errRow (Loss.rowOf (parr m c) b) (Loss.rowOf (tarr m c) b) j

/-- What the first point leaves: the body's sum over the point's blocks, added to the zero block. -/
theorem after_A_6 (c : Dev nD) (t : Fin cfg0.N) (h0 : t.val % 128 = 0) :
    (outsAt0 m c t.val t.isLt).2.2.2.1 = kErr (pblk m c t) (tblk m c t) (k0_pay6 : FVec Ideal S1x45 .f32) := by
  rw [outsAt0_A m c t h0]
  dsimp only
  exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    ((hcond0_0 t).mpr h0) (iblk m c 0 t) (iblk m c 1 t) (iblk m c 2 t)

/-- What a later point leaves: the body's sum over the point's blocks, added to what the point before left. -/
theorem after_B_6 (c : Dev nD) (t : Fin cfg0.N) (h0 : ¬t.val % 128 = 0) :
    (outsAt0 m c t.val t.isLt).2.2.2.1
      = kErr (pblk m c t) (tblk m c t) (outsAt0 m c (t.val - 1) (Nat.lt_of_le_of_lt (Nat.sub_le _ _) t.isLt)).2.2.2.1 := by
  rw [outsAt0_B m c t h0]
  dsimp only
  exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2.1
    (outsAt0 m c (t.val - 1) (Nat.lt_of_le_of_lt (Nat.sub_le _ _) t.isLt)).2.2.2.2

/-- One block's sum of pair-error terms, over the block's rows or over the arrays' rows 8192 t + r. -/
theorem block_6 (c : Dev nD) (t : Fin cfg0.N) (j : Fin 45) :
    ∑ r : Fin 8192, Loss.errRow (Loss.rowOf (pblk m c t) r) (Loss.rowOf (tblk m c t) r) j
      = ∑ r : Fin 8192, errF m c j ⟨8192 * t.val + r.val, rows_lt t r⟩ :=
  Finset.sum_congr rfl fun r _ => by rw [prow, trow]

/-- After point n the pair-error accumulator holds the sums over the rows of the first n + 1 blocks. -/
theorem inv6 (c : Dev nD) : ∀ (n : ℕ) (hn : n < cfg0.N) (i : S1x45.Idx),
    (outsAt0 m c n hn).2.2.2.1 i = BlockPrefixSum.blockPrefix 8192 (errF m c (i 1)) (n + 1) :=
  prefix_induction (N := cfg0.N) (by rw [show cfg0.N = 128 from N_0]) (fun (i : S1x45.Idx) => errF m c (i 1))
    (fun n hn i => (outsAt0 m c n hn).2.2.2.1 i)
    (fun hn i => by
      refine (congrFun (after_A_6 m c ⟨0, hn⟩ rfl) i).trans ?_
      refine (kErr_apply (pblk m c ⟨0, hn⟩) (tblk m c ⟨0, hn⟩) (k0_pay6 : FVec Ideal S1x45 .f32) i).trans ?_
      rw [zero6, block_6 m c ⟨0, hn⟩ (i 1)])
    (fun n hn i => by
      have hN : cfg0.N = 128 := N_0
      have hB : ¬(⟨n + 1, hn⟩ : Fin cfg0.N).val % 128 = 0 := by dsimp only; omega
      refine (congrFun (after_B_6 m c ⟨n + 1, hn⟩ hB) i).trans ?_
      refine (kErr_apply (pblk m c ⟨n + 1, hn⟩) (tblk m c ⟨n + 1, hn⟩) _ i).trans ?_
      rw [block_6 m c ⟨n + 1, hn⟩ (i 1)]
      rfl)

/-- After the last point it holds the column sums over every row. -/
theorem last6 (c : Dev nD) :
    (outsAt0 m c tlast.val tlast.isLt).2.2.2.1 = Loss.errCol (parr m c) (tarr m c) :=
  funext fun i => (inv6 m c 127 tlast.isLt i).trans
    (BlockPrefixSum.blockPrefix_all 8192 (errF m c (i 1)) 128 (by norm_num))

/-- Its one write-back, after the last point: the block is the whole array. -/
theorem flushed6_eq (c : Dev nD) (t : Fin cfg0.N) (hf : (cfg0.win 6).flush t = true) :
    (dats m 0 c).flushed 6 t
      = ((cfg0.win 6).blk t).view.read (Elt Ideal) (Loss.errCol (parr m c) (tarr m c)) := by
  obtain rfl : t = tlast := eq_tlast_of_flush t ((flush0_6 t).mp hf)
  show (cfg0.win 6).cut (grid0.coords tlast) ((dats m 0 c).after 6 tlast) = _
  rw [after0_6, last6]
  have hz' : (fun a => win0_6.index tlast a * main_v0_3.ty.shape.size a) = fun _ => 0 :=
    funext fun a => by fin_cases a <;> decide +kernel
  exact (Memref.read_access_unit_zero (Elt Ideal) main_v0_3 hz' (fun a => by rw [congrFun hz' a]; simp)
    (Loss.errCol (parr m c) (tarr m c))).symm

/-! ## The pair-count accumulator -/

/-- The pair indicator of row b at pair j. -/
abbrev sigF (c : Dev nD) (j : Fin 45) (b : Fin 1048576) : EReal :=
  Loss.sigRow (Loss.rowOf (tarr m c) b) j

/-- What the first point leaves: the body's sum over the point's blocks, added to the zero block. -/
theorem after_A_7 (c : Dev nD) (t : Fin cfg0.N) (h0 : t.val % 128 = 0) :
    (outsAt0 m c t.val t.isLt).2.2.2.2 = kCnt (tblk m c t) (k0_pay7 : FVec Ideal S1x45 .f32) := by
  rw [outsAt0_A m c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    ((hcond0_0 t).mpr h0) (iblk m c 0 t) (iblk m c 1 t) (iblk m c 2 t)

/-- What a later point leaves: the body's sum over the point's blocks, added to what the point before left. -/
theorem after_B_7 (c : Dev nD) (t : Fin cfg0.N) (h0 : ¬t.val % 128 = 0) :
    (outsAt0 m c t.val t.isLt).2.2.2.2
      = kCnt (tblk m c t) (outsAt0 m c (t.val - 1) (Nat.lt_of_le_of_lt (Nat.sub_le _ _) t.isLt)).2.2.2.2 := by
  rw [outsAt0_B m c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (fun h => h0 ((hcond0_0 t).mp h)) (iblk m c 0 t) (iblk m c 1 t) (iblk m c 2 t)
    (outsAt0 m c (t.val - 1) (Nat.lt_of_le_of_lt (Nat.sub_le _ _) t.isLt)).1 (outsAt0 m c (t.val - 1) (Nat.lt_of_le_of_lt (Nat.sub_le _ _) t.isLt)).2.1
    (outsAt0 m c (t.val - 1) (Nat.lt_of_le_of_lt (Nat.sub_le _ _) t.isLt)).2.2.1 (outsAt0 m c (t.val - 1) (Nat.lt_of_le_of_lt (Nat.sub_le _ _) t.isLt)).2.2.2.1
    (outsAt0 m c (t.val - 1) (Nat.lt_of_le_of_lt (Nat.sub_le _ _) t.isLt)).2.2.2.2

/-- One block's sum of pair-count terms, over the block's rows or over the arrays' rows 8192 t + r. -/
theorem block_7 (c : Dev nD) (t : Fin cfg0.N) (j : Fin 45) :
    ∑ r : Fin 8192, Loss.sigRow (Loss.rowOf (tblk m c t) r) j
      = ∑ r : Fin 8192, sigF m c j ⟨8192 * t.val + r.val, rows_lt t r⟩ :=
  Finset.sum_congr rfl fun r _ => by rw [trow]

/-- After point n the pair-count accumulator holds the sums over the rows of the first n + 1 blocks. -/
theorem inv7 (c : Dev nD) : ∀ (n : ℕ) (hn : n < cfg0.N) (i : S1x45.Idx),
    (outsAt0 m c n hn).2.2.2.2 i = BlockPrefixSum.blockPrefix 8192 (sigF m c (i 1)) (n + 1) :=
  prefix_induction (N := cfg0.N) (by rw [show cfg0.N = 128 from N_0]) (fun (i : S1x45.Idx) => sigF m c (i 1))
    (fun n hn i => (outsAt0 m c n hn).2.2.2.2 i)
    (fun hn i => by
      refine (congrFun (after_A_7 m c ⟨0, hn⟩ rfl) i).trans ?_
      refine (kCnt_apply (tblk m c ⟨0, hn⟩) (k0_pay7 : FVec Ideal S1x45 .f32) i).trans ?_
      rw [zero7, block_7 m c ⟨0, hn⟩ (i 1)])
    (fun n hn i => by
      have hN : cfg0.N = 128 := N_0
      have hB : ¬(⟨n + 1, hn⟩ : Fin cfg0.N).val % 128 = 0 := by dsimp only; omega
      refine (congrFun (after_B_7 m c ⟨n + 1, hn⟩ hB) i).trans ?_
      refine (kCnt_apply (tblk m c ⟨n + 1, hn⟩) _ i).trans ?_
      rw [block_7 m c ⟨n + 1, hn⟩ (i 1)]
      rfl)

/-- After the last point it holds the column sums over every row. -/
theorem last7 (c : Dev nD) :
    (outsAt0 m c tlast.val tlast.isLt).2.2.2.2 = Loss.sigCol (tarr m c) :=
  funext fun i => (inv7 m c 127 tlast.isLt i).trans
    (BlockPrefixSum.blockPrefix_all 8192 (sigF m c (i 1)) 128 (by norm_num))

/-- Its one write-back, after the last point: the block is the whole array. -/
theorem flushed7_eq (c : Dev nD) (t : Fin cfg0.N) (hf : (cfg0.win 7).flush t = true) :
    (dats m 0 c).flushed 7 t
      = ((cfg0.win 7).blk t).view.read (Elt Ideal) (Loss.sigCol (tarr m c)) := by
  obtain rfl : t = tlast := eq_tlast_of_flush t ((flush0_7 t).mp hf)
  show (cfg0.win 7).cut (grid0.coords tlast) ((dats m 0 c).after 7 tlast) = _
  rw [after0_7, last7]
  have hz' : (fun a => win0_7.index tlast a * main_v0_4.ty.shape.size a) = fun _ => 0 :=
    funext fun a => by fin_cases a <;> decide +kernel
  exact (Memref.read_access_unit_zero (Elt Ideal) main_v0_4 hz' (fun a => by rw [congrFun hz' a]; simp)
    (Loss.sigCol (tarr m c))).symm

end Accum

open Accum

/-! ## The five arrays after the run -/

theorem arrAt3 (c : Dev nD) : ((dats m 0 c).arrAt 3 cfg0.N : Vec Ideal S1x10 .f32)
    = Loss.baseCol (V m c main_arg0) (V m c main_arg1) (V m c main_arg2) :=
  (dats m 0 c).arrAt_eq_of_cover 3 (Loss.baseCol (parr m c) (tarr m c) (warr m c)) (flushed3_eq m c) fun i =>
    ⟨tlast, (flush0_3 tlast).mpr rfl, by
      show i ∈ ((View.whole main_v0_0).slice (win0_3.rect tlast)).set
      rw [View.set_slice_whole, Rect.mem_set_unit]
      intro a
      have h0 : (i 0 : Nat) < 1 := (i 0).isLt
      have h1 : (i 1 : Nat) < 10 := (i 1).isLt
      match a with
      | ⟨0, _⟩ =>
        show win0_3.index tlast 0 * win0_3.size 0 ≤ (i 0 : Nat)
          ∧ (i 0 : Nat) < win0_3.index tlast 0 * win0_3.size 0 + win0_3.xsize (grid0.coords tlast) 0
        rw [show win0_3.index tlast 0 * win0_3.size 0 = 0 from by decide +kernel,
          show win0_3.xsize (grid0.coords tlast) 0 = 1 from by decide +kernel]
        omega
      | ⟨1, _⟩ =>
        show win0_3.index tlast 1 * win0_3.size 1 ≤ (i 1 : Nat)
          ∧ (i 1 : Nat) < win0_3.index tlast 1 * win0_3.size 1 + win0_3.xsize (grid0.coords tlast) 1
        rw [show win0_3.index tlast 1 * win0_3.size 1 = 0 from by decide +kernel,
          show win0_3.xsize (grid0.coords tlast) 1 = 10 from by decide +kernel]
        omega⟩

theorem arrAt4 (c : Dev nD) : ((dats m 0 c).arrAt 4 cfg0.N : Vec Ideal S1x9 .f32)
    = Loss.dirCol (V m c main_arg0) (V m c main_arg1) :=
  (dats m 0 c).arrAt_eq_of_cover 4 (Loss.dirCol (parr m c) (tarr m c)) (flushed4_eq m c) fun i =>
    ⟨tlast, (flush0_4 tlast).mpr rfl, by
      show i ∈ ((View.whole main_v0_1).slice (win0_4.rect tlast)).set
      rw [View.set_slice_whole, Rect.mem_set_unit]
      intro a
      have h0 : (i 0 : Nat) < 1 := (i 0).isLt
      have h1 : (i 1 : Nat) < 9 := (i 1).isLt
      match a with
      | ⟨0, _⟩ =>
        show win0_4.index tlast 0 * win0_4.size 0 ≤ (i 0 : Nat)
          ∧ (i 0 : Nat) < win0_4.index tlast 0 * win0_4.size 0 + win0_4.xsize (grid0.coords tlast) 0
        rw [show win0_4.index tlast 0 * win0_4.size 0 = 0 from by decide +kernel,
          show win0_4.xsize (grid0.coords tlast) 0 = 1 from by decide +kernel]
        omega
      | ⟨1, _⟩ =>
        show win0_4.index tlast 1 * win0_4.size 1 ≤ (i 1 : Nat)
          ∧ (i 1 : Nat) < win0_4.index tlast 1 * win0_4.size 1 + win0_4.xsize (grid0.coords tlast) 1
        rw [show win0_4.index tlast 1 * win0_4.size 1 = 0 from by decide +kernel,
          show win0_4.xsize (grid0.coords tlast) 1 = 9 from by decide +kernel]
        omega⟩

theorem arrAt5 (c : Dev nD) : ((dats m 0 c).arrAt 5 cfg0.N : Vec Ideal S1x8 .f32)
    = Loss.trendCol (V m c main_arg0) (V m c main_arg1) :=
  (dats m 0 c).arrAt_eq_of_cover 5 (Loss.trendCol (parr m c) (tarr m c)) (flushed5_eq m c) fun i =>
    ⟨tlast, (flush0_5 tlast).mpr rfl, by
      show i ∈ ((View.whole main_v0_2).slice (win0_5.rect tlast)).set
      rw [View.set_slice_whole, Rect.mem_set_unit]
      intro a
      have h0 : (i 0 : Nat) < 1 := (i 0).isLt
      have h1 : (i 1 : Nat) < 8 := (i 1).isLt
      match a with
      | ⟨0, _⟩ =>
        show win0_5.index tlast 0 * win0_5.size 0 ≤ (i 0 : Nat)
          ∧ (i 0 : Nat) < win0_5.index tlast 0 * win0_5.size 0 + win0_5.xsize (grid0.coords tlast) 0
        rw [show win0_5.index tlast 0 * win0_5.size 0 = 0 from by decide +kernel,
          show win0_5.xsize (grid0.coords tlast) 0 = 1 from by decide +kernel]
        omega
      | ⟨1, _⟩ =>
        show win0_5.index tlast 1 * win0_5.size 1 ≤ (i 1 : Nat)
          ∧ (i 1 : Nat) < win0_5.index tlast 1 * win0_5.size 1 + win0_5.xsize (grid0.coords tlast) 1
        rw [show win0_5.index tlast 1 * win0_5.size 1 = 0 from by decide +kernel,
          show win0_5.xsize (grid0.coords tlast) 1 = 8 from by decide +kernel]
        omega⟩

theorem arrAt6 (c : Dev nD) : ((dats m 0 c).arrAt 6 cfg0.N : Vec Ideal S1x45 .f32)
    = Loss.errCol (V m c main_arg0) (V m c main_arg1) :=
  (dats m 0 c).arrAt_eq_of_cover 6 (Loss.errCol (parr m c) (tarr m c)) (flushed6_eq m c) fun i =>
    ⟨tlast, (flush0_6 tlast).mpr rfl, by
      show i ∈ ((View.whole main_v0_3).slice (win0_6.rect tlast)).set
      rw [View.set_slice_whole, Rect.mem_set_unit]
      intro a
      have h0 : (i 0 : Nat) < 1 := (i 0).isLt
      have h1 : (i 1 : Nat) < 45 := (i 1).isLt
      match a with
      | ⟨0, _⟩ =>
        show win0_6.index tlast 0 * win0_6.size 0 ≤ (i 0 : Nat)
          ∧ (i 0 : Nat) < win0_6.index tlast 0 * win0_6.size 0 + win0_6.xsize (grid0.coords tlast) 0
        rw [show win0_6.index tlast 0 * win0_6.size 0 = 0 from by decide +kernel,
          show win0_6.xsize (grid0.coords tlast) 0 = 1 from by decide +kernel]
        omega
      | ⟨1, _⟩ =>
        show win0_6.index tlast 1 * win0_6.size 1 ≤ (i 1 : Nat)
          ∧ (i 1 : Nat) < win0_6.index tlast 1 * win0_6.size 1 + win0_6.xsize (grid0.coords tlast) 1
        rw [show win0_6.index tlast 1 * win0_6.size 1 = 0 from by decide +kernel,
          show win0_6.xsize (grid0.coords tlast) 1 = 45 from by decide +kernel]
        omega⟩

theorem arrAt7 (c : Dev nD) : ((dats m 0 c).arrAt 7 cfg0.N : Vec Ideal S1x45 .f32)
    = Loss.sigCol (V m c main_arg1) :=
  (dats m 0 c).arrAt_eq_of_cover 7 (Loss.sigCol (tarr m c)) (flushed7_eq m c) fun i =>
    ⟨tlast, (flush0_7 tlast).mpr rfl, by
      show i ∈ ((View.whole main_v0_4).slice (win0_7.rect tlast)).set
      rw [View.set_slice_whole, Rect.mem_set_unit]
      intro a
      have h0 : (i 0 : Nat) < 1 := (i 0).isLt
      have h1 : (i 1 : Nat) < 45 := (i 1).isLt
      match a with
      | ⟨0, _⟩ =>
        show win0_7.index tlast 0 * win0_7.size 0 ≤ (i 0 : Nat)
          ∧ (i 0 : Nat) < win0_7.index tlast 0 * win0_7.size 0 + win0_7.xsize (grid0.coords tlast) 0
        rw [show win0_7.index tlast 0 * win0_7.size 0 = 0 from by decide +kernel,
          show win0_7.xsize (grid0.coords tlast) 0 = 1 from by decide +kernel]
        omega
      | ⟨1, _⟩ =>
        show win0_7.index tlast 1 * win0_7.size 1 ≤ (i 1 : Nat)
          ∧ (i 1 : Nat) < win0_7.index tlast 1 * win0_7.size 1 + win0_7.xsize (grid0.coords tlast) 1
        rw [show win0_7.index tlast 1 * win0_7.size 1 = 0 from by decide +kernel,
          show win0_7.xsize (grid0.coords tlast) 1 = 45 from by decide +kernel]
        omega⟩

end Cert.KernelIdeal.Acc

end
-- ==== Proof.KTail.lean ====
/-
  The host operations after the kernel region, read back: the program's result is the closing stretch (Spec) applied to
  the five arrays the region leaves.
-/
import proofs.«106290_j67534065762422_1_alg».proof.Proof.Gen.KernelIdeal.Frame
import proofs.«106290_j67534065762422_1_alg».proof.Proof.Spec
import Idealize.ShloMosaic.Lib.StableHlo.Run

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

set_option maxHeartbeats 800000 in
/-- The operations after the region, run from ANY contents of the other buffers and ANY five arrays `A 3 … A 7` in the
    region's result buffers: the value of the last one is the closing stretch over those arrays. The three total sums
    are divided by the numbers of entries; the pair COUNTS are the reshape of array 7 and the pair ERROR sums the reshape
    of array 6; the select, the two sums over the pairs, the quotient and the weighted sum follow in the order of the
    closing stretch, so the two sides are the same term. -/
theorem tail_gen (c : Dev nD) (V : Valuation τ sig (Elt Ideal))
    (A : (w : Fin 8) → Buf (Elt Ideal) ((spec0 w).arr.view.loc (c.tc : Thread nD τ))) :
    (StableHlo.after (List.flatten [hostOps1, hostOps1_1, hostOps1_2]) (Pipeline.withArrays spec0 c V A) (Proc.devRef .tc main_v28) : FVec Ideal S_ .f32)
      = Loss.kernelTotal (A 3) (A 4) (A 5) (A 6) (A 7) := by
  -- the five result buffers hold the five arrays
  have e3 : Pipeline.withArrays spec0 c V A (Proc.devRef .tc main_v0_0) = A 3 := Pipeline.withArrays_arr spec0 launch0.win.arr_inj c V A 3
  have e4 : Pipeline.withArrays spec0 c V A (Proc.devRef .tc main_v0_1) = A 4 := Pipeline.withArrays_arr spec0 launch0.win.arr_inj c V A 4
  have e5 : Pipeline.withArrays spec0 c V A (Proc.devRef .tc main_v0_2) = A 5 := Pipeline.withArrays_arr spec0 launch0.win.arr_inj c V A 5
  have e6 : Pipeline.withArrays spec0 c V A (Proc.devRef .tc main_v0_3) = A 6 := Pipeline.withArrays_arr spec0 launch0.win.arr_inj c V A 6
  have e7 : Pipeline.withArrays spec0 c V A (Proc.devRef .tc main_v0_4) = A 7 := Pipeline.withArrays_arr spec0 launch0.win.arr_inj c V A 7
  -- the three stretches one after the other
  show StableHlo.after (hostOps1 ++ (hostOps1_1 ++ (hostOps1_2 ++ []))) _ _ = _
  rw [List.append_nil, StableHlo.after_append, StableHlo.after_append]
  generalize Pipeline.withArrays spec0 c V A = W at e3 e4 e5 e6 e7 ⊢
  -- each operation's value at its own result, every other buffer kept
  after_results_simp
  rw [e3, e4, e5, e6, e7]
  simp only [StableHlo.TRef.ofBuf, StableHlo.TRef.toBuf, cast_eq]
  unfold Loss.kernelTotal Loss.lossTail
  rfl

/-- The program's result: the closing stretch over the five arrays the region leaves. -/
theorem tail_v28 (c : Dev nD) :
    (Pipeline.afterTail₀ cfgs (dats m) 0 (V0 m) [hostOps1, hostOps1_1, hostOps1_2] c main_v28 : FVec Ideal S_ .f32)
      = Loss.kernelTotal ((dats m 0 c).arrAt 3 cfg0.N) ((dats m 0 c).arrAt 4 cfg0.N) ((dats m 0 c).arrAt 5 cfg0.N)
          ((dats m 0 c).arrAt 6 cfg0.N) ((dats m 0 c).arrAt 7 cfg0.N) := by
  unfold Pipeline.afterTail₀
  exact tail_gen c (V0 m c) (fun w => (dats m 0 c).arrAt w cfg0.N)

end Cert.KernelIdeal.Acc

end
-- ==== Proof.KRun.lean ====
/-
  The idealized kernel program's run, read back: every weakly fair execution terminates with the result buffer at the
  closing stretch over the five column sums of the argument arrays, and the arguments unchanged.
-/
import proofs.«106290_j67534065762422_1_alg».proof.Proof.Gen.KernelIdeal.Frame
import proofs.«106290_j67534065762422_1_alg».proof.Proof.KAccum
import proofs.«106290_j67534065762422_1_alg».proof.Proof.KTail
import proofs.«106290_j67534065762422_1_alg».proof.Proof.Spec

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The result buffer is none of the pipeline's arrays. -/
theorem v28_rest : main_v28 ∈ Pipeline.restRefs sig (cfgs 0).spec :=
  Pipeline.mem_restRefs_of main_v28 rfl (by decide)

theorem kernelRun :
    θ_run defs (onTc (τ := τ) (main (F := Ideal))) ⟨m, fun _ => 0, ρ⟩ (fun r => ∀ c : Dev nD,
      (r.2.mem ((c.tc : Thread nD τ).loc main_v28) : FVec Ideal S_ .f32)
        = Loss.kernelTotal
            (Loss.baseCol (m ((c.tc : Thread nD τ).loc main_arg0)) (m ((c.tc : Thread nD τ).loc main_arg1)) (m ((c.tc : Thread nD τ).loc main_arg2)))
            (Loss.dirCol (m ((c.tc : Thread nD τ).loc main_arg0)) (m ((c.tc : Thread nD τ).loc main_arg1)))
            (Loss.trendCol (m ((c.tc : Thread nD τ).loc main_arg0)) (m ((c.tc : Thread nD τ).loc main_arg1)))
            (Loss.errCol (m ((c.tc : Thread nD τ).loc main_arg0)) (m ((c.tc : Thread nD τ).loc main_arg1)))
            (Loss.sigCol (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_⟩) (run_main m ρ)
  · refine ((h c).2 main_v28 v28_rest).trans ?_
    rw [tail_v28 m c, arrAt3 m c, arrAt4 m c, arrAt5 m c, arrAt6 m c, arrAt7 m c]
    rfl
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))
  · exact ((h c).1 2).trans (((dats m 0 c).arrAt_in 2 rfl _).trans ((A_eq m c 2).trans (V_main_arg2 m c)))

end Cert.KernelIdeal.Acc

end
-- ==== Proof.RefOps.lean ====
/-
  The reference program's @main as the list of its 137 host operations, in the printed order; the two calls of
  module-local functions (the rectifier and the select with a scalar) appear as their three operations each, over
  the buffers the call names.
-/
import proofs.«106290_j67534065762422_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ StableHlo.nullary main_c (fun i => lit0 (S45.rowMajor i)),
    StableHlo.nullary main_c_0 (constantI S45 1 0#1),
    StableHlo.nullary main_c_1 (fun i => lit1 (S45.rowMajor i)),
    StableHlo.nullary main_c_2 (constantI S45 1 0#1),
    StableHlo.nullary main_c_3 (constantI S45 1 0#1),
    StableHlo.nullary main_c_4 (constantI S45 1 0#1),
    StableHlo.binary main_arg0 main_arg1 main_v0 (subf : (⟨S1048576x10, .f32⟩ : BufTy).Contents (Elt F) → (⟨S1048576x10, .f32⟩ : BufTy).Contents (Elt F) → (⟨S1048576x10, .f32⟩ : BufTy).Contents (Elt F)),
    StableHlo.binary main_v0 main_v0 main_v1 (mulf : (⟨S1048576x10, .f32⟩ : BufTy).Contents (Elt F) → (⟨S1048576x10, .f32⟩ : BufTy).Contents (Elt F) → (⟨S1048576x10, .f32⟩ : BufTy).Contents (Elt F)),
    StableHlo.unary main_arg2 main_v2 (broadcastInDim S1x10 ![1] bcast_S10_S1x10_1 : (⟨S10, .f32⟩ : BufTy).Contents (Elt F) → (⟨S1x10, .f32⟩ : BufTy).Contents (Elt F)),
    StableHlo.unary main_v2 main_v3 (broadcastInDim S1048576x10 ![0, 1] bcast_S1x10_S1048576x10_0_1 : (⟨S1x10, .f32⟩ : BufTy).Contents (Elt F) → (⟨S1048576x10, .f32⟩ : BufTy).Contents (Elt F)),
    StableHlo.binary main_v1 main_v3 main_v4 (mulf : (⟨S1048576x10, .f32⟩ : BufTy).Contents (Elt F) → (⟨S1048576x10, .f32⟩ : BufTy).Contents (Elt F) → (⟨S1048576x10, .f32⟩ : BufTy).Contents (Elt F)),
    StableHlo.nullary main_cst (constant S_ .f32 0x00000000#32),
    StableHlo.binary main_v4 main_cst main_v5 ((fun x v => Host.reduceAdd x v reducesTo_S1048576x10_S_d0_1 h_S_) : (⟨S1048576x10, .f32⟩ : BufTy).Contents (Elt F) → (⟨S_, .f32⟩ : BufTy).Contents (Elt F) → (⟨S_, .f32⟩ : BufTy).Contents (Elt F)),
    StableHlo.nullary main_cst_5 (constant S_ .f32 0x4B200000#32),
    StableHlo.binary main_v5 main_cst_5 main_v6 (Host.divf : (⟨S_, .f32⟩ : BufTy).Contents (Elt F) → (⟨S_, .f32⟩ : BufTy).Contents (Elt F) → (⟨S_, .f32⟩ : BufTy).Contents (Elt F)),
    StableHlo.unary main_arg0 main_v7 ((extractStridedSlice S1048576x9 ![0, 1] · slices_S1048576x10_S1048576x9_0_1) : (⟨S1048576x10, .f32⟩ : BufTy).Contents (Elt F) → (⟨S1048576x9, .f32⟩ : BufTy).Contents (Elt F)),
    StableHlo.unary main_arg0 main_v8 ((extractStridedSlice S1048576x9 ![0, 0] · slices_S1048576x10_S1048576x9_0_0) : (⟨S1048576x10, .f32⟩ : BufTy).Contents (Elt F) → (⟨S1048576x9, .f32⟩ : BufTy).Contents (Elt F)),
    StableHlo.binary main_v7 main_v8 main_v9 (subf : (⟨S1048576x9, .f32⟩ : BufTy).Contents (Elt F) → (⟨S1048576x9, .f32⟩ : BufTy).Contents (Elt F) → (⟨S1048576x9, .f32⟩ : BufTy).Contents (Elt F)),
    StableHlo.unary main_arg1 main_v10 ((extractStridedSlice S1048576x9 ![0, 1] · slices_S1048576x10_S1048576x9_0_1) : (⟨S1048576x10, .f32⟩ : BufTy).Contents (Elt F) → (⟨S1048576x9, .f32⟩ : BufTy).Contents (Elt F)),
    StableHlo.unary main_arg1 main_v11 ((extractStridedSlice S1048576x9 ![0, 0] · slices_S1048576x10_S1048576x9_0_0) : (⟨S1048576x10, .f32⟩ : BufTy).Contents (Elt F) → (⟨S1048576x9, .f32⟩ : BufTy).Contents (Elt F)),
    StableHlo.binary main_v10 main_v11 main_v12 (subf : (⟨S1048576x9, .f32⟩ : BufTy).Contents (Elt F) → (⟨S1048576x9, .f32⟩ : BufTy).Contents (Elt F) → (⟨S1048576x9, .f32⟩ : BufTy).Contents (Elt F)),
    StableHlo.unary main_v9 main_v13 (Host.sign : (⟨S1048576x9, .f32⟩ : BufTy).Contents (Elt F) → (⟨S1048576x9, .f32⟩ : BufTy).Contents (Elt F)),
    StableHlo.unary main_v12 main_v14 (Host.sign : (⟨S1048576x9, .f32⟩ : BufTy).Contents (Elt F) → (⟨S1048576x9, .f32⟩ : BufTy).Contents (Elt F)),
    StableHlo.binary main_v13 main_v14 main_v15 (cmpf .une : (⟨S1048576x9, .f32⟩ : BufTy).Contents (Elt F) → (⟨S1048576x9, .f32⟩ : BufTy).Contents (Elt F) → (⟨S1048576x9, .i1⟩ : BufTy).Contents (Elt F)),
    StableHlo.unary main_v15 main_v16 (uitofp .f32 : (⟨S1048576x9, .i1⟩ : BufTy).Contents (Elt F) → (⟨S1048576x9, .f32⟩ : BufTy).Contents (Elt F)),
    StableHlo.unary main_v12 main_v17 (Host.absf : (⟨S1048576x9, .f32⟩ : BufTy).Contents (Elt F) → (⟨S1048576x9, .f32⟩ : BufTy).Contents (Elt F)),
    StableHlo.nullary main_cst_6 (constant S_ .f32 0x3F800000#32),
    StableHlo.unary main_cst_6 main_v18 (broadcastInDim S1048576x9 ![] bcast_S_S1048576x9 : (⟨S_, .f32⟩ : BufTy).Contents (Elt F) → (⟨S1048576x9, .f32⟩ : BufTy).Contents (Elt F)),
    StableHlo.binary main_v18 main_v17 main_v19 (addf : (⟨S1048576x9, .f32⟩ : BufTy).Contents (Elt F) → (⟨S1048576x9, .f32⟩ : BufTy).Contents (Elt F) → (⟨S1048576x9, .f32⟩ : BufTy).Contents (Elt F)),
    StableHlo.binary main_v16 main_v19 main_v20 (mulf : (⟨S1048576x9, .f32⟩ : BufTy).Contents (Elt F) → (⟨S1048576x9, .f32⟩ : BufTy).Contents (Elt F) → (⟨S1048576x9, .f32⟩ : BufTy).Contents (Elt F)),
    StableHlo.nullary main_cst_7 (constant S_ .f32 0x00000000#32),
    StableHlo.binary main_v20 main_cst_7 main_v21 ((fun x v => Host.reduceAdd x v reducesTo_S1048576x9_S_d0_1 h_S_) : (⟨S1048576x9, .f32⟩ : BufTy).Contents (Elt F) → (⟨S_, .f32⟩ : BufTy).Contents (Elt F) → (⟨S_, .f32⟩ : BufTy).Contents (Elt F)),
    StableHlo.nullary main_cst_8 (constant S_ .f32 0x4B100000#32),
    StableHlo.binary main_v21 main_cst_8 main_v22 (Host.divf : (⟨S_, .f32⟩ : BufTy).Contents (Elt F) → (⟨S_, .f32⟩ : BufTy).Contents (Elt F) → (⟨S_, .f32⟩ : BufTy).Contents (Elt F)),
    StableHlo.unary main_arg0 main_v23 ((extractStridedSlice S1048576x8 ![0, 2] · slices_S1048576x10_S1048576x8_0_2) : (⟨S1048576x10, .f32⟩ : BufTy).Contents (Elt F) → (⟨S1048576x8, .f32⟩ : BufTy).Contents (Elt F)),
    StableHlo.unary main_arg0 main_v24 ((extractStridedSlice S1048576x8 ![0, 1] · slices_S1048576x10_S1048576x8_0_1) : (⟨S1048576x10, .f32⟩ : BufTy).Contents (Elt F) → (⟨S1048576x8, .f32⟩ : BufTy).Contents (Elt F)),
    StableHlo.nullary main_cst_9 (constant S_ .f32 0x40000000#32),
    StableHlo.unary main_cst_9 main_v25 (broadcastInDim S1048576x8 ![] bcast_S_S1048576x8 : (⟨S_, .f32⟩ : BufTy).Contents (Elt F) → (⟨S1048576x8, .f32⟩ : BufTy).Contents (Elt F)),
    StableHlo.binary main_v25 main_v24 main_v26 (mulf : (⟨S1048576x8, .f32⟩ : BufTy).Contents (Elt F) → (⟨S1048576x8, .f32⟩ : BufTy).Contents (Elt F) → (⟨S1048576x8, .f32⟩ : BufTy).Contents (Elt F)),
    StableHlo.binary main_v23 main_v26 main_v27 (subf : (⟨S1048576x8, .f32⟩ : BufTy).Contents (Elt F) → (⟨S1048576x8, .f32⟩ : BufTy).Contents (Elt F) → (⟨S1048576x8, .f32⟩ : BufTy).Contents (Elt F)),
    StableHlo.unary main_arg0 main_v28 ((extractStridedSlice S1048576x8 ![0, 0] · slices_S1048576x10_S1048576x8_0_0) : (⟨S1048576x10, .f32⟩ : BufTy).Contents (Elt F) → (⟨S1048576x8, .f32⟩ : BufTy).Contents (Elt F)),
    StableHlo.binary main_v27 main_v28 main_v29 (addf : (⟨S1048576x8, .f32⟩ : BufTy).Contents (Elt F) → (⟨S1048576x8, .f32⟩ : BufTy).Contents (Elt F) → (⟨S1048576x8, .f32⟩ : BufTy).Contents (Elt F)),
    StableHlo.unary main_arg1 main_v30 ((extractStridedSlice S1048576x8 ![0, 2] · slices_S1048576x10_S1048576x8_0_2) : (⟨S1048576x10, .f32⟩ : BufTy).Contents (Elt F) → (⟨S1048576x8, .f32⟩ : BufTy).Contents (Elt F)),
    StableHlo.unary main_arg1 main_v31 ((extractStridedSlice S1048576x8 ![0, 1] · slices_S1048576x10_S1048576x8_0_1) : (⟨S1048576x10, .f32⟩ : BufTy).Contents (Elt F) → (⟨S1048576x8, .f32⟩ : BufTy).Contents (Elt F)),
    StableHlo.nullary main_cst_10 (constant S_ .f32 0x40000000#32),
    StableHlo.unary main_cst_10 main_v32 (broadcastInDim S1048576x8 ![] bcast_S_S1048576x8 : (⟨S_, .f32⟩ : BufTy).Contents (Elt F) → (⟨S1048576x8, .f32⟩ : BufTy).Contents (Elt F)),
    StableHlo.binary main_v32 main_v31 main_v33 (mulf : (⟨S1048576x8, .f32⟩ : BufTy).Contents (Elt F) → (⟨S1048576x8, .f32⟩ : BufTy).Contents (Elt F) → (⟨S1048576x8, .f32⟩ : BufTy).Contents (Elt F)),
    StableHlo.binary main_v30 main_v33 main_v34 (subf : (⟨S1048576x8, .f32⟩ : BufTy).Contents (Elt F) → (⟨S1048576x8, .f32⟩ : BufTy).Contents (Elt F) → (⟨S1048576x8, .f32⟩ : BufTy).Contents (Elt F)),
    StableHlo.unary main_arg1 main_v35 ((extractStridedSlice S1048576x8 ![0, 0] · slices_S1048576x10_S1048576x8_0_0) : (⟨S1048576x10, .f32⟩ : BufTy).Contents (Elt F) → (⟨S1048576x8, .f32⟩ : BufTy).Contents (Elt F)),
    StableHlo.binary main_v34 main_v35 main_v36 (addf : (⟨S1048576x8, .f32⟩ : BufTy).Contents (Elt F) → (⟨S1048576x8, .f32⟩ : BufTy).Contents (Elt F) → (⟨S1048576x8, .f32⟩ : BufTy).Contents (Elt F)),
    StableHlo.binary main_v29 main_v36 main_v37 (subf : (⟨S1048576x8, .f32⟩ : BufTy).Contents (Elt F) → (⟨S1048576x8, .f32⟩ : BufTy).Contents (Elt F) → (⟨S1048576x8, .f32⟩ : BufTy).Contents (Elt F)),
    StableHlo.binary main_v37 main_v37 main_v38 (mulf : (⟨S1048576x8, .f32⟩ : BufTy).Contents (Elt F) → (⟨S1048576x8, .f32⟩ : BufTy).Contents (Elt F) → (⟨S1048576x8, .f32⟩ : BufTy).Contents (Elt F)),
    StableHlo.nullary main_cst_11 (constant S_ .f32 0x00000000#32),
    StableHlo.binary main_v38 main_cst_11 main_v39 ((fun x v => Host.reduceAdd x v reducesTo_S1048576x8_S_d0_1 h_S_) : (⟨S1048576x8, .f32⟩ : BufTy).Contents (Elt F) → (⟨S_, .f32⟩ : BufTy).Contents (Elt F) → (⟨S_, .f32⟩ : BufTy).Contents (Elt F)),
    StableHlo.nullary main_cst_12 (constant S_ .f32 0x4B000000#32),
    StableHlo.binary main_v39 main_cst_12 main_v40 (Host.divf : (⟨S_, .f32⟩ : BufTy).Contents (Elt F) → (⟨S_, .f32⟩ : BufTy).Contents (Elt F) → (⟨S_, .f32⟩ : BufTy).Contents (Elt F)),
    StableHlo.nullary main_c_13 (constantI S_ 32 10#32),
    StableHlo.unary main_c_13 main_v41 (broadcastInDim S45 ![] bcast_S_S45 : (⟨S_, .i32⟩ : BufTy).Contents (Elt F) → (⟨S45, .i32⟩ : BufTy).Contents (Elt F)),
    StableHlo.binary main_c main_v41 main_v42 (addi : (⟨S45, .i32⟩ : BufTy).Contents (Elt F) → (⟨S45, .i32⟩ : BufTy).Contents (Elt F) → (⟨S45, .i32⟩ : BufTy).Contents (Elt F)),
    StableHlo.ternary main_c_0 main_v42 main_c main_v43 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v43 main_v44 (broadcastInDim S45x1 ![0] bcast_S45_S45x1_0 : (⟨S45, .i32⟩ : BufTy).Contents (Elt F) → (⟨S45x1, .i32⟩ : BufTy).Contents (Elt F)),
    StableHlo.binary main_arg1 main_v44 main_v45 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.nullary main_c_14 (constantI S_ 32 10#32),
    StableHlo.unary main_c_14 main_v46 (broadcastInDim S45 ![] bcast_S_S45 : (⟨S_, .i32⟩ : BufTy).Contents (Elt F) → (⟨S45, .i32⟩ : BufTy).Contents (Elt F)),
    StableHlo.binary main_c_1 main_v46 main_v47 (addi : (⟨S45, .i32⟩ : BufTy).Contents (Elt F) → (⟨S45, .i32⟩ : BufTy).Contents (Elt F) → (⟨S45, .i32⟩ : BufTy).Contents (Elt F)),
    StableHlo.ternary main_c_2 main_v47 main_c_1 main_v48 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v48 main_v49 (broadcastInDim S45x1 ![0] bcast_S45_S45x1_0 : (⟨S45, .i32⟩ : BufTy).Contents (Elt F) → (⟨S45x1, .i32⟩ : BufTy).Contents (Elt F)),
    StableHlo.binary main_arg1 main_v49 main_v50 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.binary main_v45 main_v50 main_v51 (subf : (⟨S1048576x45, .f32⟩ : BufTy).Contents (Elt F) → (⟨S1048576x45, .f32⟩ : BufTy).Contents (Elt F) → (⟨S1048576x45, .f32⟩ : BufTy).Contents (Elt F)),
    StableHlo.nullary main_c_15 (constantI S_ 32 10#32),
    StableHlo.unary main_c_15 main_v52 (broadcastInDim S45 ![] bcast_S_S45 : (⟨S_, .i32⟩ : BufTy).Contents (Elt F) → (⟨S45, .i32⟩ : BufTy).Contents (Elt F)),
    StableHlo.binary main_c main_v52 main_v53 (addi : (⟨S45, .i32⟩ : BufTy).Contents (Elt F) → (⟨S45, .i32⟩ : BufTy).Contents (Elt F) → (⟨S45, .i32⟩ : BufTy).Contents (Elt F)),
    StableHlo.ternary main_c_3 main_v53 main_c main_v54 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v54 main_v55 (broadcastInDim S45x1 ![0] bcast_S45_S45x1_0 : (⟨S45, .i32⟩ : BufTy).Contents (Elt F) → (⟨S45x1, .i32⟩ : BufTy).Contents (Elt F)),
    StableHlo.binary main_arg0 main_v55 main_v56 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.nullary main_c_16 (constantI S_ 32 10#32),
    StableHlo.unary main_c_16 main_v57 (broadcastInDim S45 ![] bcast_S_S45 : (⟨S_, .i32⟩ : BufTy).Contents (Elt F) → (⟨S45, .i32⟩ : BufTy).Contents (Elt F)),
    StableHlo.binary main_c_1 main_v57 main_v58 (addi : (⟨S45, .i32⟩ : BufTy).Contents (Elt F) → (⟨S45, .i32⟩ : BufTy).Contents (Elt F) → (⟨S45, .i32⟩ : BufTy).Contents (Elt F)),
    StableHlo.ternary main_c_4 main_v58 main_c_1 main_v59 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v59 main_v60 (broadcastInDim S45x1 ![0] bcast_S45_S45x1_0 : (⟨S45, .i32⟩ : BufTy).Contents (Elt F) → (⟨S45x1, .i32⟩ : BufTy).Contents (Elt F)),
    StableHlo.binary main_arg0 main_v60 main_v61 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.binary main_v56 main_v61 main_v62 (subf : (⟨S1048576x45, .f32⟩ : BufTy).Contents (Elt F) → (⟨S1048576x45, .f32⟩ : BufTy).Contents (Elt F) → (⟨S1048576x45, .f32⟩ : BufTy).Contents (Elt F)),
    StableHlo.unary main_v51 main_v63 (Host.absf : (⟨S1048576x45, .f32⟩ : BufTy).Contents (Elt F) → (⟨S1048576x45, .f32⟩ : BufTy).Contents (Elt F)),
    StableHlo.nullary main_cst_17 (constant S_ .f32 0x3C23D70A#32),
    StableHlo.unary main_cst_17 main_v64 (broadcastInDim S1048576x45 ![] bcast_S_S1048576x45 : (⟨S_, .f32⟩ : BufTy).Contents (Elt F) → (⟨S1048576x45, .f32⟩ : BufTy).Contents (Elt F)),
    StableHlo.binary main_v63 main_v64 main_v65 (cmpf .ogt : (⟨S1048576x45, .f32⟩ : BufTy).Contents (Elt F) → (⟨S1048576x45, .f32⟩ : BufTy).Contents (Elt F) → (⟨S1048576x45, .i1⟩ : BufTy).Contents (Elt F)),
    StableHlo.unary main_v65 main_v66 (uitofp .f32 : (⟨S1048576x45, .i1⟩ : BufTy).Contents (Elt F) → (⟨S1048576x45, .f32⟩ : BufTy).Contents (Elt F)),
    StableHlo.binary main_v51 main_v62 main_v67 (mulf : (⟨S1048576x45, .f32⟩ : BufTy).Contents (Elt F) → (⟨S1048576x45, .f32⟩ : BufTy).Contents (Elt F) → (⟨S1048576x45, .f32⟩ : BufTy).Contents (Elt F)),
    StableHlo.unary main_v51 main_v68 (Host.absf : (⟨S1048576x45, .f32⟩ : BufTy).Contents (Elt F) → (⟨S1048576x45, .f32⟩ : BufTy).Contents (Elt F)),
    StableHlo.nullary main_cst_18 (constant S_ .f32 0x322BCC77#32),
    StableHlo.unary main_cst_18 main_v69 (broadcastInDim S1048576x45 ![] bcast_S_S1048576x45 : (⟨S_, .f32⟩ : BufTy).Contents (Elt F) → (⟨S1048576x45, .f32⟩ : BufTy).Contents (Elt F)),
    StableHlo.binary main_v68 main_v69 main_v70 (addf : (⟨S1048576x45, .f32⟩ : BufTy).Contents (Elt F) → (⟨S1048576x45, .f32⟩ : BufTy).Contents (Elt F) → (⟨S1048576x45, .f32⟩ : BufTy).Contents (Elt F)),
    StableHlo.binary main_v67 main_v70 main_v71 (Host.divf : (⟨S1048576x45, .f32⟩ : BufTy).Contents (Elt F) → (⟨S1048576x45, .f32⟩ : BufTy).Contents (Elt F) → (⟨S1048576x45, .f32⟩ : BufTy).Contents (Elt F)),
    StableHlo.nullary main_cst_19 (constant S_ .f32 0x3F800000#32),
    StableHlo.unary main_cst_19 main_v72 (broadcastInDim S1048576x45 ![] bcast_S_S1048576x45 : (⟨S_, .f32⟩ : BufTy).Contents (Elt F) → (⟨S1048576x45, .f32⟩ : BufTy).Contents (Elt F)),
    StableHlo.binary main_v72 main_v71 main_v73 (subf : (⟨S1048576x45, .f32⟩ : BufTy).Contents (Elt F) → (⟨S1048576x45, .f32⟩ : BufTy).Contents (Elt F) → (⟨S1048576x45, .f32⟩ : BufTy).Contents (Elt F)),
    StableHlo.TRef.nullary main_call0.cst (constant S_ .f32 0x00000000#32),
    StableHlo.TRef.unary main_call0.cst main_call0.v0 (broadcastInDim S1048576x45 ![] bcast_S_S1048576x45),
    StableHlo.TRef.binary (.of main_v73 : StableHlo.TRef sig ⟨S1048576x45, .f32⟩) main_call0.v0 main_call0.v1 maximumf,
    StableHlo.nullary main_cst_20 (constant S_ .f32 0x00000000#32),
    StableHlo.binary main_v66 main_cst_20 main_v75 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    StableHlo.nullary main_cst_21 (constant S_ .f32 0x00000000#32),
    StableHlo.unary main_cst_21 main_v76 (broadcastInDim S45 ![] bcast_S_S45 : (⟨S_, .f32⟩ : BufTy).Contents (Elt F) → (⟨S45, .f32⟩ : BufTy).Contents (Elt F)),
    StableHlo.binary main_v75 main_v76 main_v77 (cmpf .ogt : (⟨S45, .f32⟩ : BufTy).Contents (Elt F) → (⟨S45, .f32⟩ : BufTy).Contents (Elt F) → (⟨S45, .i1⟩ : BufTy).Contents (Elt F)),
    StableHlo.binary main_v74 main_v66 main_v78 (mulf : (⟨S1048576x45, .f32⟩ : BufTy).Contents (Elt F) → (⟨S1048576x45, .f32⟩ : BufTy).Contents (Elt F) → (⟨S1048576x45, .f32⟩ : BufTy).Contents (Elt F)),
    StableHlo.nullary main_cst_22 (constant S_ .f32 0x00000000#32),
    StableHlo.binary main_v78 main_cst_22 main_v79 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    StableHlo.nullary main_cst_23 (constant S_ .f32 0x3F800000#32),
    StableHlo.unary main_cst_23 main_v80 (broadcastInDim S45 ![] bcast_S_S45 : (⟨S_, .f32⟩ : BufTy).Contents (Elt F) → (⟨S45, .f32⟩ : BufTy).Contents (Elt F)),
    StableHlo.binary main_v75 main_v80 main_v81 (maximumf : (⟨S45, .f32⟩ : BufTy).Contents (Elt F) → (⟨S45, .f32⟩ : BufTy).Contents (Elt F) → (⟨S45, .f32⟩ : BufTy).Contents (Elt F)),
    StableHlo.binary main_v79 main_v81 main_v82 (Host.divf : (⟨S45, .f32⟩ : BufTy).Contents (Elt F) → (⟨S45, .f32⟩ : BufTy).Contents (Elt F) → (⟨S45, .f32⟩ : BufTy).Contents (Elt F)),
    StableHlo.nullary main_cst_24 (constant S_ .f32 0x00000000#32),
    StableHlo.TRef.unary (.of main_cst_24 : StableHlo.TRef sig ⟨S_, .f32⟩) main_call1.v0 id,
    StableHlo.TRef.unary main_call1.v0 main_call1.v1 (broadcastInDim S45 ![] bcast_S_S45),
    StableHlo.TRef.ternary (.of main_v77 : StableHlo.TRef sig ⟨S45, .i1⟩) (.of main_v82 : StableHlo.TRef sig ⟨S45, .f32⟩) main_call1.v1 main_call1.v2 select,
    StableHlo.nullary main_cst_25 (constant S_ .f32 0x00000000#32),
    StableHlo.unary main_cst_25 main_v84 (broadcastInDim S45 ![] bcast_S_S45 : (⟨S_, .f32⟩ : BufTy).Contents (Elt F) → (⟨S45, .f32⟩ : BufTy).Contents (Elt F)),
    StableHlo.binary main_v75 main_v84 main_v85 (cmpf .ogt : (⟨S45, .f32⟩ : BufTy).Contents (Elt F) → (⟨S45, .f32⟩ : BufTy).Contents (Elt F) → (⟨S45, .i1⟩ : BufTy).Contents (Elt F)),
    StableHlo.unary main_v85 main_v86 (uitofp .f32 : (⟨S45, .i1⟩ : BufTy).Contents (Elt F) → (⟨S45, .f32⟩ : BufTy).Contents (Elt F)),
    StableHlo.nullary main_cst_26 (constant S_ .f32 0x00000000#32),
    StableHlo.binary main_v86 main_cst_26 main_v87 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    StableHlo.nullary main_cst_27 (constant S_ .f32 0x00000000#32),
    StableHlo.binary main_v83 main_cst_27 main_v88 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    StableHlo.nullary main_cst_28 (constant S_ .f32 0x3F800000#32),
    StableHlo.binary main_v87 main_cst_28 main_v89 (maximumf : (⟨S_, .f32⟩ : BufTy).Contents (Elt F) → (⟨S_, .f32⟩ : BufTy).Contents (Elt F) → (⟨S_, .f32⟩ : BufTy).Contents (Elt F)),
    StableHlo.binary main_v88 main_v89 main_v90 (Host.divf : (⟨S_, .f32⟩ : BufTy).Contents (Elt F) → (⟨S_, .f32⟩ : BufTy).Contents (Elt F) → (⟨S_, .f32⟩ : BufTy).Contents (Elt F)),
    StableHlo.nullary main_cst_29 (constant S_ .f32 0x3F800000#32),
    StableHlo.binary main_cst_29 main_v6 main_v91 (mulf : (⟨S_, .f32⟩ : BufTy).Contents (Elt F) → (⟨S_, .f32⟩ : BufTy).Contents (Elt F) → (⟨S_, .f32⟩ : BufTy).Contents (Elt F)),
    StableHlo.nullary main_cst_30 (constant S_ .f32 0x3E99999A#32),
    StableHlo.binary main_cst_30 main_v22 main_v92 (mulf : (⟨S_, .f32⟩ : BufTy).Contents (Elt F) → (⟨S_, .f32⟩ : BufTy).Contents (Elt F) → (⟨S_, .f32⟩ : BufTy).Contents (Elt F)),
    StableHlo.binary main_v91 main_v92 main_v93 (addf : (⟨S_, .f32⟩ : BufTy).Contents (Elt F) → (⟨S_, .f32⟩ : BufTy).Contents (Elt F) → (⟨S_, .f32⟩ : BufTy).Contents (Elt F)),
    StableHlo.nullary main_cst_31 (constant S_ .f32 0x3E4CCCCD#32),
    StableHlo.binary main_cst_31 main_v40 main_v94 (mulf : (⟨S_, .f32⟩ : BufTy).Contents (Elt F) → (⟨S_, .f32⟩ : BufTy).Contents (Elt F) → (⟨S_, .f32⟩ : BufTy).Contents (Elt F)),
    StableHlo.binary main_v93 main_v94 main_v95 (addf : (⟨S_, .f32⟩ : BufTy).Contents (Elt F) → (⟨S_, .f32⟩ : BufTy).Contents (Elt F) → (⟨S_, .f32⟩ : BufTy).Contents (Elt F)),
    StableHlo.nullary main_cst_32 (constant S_ .f32 0x3DCCCCCD#32),
    StableHlo.binary main_cst_32 main_v90 main_v96 (mulf : (⟨S_, .f32⟩ : BufTy).Contents (Elt F) → (⟨S_, .f32⟩ : BufTy).Contents (Elt F) → (⟨S_, .f32⟩ : BufTy).Contents (Elt F)),
    StableHlo.binary main_v95 main_v96 main_v97 (addf : (⟨S_, .f32⟩ : BufTy).Contents (Elt F) → (⟨S_, .f32⟩ : BufTy).Contents (Elt F) → (⟨S_, .f32⟩ : BufTy).Contents (Elt F)) ]

end Cert.ReferenceIdeal.RefRun

end
-- ==== Proof.RefRun.lean ====
/-
  The reference program runs: its @main is the sequence of the listed operations, so every weakly fair execution
  terminates with each buffer at the operations' results folded over the launch contents.
-/
import proofs.«106290_j67534065762422_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- both sides are one chain of 137 steps once the three windows and the two called bodies are unfolded and the
-- sequencing is reassociated, all of it by computation; the chain is deep, hence the recursion bound
set_option maxRecDepth 8192 in
set_option maxHeartbeats 4000000 in
theorem main_eq (c : Dev nD) : main (F := F) c = seq ops := by
  rfl

/-- The signature scopes no buffer of the TensorCore. -/
theorem scopedRefs_eq : (Finset.univ.filter fun b : Ref sig .tc => b.isScoped) = ∅ := by decide
/-- The signature scopes no semaphore of the TensorCore. -/
theorem scopedSems_eq : (Finset.univ.filter fun sm : SemLoc sig => sm.isScoped .tc) = ∅ := by decide

/-- Every operation of the line touches buffers of the TensorCore only: one fact per operation, by its arity, in the
    order of the list. -/
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    binary_bufs_sub .., binary_bufs_sub .., unary_bufs_sub .., unary_bufs_sub .., binary_bufs_sub .., nullary_bufs_sub ..,
    binary_bufs_sub .., nullary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., nullary_bufs_sub .., unary_bufs_sub .., binary_bufs_sub .., binary_bufs_sub ..,
    nullary_bufs_sub .., binary_bufs_sub .., nullary_bufs_sub .., binary_bufs_sub .., unary_bufs_sub .., unary_bufs_sub ..,
    nullary_bufs_sub .., unary_bufs_sub .., binary_bufs_sub .., binary_bufs_sub .., unary_bufs_sub .., binary_bufs_sub ..,
    unary_bufs_sub .., unary_bufs_sub .., nullary_bufs_sub .., unary_bufs_sub .., binary_bufs_sub .., binary_bufs_sub ..,
    unary_bufs_sub .., binary_bufs_sub .., binary_bufs_sub .., binary_bufs_sub .., nullary_bufs_sub .., binary_bufs_sub ..,
    nullary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., unary_bufs_sub .., binary_bufs_sub .., unary_bufs_sub .., nullary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., binary_bufs_sub .., nullary_bufs_sub ..,
    unary_bufs_sub .., binary_bufs_sub .., binary_bufs_sub .., nullary_bufs_sub .., binary_bufs_sub .., nullary_bufs_sub ..,
    unary_bufs_sub .., binary_bufs_sub .., binary_bufs_sub .., nullary_bufs_sub .., unary_bufs_sub .., unary_bufs_sub ..,
    ternary_bufs_sub .., nullary_bufs_sub .., unary_bufs_sub .., binary_bufs_sub .., unary_bufs_sub .., nullary_bufs_sub ..,
    binary_bufs_sub .., nullary_bufs_sub .., binary_bufs_sub .., nullary_bufs_sub .., binary_bufs_sub .., binary_bufs_sub ..,
    nullary_bufs_sub .., binary_bufs_sub .., nullary_bufs_sub .., binary_bufs_sub .., binary_bufs_sub .., nullary_bufs_sub ..,
    binary_bufs_sub .., binary_bufs_sub .., nullary_bufs_sub .., binary_bufs_sub .., binary_bufs_sub ..⟩

/-- Every operation of the line determines its results (none allocates). -/
theorem ops_fresh : (ops : List (HloOp τ sig (Elt F))).Forall fun op => op.fresh = ∅ := by
  simp only [List.Forall]; repeat' constructor

theorem runAfter (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefArr.lean ====
/-
  The reference's five arrays of per-row terms, written with the operations the program applies to the whole argument
  arrays, and each read at an entry: entry (b, j) is the row term of Spec at row b and column j. A slice with a column
  offset reads the shifted column; the gathers with the two constant index vectors read the pairs' columns.
-/
import proofs.«106290_j67534065762422_1_alg».proof.Proof.Gen.ReferenceIdeal
import proofs.«106290_j67534065762422_1_alg».proof.Proof.Spec
import Idealize.ShloMosaic.Lib.Pipeline.Value
import Idealize.ShloMosaic.Lib.ValueLayout

noncomputable section

namespace Cert.ReferenceIdeal.RefRun

open Cert.ReferenceIdeal Cert.ReferenceIdeal.Gen Idealize.ShloMosaic Idealize.ShloMosaic.ValueIdx

/-- Adjacent-column differences, [B, 9]. -/
def d9 (X : FVec Ideal S1048576x10 .f32) : FVec Ideal S1048576x9 .f32 :=
  subf (extractStridedSlice S1048576x9 ![0, 1] X slices_S1048576x10_S1048576x9_0_1)
    (extractStridedSlice S1048576x9 ![0, 0] X slices_S1048576x10_S1048576x9_0_0)

/-- Second differences, [B, 8]. -/
def sd8 (X : FVec Ideal S1048576x10 .f32) : FVec Ideal S1048576x8 .f32 :=
  addf (subf (extractStridedSlice S1048576x8 ![0, 2] X slices_S1048576x10_S1048576x8_0_2)
      (mulf (broadcastInDim S1048576x8 ![] bcast_S_S1048576x8 (constant S_ .f32 0x40000000#32))
        (extractStridedSlice S1048576x8 ![0, 1] X slices_S1048576x10_S1048576x8_0_1)))
    (extractStridedSlice S1048576x8 ![0, 0] X slices_S1048576x10_S1048576x8_0_0)

/-- The pairs' first columns as start indices [45, 1]. -/
def idxI : IVec S45x1 32 :=
  broadcastInDim S45x1 ![0] bcast_S45_S45x1_0
    (select (constantI S45 1 0#1)
      (addi (fun i => lit0 (S45.rowMajor i)) (broadcastInDim S45 ![] bcast_S_S45 (constantI S_ 32 10#32)))
      (fun i => lit0 (S45.rowMajor i)))

/-- The pairs' second columns as start indices [45, 1]. -/
def idxJ : IVec S45x1 32 :=
  broadcastInDim S45x1 ![0] bcast_S45_S45x1_0
    (select (constantI S45 1 0#1)
      (addi (fun i => lit1 (S45.rowMajor i)) (broadcastInDim S45 ![] bcast_S_S45 (constantI S_ 32 10#32)))
      (fun i => lit1 (S45.rowMajor i)))

/-- Column differences over the pairs, [B, 45]. -/
def pairDiff (X : FVec Ideal S1048576x10 .f32) : FVec Ideal S1048576x45 .f32 :=
  subf (Host.gather gather_S1048576x10_S45x1_S1048576x45_0_1_n_n_1_1_10485761 X idxI)
    (Host.gather gather_S1048576x10_S45x1_S1048576x45_0_1_n_n_1_1_10485761 X idxJ)

def aBase (P T : FVec Ideal S1048576x10 .f32) (W : FVec Ideal S10 .f32) : FVec Ideal S1048576x10 .f32 :=
  mulf (mulf (subf P T) (subf P T))
    (broadcastInDim S1048576x10 ![0, 1] bcast_S1x10_S1048576x10_0_1 (broadcastInDim S1x10 ![1] bcast_S10_S1x10_1 W))

def aDir (P T : FVec Ideal S1048576x10 .f32) : FVec Ideal S1048576x9 .f32 :=
  mulf (uitofp .f32 (cmpf .une (Host.sign (d9 P)) (Host.sign (d9 T))))
    (addf (broadcastInDim S1048576x9 ![] bcast_S_S1048576x9 (constant S_ .f32 0x3F800000#32)) (Host.absf (d9 T)))

def aTrend (P T : FVec Ideal S1048576x10 .f32) : FVec Ideal S1048576x8 .f32 :=
  mulf (subf (sd8 P) (sd8 T)) (subf (sd8 P) (sd8 T))

def aSig (T : FVec Ideal S1048576x10 .f32) : FVec Ideal S1048576x45 .f32 :=
  uitofp .f32 (cmpf .ogt (Host.absf (pairDiff T))
    (broadcastInDim S1048576x45 ![] bcast_S_S1048576x45 (constant S_ .f32 0x3C23D70A#32)))

def aErr (P T : FVec Ideal S1048576x10 .f32) : FVec Ideal S1048576x45 .f32 :=
  mulf
    (maximumf
      (subf (broadcastInDim S1048576x45 ![] bcast_S_S1048576x45 (constant S_ .f32 0x3F800000#32))
        (Host.divf (mulf (pairDiff T) (pairDiff P))
          (addf (Host.absf (pairDiff T))
            (broadcastInDim S1048576x45 ![] bcast_S_S1048576x45 (constant S_ .f32 0x322BCC77#32)))))
      (broadcastInDim S1048576x45 ![] bcast_S_S1048576x45 (constant S_ .f32 0x00000000#32)))
    (aSig T)

theorem aBase_eq (P T : FVec Ideal S1048576x10 .f32) (W : FVec Ideal S10 .f32) : aBase P T W = Loss.baseArr P T W := by
  funext i
  obtain ⟨b, j, rfl⟩ : ∃ (b : Fin 1048576) (j : Fin 10), i = ix2 b j := ⟨i 0, i 1, eq_ix2 i⟩
  unfold aBase Loss.baseArr Loss.baseRow Loss.rowOf Loss.vecOf
  simp only [mulf_apply, subf_apply]
  rw [broadcastInDim_apply (![0, 1]) bcast_S1x10_S1048576x10_0_1 _ (ix2 b j) (ix2 (0 : Fin 1) j) (by
        intro a; match a with | ⟨0, _⟩ => rfl | ⟨1, _⟩ => rfl),
    broadcastInDim_apply (![1]) bcast_S10_S1x10_1 W (ix2 (0 : Fin 1) j) (ix1 j) (by
        intro a; match a with | ⟨0, _⟩ => rfl)]

/-- The adjacent-column difference at (b, j): column j + 1 minus column j. -/
theorem d9_apply (X : FVec Ideal S1048576x10 .f32) (b : Fin 1048576) (j : Fin 9) :
    d9 X (ix2 b j) = X (ix2 b (⟨j.val + 1, by omega⟩ : Fin 10)) - X (ix2 b (⟨j.val, by omega⟩ : Fin 10)) := by
  unfold d9
  rw [subf_apply,
    extractStridedSlice_apply (![0, 1]) X slices_S1048576x10_S1048576x9_0_1 (ix2 b j) (ix2 b (⟨j.val + 1, by omega⟩ : Fin 10)) (by
      intro a; match a with
      | ⟨0, _⟩ => exact (Nat.zero_add _).symm
      | ⟨1, _⟩ => exact Nat.add_comm _ _),
    extractStridedSlice_apply (![0, 0]) X slices_S1048576x10_S1048576x9_0_0 (ix2 b j) (ix2 b (⟨j.val, by omega⟩ : Fin 10)) (by
      intro a; match a with
      | ⟨0, _⟩ => exact (Nat.zero_add _).symm
      | ⟨1, _⟩ => exact (Nat.zero_add _).symm)]

/-- The second difference at (b, j): column j + 2 minus twice column j + 1 plus column j. -/
theorem sd8_apply (X : FVec Ideal S1048576x10 .f32) (b : Fin 1048576) (j : Fin 8) :
    sd8 X (ix2 b j) = X (ix2 b (⟨j.val + 2, by omega⟩ : Fin 10))
      - Ideal.ofBits .f32 0x40000000#32 * X (ix2 b (⟨j.val + 1, by omega⟩ : Fin 10)) + X (ix2 b (⟨j.val, by omega⟩ : Fin 10)) := by
  unfold sd8
  rw [addf_apply, subf_apply, mulf_apply,
    extractStridedSlice_apply (![0, 2]) X slices_S1048576x10_S1048576x8_0_2 (ix2 b j) (ix2 b (⟨j.val + 2, by omega⟩ : Fin 10)) (by
      intro a; match a with
      | ⟨0, _⟩ => exact (Nat.zero_add _).symm
      | ⟨1, _⟩ => exact Nat.add_comm _ _),
    extractStridedSlice_apply (![0, 1]) X slices_S1048576x10_S1048576x8_0_1 (ix2 b j) (ix2 b (⟨j.val + 1, by omega⟩ : Fin 10)) (by
      intro a; match a with
      | ⟨0, _⟩ => exact (Nat.zero_add _).symm
      | ⟨1, _⟩ => exact Nat.add_comm _ _),
    extractStridedSlice_apply (![0, 0]) X slices_S1048576x10_S1048576x8_0_0 (ix2 b j) (ix2 b (⟨j.val, by omega⟩ : Fin 10)) (by
      intro a; match a with
      | ⟨0, _⟩ => exact (Nat.zero_add _).symm
      | ⟨1, _⟩ => exact (Nat.zero_add _).symm)]
  rfl

theorem aDir_eq (P T : FVec Ideal S1048576x10 .f32) : aDir P T = Loss.dirArr P T := by
  funext i
  obtain ⟨b, j, rfl⟩ : ∃ (b : Fin 1048576) (j : Fin 9), i = ix2 b j := ⟨i 0, i 1, eq_ix2 i⟩
  unfold aDir Loss.dirArr Loss.dirRow Loss.rowOf
  show Loss.bitf (Ideal.cmp .une (Ideal.sign (d9 P (ix2 b j))) (Ideal.sign (d9 T (ix2 b j))))
      * (Ideal.ofBits .f32 0x3F800000#32 + max (d9 T (ix2 b j)) (-(d9 T (ix2 b j)))) = _
  rw [d9_apply, d9_apply]

theorem aTrend_eq (P T : FVec Ideal S1048576x10 .f32) : aTrend P T = Loss.trendArr P T := by
  funext i
  obtain ⟨b, j, rfl⟩ : ∃ (b : Fin 1048576) (j : Fin 8), i = ix2 b j := ⟨i 0, i 1, eq_ix2 i⟩
  unfold aTrend Loss.trendArr Loss.trendRow Loss.secondDiff Loss.rowOf
  rw [mulf_apply, subf_apply, sd8_apply, sd8_apply]

/-- The gather with one start index per pair, read at (b, k): the operand at row b and at the column the k-th start
    index names, read signed and clamped into [0, 9]. Operand axis 0 is the offset axis (the whole column, start 0);
    operand axis 1 is the collapsed, indexed one. -/
theorem gather_apply (X : FVec Ideal S1048576x10 .f32) (idx : IVec S45x1 32) (b : Fin 1048576) (k : Fin 45) :
    Host.gather gather_S1048576x10_S45x1_S1048576x45_0_1_n_n_1_1_10485761 X idx (ix2 b k)
      = X (ix2 b (⟨min (idx (ix2 k (0 : Fin 1))).toInt.toNat 9, by omega⟩ : Fin 10)) := by
  unfold Host.gather
  congr 1
  funext a
  refine Fin.ext ?_
  match a with
  | ⟨0, _⟩ =>
    show gather_S1048576x10_S45x1_S1048576x45_0_1_n_n_1_1_10485761.start (ix2 b k) idx 0 + gather_S1048576x10_S45x1_S1048576x45_0_1_n_n_1_1_10485761.batchCoord (ix2 b k) 0 + gather_S1048576x10_S45x1_S1048576x45_0_1_n_n_1_1_10485761.offCoord (ix2 b k) 0 = b.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show gather_S1048576x10_S45x1_S1048576x45_0_1_n_n_1_1_10485761.start (ix2 b k) idx 1 + gather_S1048576x10_S45x1_S1048576x45_0_1_n_n_1_1_10485761.batchCoord (ix2 b k) 1 + gather_S1048576x10_S45x1_S1048576x45_0_1_n_n_1_1_10485761.offCoord (ix2 b k) 1
      = min (idx (ix2 k (0 : Fin 1))).toInt.toNat 9
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1048576x10_S45x1_S1048576x45_0_1_n_n_1_1_10485761.startIndexMap from List.mem_singleton.mpr rfl)]
    have hsi : gather_S1048576x10_S45x1_S1048576x45_0_1_n_n_1_1_10485761.siIdx (ix2 b k) ⟨List.idxOf (1 : Fin 2) gather_S1048576x10_S45x1_S1048576x45_0_1_n_n_1_1_10485761.startIndexMap,
        List.idxOf_lt_length_iff.2 (List.mem_singleton.mpr rfl)⟩ = ix2 k (0 : Fin 1) := by
      funext c; refine Fin.ext ?_
      match c with
      | ⟨0, _⟩ => rfl
      | ⟨1, _⟩ => rfl
    rw [hsi]
    rfl

/-- The k-th start index of the first-column table is the table's k-th word. -/
theorem idxI_apply (k : Fin 45) : idxI (ix2 k (0 : Fin 1)) = lit0 k := by
  unfold idxI
  rw [broadcastInDim_apply (![0]) bcast_S45_S45x1_0 _ (ix2 k (0 : Fin 1)) (ix1 k) (by
    intro a; match a with | ⟨0, _⟩ => rfl)]
  rw [select_apply]
  show Scalar.select 0#1 _ _ = _
  rw [select_zero]
  exact congrArg lit0 (Fin.ext (Shape.rowMajor_val_one _))

/-- The k-th start index of the second-column table is the table's k-th word. -/
theorem idxJ_apply (k : Fin 45) : idxJ (ix2 k (0 : Fin 1)) = lit1 k := by
  unfold idxJ
  rw [broadcastInDim_apply (![0]) bcast_S45_S45x1_0 _ (ix2 k (0 : Fin 1)) (ix1 k) (by
    intro a; match a with | ⟨0, _⟩ => rfl)]
  rw [select_apply]
  show Scalar.select 0#1 _ _ = _
  rw [select_zero]
  exact congrArg lit1 (Fin.ext (Shape.rowMajor_val_one _))

/-- The first-column table's words, read signed and clamped, are the pairs' first columns. -/
theorem lit0_col : ∀ k : Fin 45, min (lit0 k).toInt.toNat 9 = (Loss.pairI k).val := by decide

/-- The second-column table's words, read signed and clamped, are the pairs' second columns. -/
theorem lit1_col : ∀ k : Fin 45, min (lit1 k).toInt.toNat 9 = (Loss.pairJ k).val := by decide

theorem gatherI_apply (X : FVec Ideal S1048576x10 .f32) (b : Fin 1048576) (k : Fin 45) :
    Host.gather gather_S1048576x10_S45x1_S1048576x45_0_1_n_n_1_1_10485761 X idxI (ix2 b k) = X (ix2 b (Loss.pairI k)) := by
  rw [gather_apply]
  exact congrArg (fun c => X (ix2 b c)) (Fin.ext (by
    show min (idxI (ix2 k (0 : Fin 1))).toInt.toNat 9 = _
    rw [idxI_apply]; exact lit0_col k))

theorem gatherJ_apply (X : FVec Ideal S1048576x10 .f32) (b : Fin 1048576) (k : Fin 45) :
    Host.gather gather_S1048576x10_S45x1_S1048576x45_0_1_n_n_1_1_10485761 X idxJ (ix2 b k) = X (ix2 b (Loss.pairJ k)) := by
  rw [gather_apply]
  exact congrArg (fun c => X (ix2 b c)) (Fin.ext (by
    show min (idxJ (ix2 k (0 : Fin 1))).toInt.toNat 9 = _
    rw [idxJ_apply]; exact lit1_col k))

/-- The pair difference at (b, k): the first column of pair k minus its second column. -/
theorem pairDiff_apply (X : FVec Ideal S1048576x10 .f32) (b : Fin 1048576) (k : Fin 45) :
    pairDiff X (ix2 b k) = X (ix2 b (Loss.pairI k)) - X (ix2 b (Loss.pairJ k)) := by
  unfold pairDiff
  rw [subf_apply, gatherI_apply, gatherJ_apply]

theorem aSig_eq (T : FVec Ideal S1048576x10 .f32) : aSig T = Loss.sigArr T := by
  funext i
  obtain ⟨b, k, rfl⟩ : ∃ (b : Fin 1048576) (k : Fin 45), i = ix2 b k := ⟨i 0, i 1, eq_ix2 i⟩
  unfold aSig Loss.sigArr Loss.sigRow Loss.rowOf
  show Loss.bitf (Ideal.cmp .ogt (max (pairDiff T (ix2 b k)) (-(pairDiff T (ix2 b k)))) (Ideal.ofBits .f32 0x3C23D70A#32)) = _
  rw [pairDiff_apply]

theorem aErr_eq (P T : FVec Ideal S1048576x10 .f32) : aErr P T = Loss.errArr P T := by
  funext i
  obtain ⟨b, k, rfl⟩ : ∃ (b : Fin 1048576) (k : Fin 45), i = ix2 b k := ⟨i 0, i 1, eq_ix2 i⟩
  unfold aErr Loss.errArr Loss.errRow
  rw [mulf_apply, aSig_eq]
  show max (Ideal.ofBits .f32 0x3F800000#32
        - Ideal.div (pairDiff T (ix2 b k) * pairDiff P (ix2 b k))
            (max (pairDiff T (ix2 b k)) (-(pairDiff T (ix2 b k))) + Ideal.ofBits .f32 0x322BCC77#32))
      (Ideal.ofBits .f32 0x00000000#32) * Loss.sigRow (Loss.rowOf T b) k = _
  rw [pairDiff_apply, pairDiff_apply]
  rfl

end Cert.ReferenceIdeal.RefRun

end
-- ==== Proof.RefCut.lean ====
/-
  The reference's list of operations cut in two: the first 87 operations end with the array of pair indicators; the
  remaining 50 read only six of the buffers written so far (the three means, the two arrays of pair differences and
  the pair indicators). The fold over the whole list is the fold over the second part from the fold over the first.
-/
import proofs.«106290_j67534065762422_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 87 operations of @main, in order. -/
abbrev opsA : List (HloOp τ sig (Elt F)) :=
  [ StableHlo.nullary main_c (fun i => lit0 (S45.rowMajor i)),
    StableHlo.nullary main_c_0 (constantI S45 1 0#1),
    StableHlo.nullary main_c_1 (fun i => lit1 (S45.rowMajor i)),
    StableHlo.nullary main_c_2 (constantI S45 1 0#1),
    StableHlo.nullary main_c_3 (constantI S45 1 0#1),
    StableHlo.nullary main_c_4 (constantI S45 1 0#1),
    StableHlo.binary main_arg0 main_arg1 main_v0 (subf : (⟨S1048576x10, .f32⟩ : BufTy).Contents (Elt F) → (⟨S1048576x10, .f32⟩ : BufTy).Contents (Elt F) → (⟨S1048576x10, .f32⟩ : BufTy).Contents (Elt F)),
    StableHlo.binary main_v0 main_v0 main_v1 (mulf : (⟨S1048576x10, .f32⟩ : BufTy).Contents (Elt F) → (⟨S1048576x10, .f32⟩ : BufTy).Contents (Elt F) → (⟨S1048576x10, .f32⟩ : BufTy).Contents (Elt F)),
    StableHlo.unary main_arg2 main_v2 (broadcastInDim S1x10 ![1] bcast_S10_S1x10_1 : (⟨S10, .f32⟩ : BufTy).Contents (Elt F) → (⟨S1x10, .f32⟩ : BufTy).Contents (Elt F)),
    StableHlo.unary main_v2 main_v3 (broadcastInDim S1048576x10 ![0, 1] bcast_S1x10_S1048576x10_0_1 : (⟨S1x10, .f32⟩ : BufTy).Contents (Elt F) → (⟨S1048576x10, .f32⟩ : BufTy).Contents (Elt F)),
    StableHlo.binary main_v1 main_v3 main_v4 (mulf : (⟨S1048576x10, .f32⟩ : BufTy).Contents (Elt F) → (⟨S1048576x10, .f32⟩ : BufTy).Contents (Elt F) → (⟨S1048576x10, .f32⟩ : BufTy).Contents (Elt F)),
    StableHlo.nullary main_cst (constant S_ .f32 0x00000000#32),
    StableHlo.binary main_v4 main_cst main_v5 ((fun x v => Host.reduceAdd x v reducesTo_S1048576x10_S_d0_1 h_S_) : (⟨S1048576x10, .f32⟩ : BufTy).Contents (Elt F) → (⟨S_, .f32⟩ : BufTy).Contents (Elt F) → (⟨S_, .f32⟩ : BufTy).Contents (Elt F)),
    StableHlo.nullary main_cst_5 (constant S_ .f32 0x4B200000#32),
    StableHlo.binary main_v5 main_cst_5 main_v6 (Host.divf : (⟨S_, .f32⟩ : BufTy).Contents (Elt F) → (⟨S_, .f32⟩ : BufTy).Contents (Elt F) → (⟨S_, .f32⟩ : BufTy).Contents (Elt F)),
    StableHlo.unary main_arg0 main_v7 ((extractStridedSlice S1048576x9 ![0, 1] · slices_S1048576x10_S1048576x9_0_1) : (⟨S1048576x10, .f32⟩ : BufTy).Contents (Elt F) → (⟨S1048576x9, .f32⟩ : BufTy).Contents (Elt F)),
    StableHlo.unary main_arg0 main_v8 ((extractStridedSlice S1048576x9 ![0, 0] · slices_S1048576x10_S1048576x9_0_0) : (⟨S1048576x10, .f32⟩ : BufTy).Contents (Elt F) → (⟨S1048576x9, .f32⟩ : BufTy).Contents (Elt F)),
    StableHlo.binary main_v7 main_v8 main_v9 (subf : (⟨S1048576x9, .f32⟩ : BufTy).Contents (Elt F) → (⟨S1048576x9, .f32⟩ : BufTy).Contents (Elt F) → (⟨S1048576x9, .f32⟩ : BufTy).Contents (Elt F)),
    StableHlo.unary main_arg1 main_v10 ((extractStridedSlice S1048576x9 ![0, 1] · slices_S1048576x10_S1048576x9_0_1) : (⟨S1048576x10, .f32⟩ : BufTy).Contents (Elt F) → (⟨S1048576x9, .f32⟩ : BufTy).Contents (Elt F)),
    StableHlo.unary main_arg1 main_v11 ((extractStridedSlice S1048576x9 ![0, 0] · slices_S1048576x10_S1048576x9_0_0) : (⟨S1048576x10, .f32⟩ : BufTy).Contents (Elt F) → (⟨S1048576x9, .f32⟩ : BufTy).Contents (Elt F)),
    StableHlo.binary main_v10 main_v11 main_v12 (subf : (⟨S1048576x9, .f32⟩ : BufTy).Contents (Elt F) → (⟨S1048576x9, .f32⟩ : BufTy).Contents (Elt F) → (⟨S1048576x9, .f32⟩ : BufTy).Contents (Elt F)),
    StableHlo.unary main_v9 main_v13 (Host.sign : (⟨S1048576x9, .f32⟩ : BufTy).Contents (Elt F) → (⟨S1048576x9, .f32⟩ : BufTy).Contents (Elt F)),
    StableHlo.unary main_v12 main_v14 (Host.sign : (⟨S1048576x9, .f32⟩ : BufTy).Contents (Elt F) → (⟨S1048576x9, .f32⟩ : BufTy).Contents (Elt F)),
    StableHlo.binary main_v13 main_v14 main_v15 (cmpf .une : (⟨S1048576x9, .f32⟩ : BufTy).Contents (Elt F) → (⟨S1048576x9, .f32⟩ : BufTy).Contents (Elt F) → (⟨S1048576x9, .i1⟩ : BufTy).Contents (Elt F)),
    StableHlo.unary main_v15 main_v16 (uitofp .f32 : (⟨S1048576x9, .i1⟩ : BufTy).Contents (Elt F) → (⟨S1048576x9, .f32⟩ : BufTy).Contents (Elt F)),
    StableHlo.unary main_v12 main_v17 (Host.absf : (⟨S1048576x9, .f32⟩ : BufTy).Contents (Elt F) → (⟨S1048576x9, .f32⟩ : BufTy).Contents (Elt F)),
    StableHlo.nullary main_cst_6 (constant S_ .f32 0x3F800000#32),
    StableHlo.unary main_cst_6 main_v18 (broadcastInDim S1048576x9 ![] bcast_S_S1048576x9 : (⟨S_, .f32⟩ : BufTy).Contents (Elt F) → (⟨S1048576x9, .f32⟩ : BufTy).Contents (Elt F)),
    StableHlo.binary main_v18 main_v17 main_v19 (addf : (⟨S1048576x9, .f32⟩ : BufTy).Contents (Elt F) → (⟨S1048576x9, .f32⟩ : BufTy).Contents (Elt F) → (⟨S1048576x9, .f32⟩ : BufTy).Contents (Elt F)),
    StableHlo.binary main_v16 main_v19 main_v20 (mulf : (⟨S1048576x9, .f32⟩ : BufTy).Contents (Elt F) → (⟨S1048576x9, .f32⟩ : BufTy).Contents (Elt F) → (⟨S1048576x9, .f32⟩ : BufTy).Contents (Elt F)),
    StableHlo.nullary main_cst_7 (constant S_ .f32 0x00000000#32),
    StableHlo.binary main_v20 main_cst_7 main_v21 ((fun x v => Host.reduceAdd x v reducesTo_S1048576x9_S_d0_1 h_S_) : (⟨S1048576x9, .f32⟩ : BufTy).Contents (Elt F) → (⟨S_, .f32⟩ : BufTy).Contents (Elt F) → (⟨S_, .f32⟩ : BufTy).Contents (Elt F)),
    StableHlo.nullary main_cst_8 (constant S_ .f32 0x4B100000#32),
    StableHlo.binary main_v21 main_cst_8 main_v22 (Host.divf : (⟨S_, .f32⟩ : BufTy).Contents (Elt F) → (⟨S_, .f32⟩ : BufTy).Contents (Elt F) → (⟨S_, .f32⟩ : BufTy).Contents (Elt F)),
    StableHlo.unary main_arg0 main_v23 ((extractStridedSlice S1048576x8 ![0, 2] · slices_S1048576x10_S1048576x8_0_2) : (⟨S1048576x10, .f32⟩ : BufTy).Contents (Elt F) → (⟨S1048576x8, .f32⟩ : BufTy).Contents (Elt F)),
    StableHlo.unary main_arg0 main_v24 ((extractStridedSlice S1048576x8 ![0, 1] · slices_S1048576x10_S1048576x8_0_1) : (⟨S1048576x10, .f32⟩ : BufTy).Contents (Elt F) → (⟨S1048576x8, .f32⟩ : BufTy).Contents (Elt F)),
    StableHlo.nullary main_cst_9 (constant S_ .f32 0x40000000#32),
    StableHlo.unary main_cst_9 main_v25 (broadcastInDim S1048576x8 ![] bcast_S_S1048576x8 : (⟨S_, .f32⟩ : BufTy).Contents (Elt F) → (⟨S1048576x8, .f32⟩ : BufTy).Contents (Elt F)),
    StableHlo.binary main_v25 main_v24 main_v26 (mulf : (⟨S1048576x8, .f32⟩ : BufTy).Contents (Elt F) → (⟨S1048576x8, .f32⟩ : BufTy).Contents (Elt F) → (⟨S1048576x8, .f32⟩ : BufTy).Contents (Elt F)),
    StableHlo.binary main_v23 main_v26 main_v27 (subf : (⟨S1048576x8, .f32⟩ : BufTy).Contents (Elt F) → (⟨S1048576x8, .f32⟩ : BufTy).Contents (Elt F) → (⟨S1048576x8, .f32⟩ : BufTy).Contents (Elt F)),
    StableHlo.unary main_arg0 main_v28 ((extractStridedSlice S1048576x8 ![0, 0] · slices_S1048576x10_S1048576x8_0_0) : (⟨S1048576x10, .f32⟩ : BufTy).Contents (Elt F) → (⟨S1048576x8, .f32⟩ : BufTy).Contents (Elt F)),
    StableHlo.binary main_v27 main_v28 main_v29 (addf : (⟨S1048576x8, .f32⟩ : BufTy).Contents (Elt F) → (⟨S1048576x8, .f32⟩ : BufTy).Contents (Elt F) → (⟨S1048576x8, .f32⟩ : BufTy).Contents (Elt F)),
    StableHlo.unary main_arg1 main_v30 ((extractStridedSlice S1048576x8 ![0, 2] · slices_S1048576x10_S1048576x8_0_2) : (⟨S1048576x10, .f32⟩ : BufTy).Contents (Elt F) → (⟨S1048576x8, .f32⟩ : BufTy).Contents (Elt F)),
    StableHlo.unary main_arg1 main_v31 ((extractStridedSlice S1048576x8 ![0, 1] · slices_S1048576x10_S1048576x8_0_1) : (⟨S1048576x10, .f32⟩ : BufTy).Contents (Elt F) → (⟨S1048576x8, .f32⟩ : BufTy).Contents (Elt F)),
    StableHlo.nullary main_cst_10 (constant S_ .f32 0x40000000#32),
    StableHlo.unary main_cst_10 main_v32 (broadcastInDim S1048576x8 ![] bcast_S_S1048576x8 : (⟨S_, .f32⟩ : BufTy).Contents (Elt F) → (⟨S1048576x8, .f32⟩ : BufTy).Contents (Elt F)),
    StableHlo.binary main_v32 main_v31 main_v33 (mulf : (⟨S1048576x8, .f32⟩ : BufTy).Contents (Elt F) → (⟨S1048576x8, .f32⟩ : BufTy).Contents (Elt F) → (⟨S1048576x8, .f32⟩ : BufTy).Contents (Elt F)),
    StableHlo.binary main_v30 main_v33 main_v34 (subf : (⟨S1048576x8, .f32⟩ : BufTy).Contents (Elt F) → (⟨S1048576x8, .f32⟩ : BufTy).Contents (Elt F) → (⟨S1048576x8, .f32⟩ : BufTy).Contents (Elt F)),
    StableHlo.unary main_arg1 main_v35 ((extractStridedSlice S1048576x8 ![0, 0] · slices_S1048576x10_S1048576x8_0_0) : (⟨S1048576x10, .f32⟩ : BufTy).Contents (Elt F) → (⟨S1048576x8, .f32⟩ : BufTy).Contents (Elt F)),
    StableHlo.binary main_v34 main_v35 main_v36 (addf : (⟨S1048576x8, .f32⟩ : BufTy).Contents (Elt F) → (⟨S1048576x8, .f32⟩ : BufTy).Contents (Elt F) → (⟨S1048576x8, .f32⟩ : BufTy).Contents (Elt F)),
    StableHlo.binary main_v29 main_v36 main_v37 (subf : (⟨S1048576x8, .f32⟩ : BufTy).Contents (Elt F) → (⟨S1048576x8, .f32⟩ : BufTy).Contents (Elt F) → (⟨S1048576x8, .f32⟩ : BufTy).Contents (Elt F)),
    StableHlo.binary main_v37 main_v37 main_v38 (mulf : (⟨S1048576x8, .f32⟩ : BufTy).Contents (Elt F) → (⟨S1048576x8, .f32⟩ : BufTy).Contents (Elt F) → (⟨S1048576x8, .f32⟩ : BufTy).Contents (Elt F)),
    StableHlo.nullary main_cst_11 (constant S_ .f32 0x00000000#32),
    StableHlo.binary main_v38 main_cst_11 main_v39 ((fun x v => Host.reduceAdd x v reducesTo_S1048576x8_S_d0_1 h_S_) : (⟨S1048576x8, .f32⟩ : BufTy).Contents (Elt F) → (⟨S_, .f32⟩ : BufTy).Contents (Elt F) → (⟨S_, .f32⟩ : BufTy).Contents (Elt F)),
    StableHlo.nullary main_cst_12 (constant S_ .f32 0x4B000000#32),
    StableHlo.binary main_v39 main_cst_12 main_v40 (Host.divf : (⟨S_, .f32⟩ : BufTy).Contents (Elt F) → (⟨S_, .f32⟩ : BufTy).Contents (Elt F) → (⟨S_, .f32⟩ : BufTy).Contents (Elt F)),
    StableHlo.nullary main_c_13 (constantI S_ 32 10#32),
    StableHlo.unary main_c_13 main_v41 (broadcastInDim S45 ![] bcast_S_S45 : (⟨S_, .i32⟩ : BufTy).Contents (Elt F) → (⟨S45, .i32⟩ : BufTy).Contents (Elt F)),
    StableHlo.binary main_c main_v41 main_v42 (addi : (⟨S45, .i32⟩ : BufTy).Contents (Elt F) → (⟨S45, .i32⟩ : BufTy).Contents (Elt F) → (⟨S45, .i32⟩ : BufTy).Contents (Elt F)),
    StableHlo.ternary main_c_0 main_v42 main_c main_v43 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v43 main_v44 (broadcastInDim S45x1 ![0] bcast_S45_S45x1_0 : (⟨S45, .i32⟩ : BufTy).Contents (Elt F) → (⟨S45x1, .i32⟩ : BufTy).Contents (Elt F)),
    StableHlo.binary main_arg1 main_v44 main_v45 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.nullary main_c_14 (constantI S_ 32 10#32),
    StableHlo.unary main_c_14 main_v46 (broadcastInDim S45 ![] bcast_S_S45 : (⟨S_, .i32⟩ : BufTy).Contents (Elt F) → (⟨S45, .i32⟩ : BufTy).Contents (Elt F)),
    StableHlo.binary main_c_1 main_v46 main_v47 (addi : (⟨S45, .i32⟩ : BufTy).Contents (Elt F) → (⟨S45, .i32⟩ : BufTy).Contents (Elt F) → (⟨S45, .i32⟩ : BufTy).Contents (Elt F)),
    StableHlo.ternary main_c_2 main_v47 main_c_1 main_v48 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v48 main_v49 (broadcastInDim S45x1 ![0] bcast_S45_S45x1_0 : (⟨S45, .i32⟩ : BufTy).Contents (Elt F) → (⟨S45x1, .i32⟩ : BufTy).Contents (Elt F)),
    StableHlo.binary main_arg1 main_v49 main_v50 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.binary main_v45 main_v50 main_v51 (subf : (⟨S1048576x45, .f32⟩ : BufTy).Contents (Elt F) → (⟨S1048576x45, .f32⟩ : BufTy).Contents (Elt F) → (⟨S1048576x45, .f32⟩ : BufTy).Contents (Elt F)),
    StableHlo.nullary main_c_15 (constantI S_ 32 10#32),
    StableHlo.unary main_c_15 main_v52 (broadcastInDim S45 ![] bcast_S_S45 : (⟨S_, .i32⟩ : BufTy).Contents (Elt F) → (⟨S45, .i32⟩ : BufTy).Contents (Elt F)),
    StableHlo.binary main_c main_v52 main_v53 (addi : (⟨S45, .i32⟩ : BufTy).Contents (Elt F) → (⟨S45, .i32⟩ : BufTy).Contents (Elt F) → (⟨S45, .i32⟩ : BufTy).Contents (Elt F)),
    StableHlo.ternary main_c_3 main_v53 main_c main_v54 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v54 main_v55 (broadcastInDim S45x1 ![0] bcast_S45_S45x1_0 : (⟨S45, .i32⟩ : BufTy).Contents (Elt F) → (⟨S45x1, .i32⟩ : BufTy).Contents (Elt F)),
    StableHlo.binary main_arg0 main_v55 main_v56 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.nullary main_c_16 (constantI S_ 32 10#32),
    StableHlo.unary main_c_16 main_v57 (broadcastInDim S45 ![] bcast_S_S45 : (⟨S_, .i32⟩ : BufTy).Contents (Elt F) → (⟨S45, .i32⟩ : BufTy).Contents (Elt F)),
    StableHlo.binary main_c_1 main_v57 main_v58 (addi : (⟨S45, .i32⟩ : BufTy).Contents (Elt F) → (⟨S45, .i32⟩ : BufTy).Contents (Elt F) → (⟨S45, .i32⟩ : BufTy).Contents (Elt F)),
    StableHlo.ternary main_c_4 main_v58 main_c_1 main_v59 (select : (⟨S45, .i1⟩ : BufTy).Contents (Elt F) → (⟨S45, .i32⟩ : BufTy).Contents (Elt F) → (⟨S45, .i32⟩ : BufTy).Contents (Elt F) → (⟨S45, .i32⟩ : BufTy).Contents (Elt F)),
    StableHlo.unary main_v59 main_v60 (broadcastInDim S45x1 ![0] bcast_S45_S45x1_0 : (⟨S45, .i32⟩ : BufTy).Contents (Elt F) → (⟨S45x1, .i32⟩ : BufTy).Contents (Elt F)),
    StableHlo.binary main_arg0 main_v60 main_v61 ((fun x i => Host.gather gather_S1048576x10_S45x1_S1048576x45_0_1_n_n_1_1_10485761 x i) : (⟨S1048576x10, .f32⟩ : BufTy).Contents (Elt F) → (⟨S45x1, .i32⟩ : BufTy).Contents (Elt F) → (⟨S1048576x45, .f32⟩ : BufTy).Contents (Elt F)),
    StableHlo.binary main_v56 main_v61 main_v62 (subf : (⟨S1048576x45, .f32⟩ : BufTy).Contents (Elt F) → (⟨S1048576x45, .f32⟩ : BufTy).Contents (Elt F) → (⟨S1048576x45, .f32⟩ : BufTy).Contents (Elt F)),
    StableHlo.unary main_v51 main_v63 (Host.absf : (⟨S1048576x45, .f32⟩ : BufTy).Contents (Elt F) → (⟨S1048576x45, .f32⟩ : BufTy).Contents (Elt F)),
    StableHlo.nullary main_cst_17 (constant S_ .f32 0x3C23D70A#32),
    StableHlo.unary main_cst_17 main_v64 (broadcastInDim S1048576x45 ![] bcast_S_S1048576x45 : (⟨S_, .f32⟩ : BufTy).Contents (Elt F) → (⟨S1048576x45, .f32⟩ : BufTy).Contents (Elt F)),
    StableHlo.binary main_v63 main_v64 main_v65 (cmpf .ogt : (⟨S1048576x45, .f32⟩ : BufTy).Contents (Elt F) → (⟨S1048576x45, .f32⟩ : BufTy).Contents (Elt F) → (⟨S1048576x45, .i1⟩ : BufTy).Contents (Elt F)),
    StableHlo.unary main_v65 main_v66 (uitofp .f32 : (⟨S1048576x45, .i1⟩ : BufTy).Contents (Elt F) → (⟨S1048576x45, .f32⟩ : BufTy).Contents (Elt F)) ]

/-- The remaining 50 operations of @main, in order. -/
abbrev opsB : List (HloOp τ sig (Elt F)) :=
  [ StableHlo.binary main_v51 main_v62 main_v67 (mulf : (⟨S1048576x45, .f32⟩ : BufTy).Contents (Elt F) → (⟨S1048576x45, .f32⟩ : BufTy).Contents (Elt F) → (⟨S1048576x45, .f32⟩ : BufTy).Contents (Elt F)),
    StableHlo.unary main_v51 main_v68 (Host.absf : (⟨S1048576x45, .f32⟩ : BufTy).Contents (Elt F) → (⟨S1048576x45, .f32⟩ : BufTy).Contents (Elt F)),
    StableHlo.nullary main_cst_18 (constant S_ .f32 0x322BCC77#32),
    StableHlo.unary main_cst_18 main_v69 (broadcastInDim S1048576x45 ![] bcast_S_S1048576x45 : (⟨S_, .f32⟩ : BufTy).Contents (Elt F) → (⟨S1048576x45, .f32⟩ : BufTy).Contents (Elt F)),
    StableHlo.binary main_v68 main_v69 main_v70 (addf : (⟨S1048576x45, .f32⟩ : BufTy).Contents (Elt F) → (⟨S1048576x45, .f32⟩ : BufTy).Contents (Elt F) → (⟨S1048576x45, .f32⟩ : BufTy).Contents (Elt F)),
    StableHlo.binary main_v67 main_v70 main_v71 (Host.divf : (⟨S1048576x45, .f32⟩ : BufTy).Contents (Elt F) → (⟨S1048576x45, .f32⟩ : BufTy).Contents (Elt F) → (⟨S1048576x45, .f32⟩ : BufTy).Contents (Elt F)),
    StableHlo.nullary main_cst_19 (constant S_ .f32 0x3F800000#32),
    StableHlo.unary main_cst_19 main_v72 (broadcastInDim S1048576x45 ![] bcast_S_S1048576x45 : (⟨S_, .f32⟩ : BufTy).Contents (Elt F) → (⟨S1048576x45, .f32⟩ : BufTy).Contents (Elt F)),
    StableHlo.binary main_v72 main_v71 main_v73 (subf : (⟨S1048576x45, .f32⟩ : BufTy).Contents (Elt F) → (⟨S1048576x45, .f32⟩ : BufTy).Contents (Elt F) → (⟨S1048576x45, .f32⟩ : BufTy).Contents (Elt F)),
    StableHlo.TRef.nullary main_call0.cst (constant S_ .f32 0x00000000#32),
    StableHlo.TRef.unary main_call0.cst main_call0.v0 (broadcastInDim S1048576x45 ![] bcast_S_S1048576x45),
    StableHlo.TRef.binary (.of main_v73 : StableHlo.TRef sig ⟨S1048576x45, .f32⟩) main_call0.v0 main_call0.v1 maximumf,
    StableHlo.nullary main_cst_20 (constant S_ .f32 0x00000000#32),
    StableHlo.binary main_v66 main_cst_20 main_v75 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    StableHlo.nullary main_cst_21 (constant S_ .f32 0x00000000#32),
    StableHlo.unary main_cst_21 main_v76 (broadcastInDim S45 ![] bcast_S_S45 : (⟨S_, .f32⟩ : BufTy).Contents (Elt F) → (⟨S45, .f32⟩ : BufTy).Contents (Elt F)),
    StableHlo.binary main_v75 main_v76 main_v77 (cmpf .ogt : (⟨S45, .f32⟩ : BufTy).Contents (Elt F) → (⟨S45, .f32⟩ : BufTy).Contents (Elt F) → (⟨S45, .i1⟩ : BufTy).Contents (Elt F)),
    StableHlo.binary main_v74 main_v66 main_v78 (mulf : (⟨S1048576x45, .f32⟩ : BufTy).Contents (Elt F) → (⟨S1048576x45, .f32⟩ : BufTy).Contents (Elt F) → (⟨S1048576x45, .f32⟩ : BufTy).Contents (Elt F)),
    StableHlo.nullary main_cst_22 (constant S_ .f32 0x00000000#32),
    StableHlo.binary main_v78 main_cst_22 main_v79 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    StableHlo.nullary main_cst_23 (constant S_ .f32 0x3F800000#32),
    StableHlo.unary main_cst_23 main_v80 (broadcastInDim S45 ![] bcast_S_S45 : (⟨S_, .f32⟩ : BufTy).Contents (Elt F) → (⟨S45, .f32⟩ : BufTy).Contents (Elt F)),
    StableHlo.binary main_v75 main_v80 main_v81 (maximumf : (⟨S45, .f32⟩ : BufTy).Contents (Elt F) → (⟨S45, .f32⟩ : BufTy).Contents (Elt F) → (⟨S45, .f32⟩ : BufTy).Contents (Elt F)),
    StableHlo.binary main_v79 main_v81 main_v82 (Host.divf : (⟨S45, .f32⟩ : BufTy).Contents (Elt F) → (⟨S45, .f32⟩ : BufTy).Contents (Elt F) → (⟨S45, .f32⟩ : BufTy).Contents (Elt F)),
    StableHlo.nullary main_cst_24 (constant S_ .f32 0x00000000#32),
    StableHlo.TRef.unary (.of main_cst_24 : StableHlo.TRef sig ⟨S_, .f32⟩) main_call1.v0 id,
    StableHlo.TRef.unary main_call1.v0 main_call1.v1 (broadcastInDim S45 ![] bcast_S_S45),
    StableHlo.TRef.ternary (.of main_v77 : StableHlo.TRef sig ⟨S45, .i1⟩) (.of main_v82 : StableHlo.TRef sig ⟨S45, .f32⟩) main_call1.v1 main_call1.v2 select,
    StableHlo.nullary main_cst_25 (constant S_ .f32 0x00000000#32),
    StableHlo.unary main_cst_25 main_v84 (broadcastInDim S45 ![] bcast_S_S45 : (⟨S_, .f32⟩ : BufTy).Contents (Elt F) → (⟨S45, .f32⟩ : BufTy).Contents (Elt F)),
    StableHlo.binary main_v75 main_v84 main_v85 (cmpf .ogt : (⟨S45, .f32⟩ : BufTy).Contents (Elt F) → (⟨S45, .f32⟩ : BufTy).Contents (Elt F) → (⟨S45, .i1⟩ : BufTy).Contents (Elt F)),
    StableHlo.unary main_v85 main_v86 (uitofp .f32 : (⟨S45, .i1⟩ : BufTy).Contents (Elt F) → (⟨S45, .f32⟩ : BufTy).Contents (Elt F)),
    StableHlo.nullary main_cst_26 (constant S_ .f32 0x00000000#32),
    StableHlo.binary main_v86 main_cst_26 main_v87 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    StableHlo.nullary main_cst_27 (constant S_ .f32 0x00000000#32),
    StableHlo.binary main_v83 main_cst_27 main_v88 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    StableHlo.nullary main_cst_28 (constant S_ .f32 0x3F800000#32),
    StableHlo.binary main_v87 main_cst_28 main_v89 (maximumf : (⟨S_, .f32⟩ : BufTy).Contents (Elt F) → (⟨S_, .f32⟩ : BufTy).Contents (Elt F) → (⟨S_, .f32⟩ : BufTy).Contents (Elt F)),
    StableHlo.binary main_v88 main_v89 main_v90 (Host.divf : (⟨S_, .f32⟩ : BufTy).Contents (Elt F) → (⟨S_, .f32⟩ : BufTy).Contents (Elt F) → (⟨S_, .f32⟩ : BufTy).Contents (Elt F)),
    StableHlo.nullary main_cst_29 (constant S_ .f32 0x3F800000#32),
    StableHlo.binary main_cst_29 main_v6 main_v91 (mulf : (⟨S_, .f32⟩ : BufTy).Contents (Elt F) → (⟨S_, .f32⟩ : BufTy).Contents (Elt F) → (⟨S_, .f32⟩ : BufTy).Contents (Elt F)),
    StableHlo.nullary main_cst_30 (constant S_ .f32 0x3E99999A#32),
    StableHlo.binary main_cst_30 main_v22 main_v92 (mulf : (⟨S_, .f32⟩ : BufTy).Contents (Elt F) → (⟨S_, .f32⟩ : BufTy).Contents (Elt F) → (⟨S_, .f32⟩ : BufTy).Contents (Elt F)),
    StableHlo.binary main_v91 main_v92 main_v93 (addf : (⟨S_, .f32⟩ : BufTy).Contents (Elt F) → (⟨S_, .f32⟩ : BufTy).Contents (Elt F) → (⟨S_, .f32⟩ : BufTy).Contents (Elt F)),
    StableHlo.nullary main_cst_31 (constant S_ .f32 0x3E4CCCCD#32),
    StableHlo.binary main_cst_31 main_v40 main_v94 (mulf : (⟨S_, .f32⟩ : BufTy).Contents (Elt F) → (⟨S_, .f32⟩ : BufTy).Contents (Elt F) → (⟨S_, .f32⟩ : BufTy).Contents (Elt F)),
    StableHlo.binary main_v93 main_v94 main_v95 (addf : (⟨S_, .f32⟩ : BufTy).Contents (Elt F) → (⟨S_, .f32⟩ : BufTy).Contents (Elt F) → (⟨S_, .f32⟩ : BufTy).Contents (Elt F)),
    StableHlo.nullary main_cst_32 (constant S_ .f32 0x3DCCCCCD#32),
    StableHlo.binary main_cst_32 main_v90 main_v96 (mulf : (⟨S_, .f32⟩ : BufTy).Contents (Elt F) → (⟨S_, .f32⟩ : BufTy).Contents (Elt F) → (⟨S_, .f32⟩ : BufTy).Contents (Elt F)),
    StableHlo.binary main_v95 main_v96 main_v97 (addf : (⟨S_, .f32⟩ : BufTy).Contents (Elt F) → (⟨S_, .f32⟩ : BufTy).Contents (Elt F) → (⟨S_, .f32⟩ : BufTy).Contents (Elt F)) ]

/-- The two parts make up the list. -/
theorem ops_cut : (ops (F := F)) = opsA ++ opsB := rfl

/-- The fold over a concatenation is the fold over the second list from the fold over the first. -/
theorem after_append' {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

end Cert.ReferenceIdeal.RefRun

end
-- ==== Proof.RefPreA.lean ====
/-
  The first part of the reference's operations, read at the three buffers of the means: each holds the total sum of
  its array of per-row terms (written with the program's operations) over the number of entries.
-/
import proofs.«106290_j67534065762422_1_alg».proof.Proof.RefCut
import proofs.«106290_j67534065762422_1_alg».proof.Proof.RefArr

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V : Valuation τ sig (Elt Ideal))

set_option maxHeartbeats 1000000 in
/-- After the first part the base buffer holds the mean of the base array. -/
theorem pre_v6 :
    (after (opsA (F := Ideal)) V (Proc.devRef .tc main_v6) : FVec Ideal S_ .f32)
      = Host.divf (Host.reduceAdd (F := Ideal) (φ := .f32) (aBase (V (Proc.devRef .tc main_arg0)) (V (Proc.devRef .tc main_arg1)) (V (Proc.devRef .tc main_arg2))) (constant S_ .f32 0x00000000#32) reducesTo_S1048576x10_S_d0_1 h_S_)
          (constant S_ .f32 0x4B200000#32) := by
  after_results_simp
  simp only [aBase]

set_option maxHeartbeats 1000000 in
/-- After the first part the direction buffer holds the mean of the direction array. -/
theorem pre_v22 :
    (after (opsA (F := Ideal)) V (Proc.devRef .tc main_v22) : FVec Ideal S_ .f32)
      = Host.divf (Host.reduceAdd (F := Ideal) (φ := .f32) (aDir (V (Proc.devRef .tc main_arg0)) (V (Proc.devRef .tc main_arg1))) (constant S_ .f32 0x00000000#32) reducesTo_S1048576x9_S_d0_1 h_S_)
          (constant S_ .f32 0x4B100000#32) := by
  after_results_simp
  simp only [aDir, d9]

set_option maxHeartbeats 1000000 in
/-- After the first part the trend buffer holds the mean of the trend array. -/
theorem pre_v40 :
    (after (opsA (F := Ideal)) V (Proc.devRef .tc main_v40) : FVec Ideal S_ .f32)
      = Host.divf (Host.reduceAdd (F := Ideal) (φ := .f32) (aTrend (V (Proc.devRef .tc main_arg0)) (V (Proc.devRef .tc main_arg1))) (constant S_ .f32 0x00000000#32) reducesTo_S1048576x8_S_d0_1 h_S_)
          (constant S_ .f32 0x4B000000#32) := by
  after_results_simp
  simp only [aTrend, sd8]

end Cert.ReferenceIdeal.RefRun

end
-- ==== Proof.RefPreB.lean ====
/-
  The first part of the reference's operations, read at the buffers of the pair arrays: the pair differences of the
  targets and of the predictions (the gathers with the two constant index vectors), and the pair indicators.
-/
import proofs.«106290_j67534065762422_1_alg».proof.Proof.RefCut
import proofs.«106290_j67534065762422_1_alg».proof.Proof.RefArr

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V : Valuation τ sig (Elt Ideal))

set_option maxHeartbeats 2000000 in
/-- After the first part: the pair differences of the targets. -/
theorem pre_v51 :
    (after (opsA (F := Ideal)) V (Proc.devRef .tc main_v51) : FVec Ideal S1048576x45 .f32)
      = pairDiff (V (Proc.devRef .tc main_arg1)) := by
  after_results_simp
  rfl

set_option maxHeartbeats 2000000 in
/-- After the first part: the pair differences of the predictions. -/
theorem pre_v62 :
    (after (opsA (F := Ideal)) V (Proc.devRef .tc main_v62) : FVec Ideal S1048576x45 .f32)
      = pairDiff (V (Proc.devRef .tc main_arg0)) := by
  after_results_simp
  rfl

set_option maxHeartbeats 2000000 in
/-- After the first part: the pair indicators. -/
theorem pre_v66 :
    (after (opsA (F := Ideal)) V (Proc.devRef .tc main_v66) : FVec Ideal S1048576x45 .f32)
      = aSig (V (Proc.devRef .tc main_arg1)) := by
  after_results_simp
  rfl

end Cert.ReferenceIdeal.RefRun

end
-- ==== Proof.RefSuf.lean ====
/-
  The second part of the reference's operations: it reads six buffers (the three means, the two arrays of pair
  differences, the pair indicators) and composes to the closing stretch of Spec over them: the pair errors from the
  differences and the indicators, the column sums of indicators and errors, the mean over the pairs that occur, and the
  weighted sum with the three means.
-/
import proofs.«106290_j67534065762422_1_alg».proof.Proof.RefCut
import proofs.«106290_j67534065762422_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The second part with the two inlined calls' operations stated over the buffers themselves: at a buffer of the
    program the type a module-local function carries for it is the buffer's own, so the operations are the same. -/
abbrev opsB' : List (HloOp τ sig (Elt F)) :=
  [ StableHlo.binary main_v51 main_v62 main_v67 (mulf : (⟨S1048576x45, .f32⟩ : BufTy).Contents (Elt F) → (⟨S1048576x45, .f32⟩ : BufTy).Contents (Elt F) → (⟨S1048576x45, .f32⟩ : BufTy).Contents (Elt F)),
    StableHlo.unary main_v51 main_v68 (Host.absf : (⟨S1048576x45, .f32⟩ : BufTy).Contents (Elt F) → (⟨S1048576x45, .f32⟩ : BufTy).Contents (Elt F)),
    StableHlo.nullary main_cst_18 (constant S_ .f32 0x322BCC77#32),
    StableHlo.unary main_cst_18 main_v69 (broadcastInDim S1048576x45 ![] bcast_S_S1048576x45 : (⟨S_, .f32⟩ : BufTy).Contents (Elt F) → (⟨S1048576x45, .f32⟩ : BufTy).Contents (Elt F)),
    StableHlo.binary main_v68 main_v69 main_v70 (addf : (⟨S1048576x45, .f32⟩ : BufTy).Contents (Elt F) → (⟨S1048576x45, .f32⟩ : BufTy).Contents (Elt F) → (⟨S1048576x45, .f32⟩ : BufTy).Contents (Elt F)),
    StableHlo.binary main_v67 main_v70 main_v71 (Host.divf : (⟨S1048576x45, .f32⟩ : BufTy).Contents (Elt F) → (⟨S1048576x45, .f32⟩ : BufTy).Contents (Elt F) → (⟨S1048576x45, .f32⟩ : BufTy).Contents (Elt F)),
    StableHlo.nullary main_cst_19 (constant S_ .f32 0x3F800000#32),
    StableHlo.unary main_cst_19 main_v72 (broadcastInDim S1048576x45 ![] bcast_S_S1048576x45 : (⟨S_, .f32⟩ : BufTy).Contents (Elt F) → (⟨S1048576x45, .f32⟩ : BufTy).Contents (Elt F)),
    StableHlo.binary main_v72 main_v71 main_v73 (subf : (⟨S1048576x45, .f32⟩ : BufTy).Contents (Elt F) → (⟨S1048576x45, .f32⟩ : BufTy).Contents (Elt F) → (⟨S1048576x45, .f32⟩ : BufTy).Contents (Elt F)),
    StableHlo.nullary main_call0_cst (constant S_ .f32 0x00000000#32),
    StableHlo.unary main_call0_cst main_call0_v0 (broadcastInDim S1048576x45 ![] bcast_S_S1048576x45 : (⟨S_, .f32⟩ : BufTy).Contents (Elt F) → (⟨S1048576x45, .f32⟩ : BufTy).Contents (Elt F)),
    StableHlo.binary main_v73 main_call0_v0 main_v74 (maximumf : (⟨S1048576x45, .f32⟩ : BufTy).Contents (Elt F) → (⟨S1048576x45, .f32⟩ : BufTy).Contents (Elt F) → (⟨S1048576x45, .f32⟩ : BufTy).Contents (Elt F)),
    StableHlo.nullary main_cst_20 (constant S_ .f32 0x00000000#32),
    StableHlo.binary main_v66 main_cst_20 main_v75 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    StableHlo.nullary main_cst_21 (constant S_ .f32 0x00000000#32),
    StableHlo.unary main_cst_21 main_v76 (broadcastInDim S45 ![] bcast_S_S45 : (⟨S_, .f32⟩ : BufTy).Contents (Elt F) → (⟨S45, .f32⟩ : BufTy).Contents (Elt F)),
    StableHlo.binary main_v75 main_v76 main_v77 (cmpf .ogt : (⟨S45, .f32⟩ : BufTy).Contents (Elt F) → (⟨S45, .f32⟩ : BufTy).Contents (Elt F) → (⟨S45, .i1⟩ : BufTy).Contents (Elt F)),
    StableHlo.binary main_v74 main_v66 main_v78 (mulf : (⟨S1048576x45, .f32⟩ : BufTy).Contents (Elt F) → (⟨S1048576x45, .f32⟩ : BufTy).Contents (Elt F) → (⟨S1048576x45, .f32⟩ : BufTy).Contents (Elt F)),
    StableHlo.nullary main_cst_22 (constant S_ .f32 0x00000000#32),
    StableHlo.binary main_v78 main_cst_22 main_v79 ((fun x v => Host.reduceAdd x v reducesTo_S1048576x45_S45_d0 h_S_) : (⟨S1048576x45, .f32⟩ : BufTy).Contents (Elt F) → (⟨S_, .f32⟩ : BufTy).Contents (Elt F) → (⟨S45, .f32⟩ : BufTy).Contents (Elt F)),
    StableHlo.nullary main_cst_23 (constant S_ .f32 0x3F800000#32),
    StableHlo.unary main_cst_23 main_v80 (broadcastInDim S45 ![] bcast_S_S45 : (⟨S_, .f32⟩ : BufTy).Contents (Elt F) → (⟨S45, .f32⟩ : BufTy).Contents (Elt F)),
    StableHlo.binary main_v75 main_v80 main_v81 (maximumf : (⟨S45, .f32⟩ : BufTy).Contents (Elt F) → (⟨S45, .f32⟩ : BufTy).Contents (Elt F) → (⟨S45, .f32⟩ : BufTy).Contents (Elt F)),
    StableHlo.binary main_v79 main_v81 main_v82 (Host.divf : (⟨S45, .f32⟩ : BufTy).Contents (Elt F) → (⟨S45, .f32⟩ : BufTy).Contents (Elt F) → (⟨S45, .f32⟩ : BufTy).Contents (Elt F)),
    StableHlo.nullary main_cst_24 (constant S_ .f32 0x00000000#32),
    StableHlo.unary main_cst_24 main_call1_v0 (id : (⟨S_, .f32⟩ : BufTy).Contents (Elt F) → (⟨S_, .f32⟩ : BufTy).Contents (Elt F)),
    StableHlo.unary main_call1_v0 main_call1_v1 (broadcastInDim S45 ![] bcast_S_S45 : (⟨S_, .f32⟩ : BufTy).Contents (Elt F) → (⟨S45, .f32⟩ : BufTy).Contents (Elt F)),
    StableHlo.ternary main_v77 main_v82 main_call1_v1 main_v83 (select : (⟨S45, .i1⟩ : BufTy).Contents (Elt F) → (⟨S45, .f32⟩ : BufTy).Contents (Elt F) → (⟨S45, .f32⟩ : BufTy).Contents (Elt F) → (⟨S45, .f32⟩ : BufTy).Contents (Elt F)),
    StableHlo.nullary main_cst_25 (constant S_ .f32 0x00000000#32),
    StableHlo.unary main_cst_25 main_v84 (broadcastInDim S45 ![] bcast_S_S45 : (⟨S_, .f32⟩ : BufTy).Contents (Elt F) → (⟨S45, .f32⟩ : BufTy).Contents (Elt F)),
    StableHlo.binary main_v75 main_v84 main_v85 (cmpf .ogt : (⟨S45, .f32⟩ : BufTy).Contents (Elt F) → (⟨S45, .f32⟩ : BufTy).Contents (Elt F) → (⟨S45, .i1⟩ : BufTy).Contents (Elt F)),
    StableHlo.unary main_v85 main_v86 (uitofp .f32 : (⟨S45, .i1⟩ : BufTy).Contents (Elt F) → (⟨S45, .f32⟩ : BufTy).Contents (Elt F)),
    StableHlo.nullary main_cst_26 (constant S_ .f32 0x00000000#32),
    StableHlo.binary main_v86 main_cst_26 main_v87 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    StableHlo.nullary main_cst_27 (constant S_ .f32 0x00000000#32),
    StableHlo.binary main_v83 main_cst_27 main_v88 ((fun x v => Host.reduceAdd x v reducesTo_S45_S_d0 h_S_) : (⟨S45, .f32⟩ : BufTy).Contents (Elt F) → (⟨S_, .f32⟩ : BufTy).Contents (Elt F) → (⟨S_, .f32⟩ : BufTy).Contents (Elt F)),
    StableHlo.nullary main_cst_28 (constant S_ .f32 0x3F800000#32),
    StableHlo.binary main_v87 main_cst_28 main_v89 (maximumf : (⟨S_, .f32⟩ : BufTy).Contents (Elt F) → (⟨S_, .f32⟩ : BufTy).Contents (Elt F) → (⟨S_, .f32⟩ : BufTy).Contents (Elt F)),
    StableHlo.binary main_v88 main_v89 main_v90 (Host.divf : (⟨S_, .f32⟩ : BufTy).Contents (Elt F) → (⟨S_, .f32⟩ : BufTy).Contents (Elt F) → (⟨S_, .f32⟩ : BufTy).Contents (Elt F)),
    StableHlo.nullary main_cst_29 (constant S_ .f32 0x3F800000#32),
    StableHlo.binary main_cst_29 main_v6 main_v91 (mulf : (⟨S_, .f32⟩ : BufTy).Contents (Elt F) → (⟨S_, .f32⟩ : BufTy).Contents (Elt F) → (⟨S_, .f32⟩ : BufTy).Contents (Elt F)),
    StableHlo.nullary main_cst_30 (constant S_ .f32 0x3E99999A#32),
    StableHlo.binary main_cst_30 main_v22 main_v92 (mulf : (⟨S_, .f32⟩ : BufTy).Contents (Elt F) → (⟨S_, .f32⟩ : BufTy).Contents (Elt F) → (⟨S_, .f32⟩ : BufTy).Contents (Elt F)),
    StableHlo.binary main_v91 main_v92 main_v93 (addf : (⟨S_, .f32⟩ : BufTy).Contents (Elt F) → (⟨S_, .f32⟩ : BufTy).Contents (Elt F) → (⟨S_, .f32⟩ : BufTy).Contents (Elt F)),
    StableHlo.nullary main_cst_31 (constant S_ .f32 0x3E4CCCCD#32),
    StableHlo.binary main_cst_31 main_v40 main_v94 (mulf : (⟨S_, .f32⟩ : BufTy).Contents (Elt F) → (⟨S_, .f32⟩ : BufTy).Contents (Elt F) → (⟨S_, .f32⟩ : BufTy).Contents (Elt F)),
    StableHlo.binary main_v93 main_v94 main_v95 (addf : (⟨S_, .f32⟩ : BufTy).Contents (Elt F) → (⟨S_, .f32⟩ : BufTy).Contents (Elt F) → (⟨S_, .f32⟩ : BufTy).Contents (Elt F)),
    StableHlo.nullary main_cst_32 (constant S_ .f32 0x3DCCCCCD#32),
    StableHlo.binary main_cst_32 main_v90 main_v96 (mulf : (⟨S_, .f32⟩ : BufTy).Contents (Elt F) → (⟨S_, .f32⟩ : BufTy).Contents (Elt F) → (⟨S_, .f32⟩ : BufTy).Contents (Elt F)),
    StableHlo.binary main_v95 main_v96 main_v97 (addf : (⟨S_, .f32⟩ : BufTy).Contents (Elt F) → (⟨S_, .f32⟩ : BufTy).Contents (Elt F) → (⟨S_, .f32⟩ : BufTy).Contents (Elt F)) ]

theorem opsB_eq : (opsB (F := F)) = opsB' := rfl

/-- The pair error array from the pair differences of the targets and of the predictions and the pair indicators:
    max (1 - dT · dP / (|dT| + ε), 0) times the indicator. -/
def errOf (dT dP sg : FVec Ideal S1048576x45 .f32) : FVec Ideal S1048576x45 .f32 :=
  mulf
    (maximumf
      (subf (broadcastInDim S1048576x45 ![] bcast_S_S1048576x45 (constant S_ .f32 0x3F800000#32))
        (Host.divf (mulf dT dP)
          (addf (Host.absf dT) (broadcastInDim S1048576x45 ![] bcast_S_S1048576x45 (constant S_ .f32 0x322BCC77#32)))))
      (broadcastInDim S1048576x45 ![] bcast_S_S1048576x45 (constant S_ .f32 0x00000000#32)))
    sg

/-- The closing stretch from the three means `b d t`, the per-pair counts and the per-pair error sums: the mean over
    the pairs that occur of err / max (cnt, 1), and the weighted sum of the four. The closing stretch of Spec is this
    after the three divisions by the counts. -/
def tailMeans (b d t : FVec Ideal S_ .f32) (cnt err : FVec Ideal S45 .f32) : FVec Ideal S_ .f32 :=
  let zero0 : FVec Ideal S_ .f32 := constant S_ .f32 0x00000000#32
  let one0 : FVec Ideal S_ .f32 := constant S_ .f32 0x3F800000#32
  let zero45 : FVec Ideal S45 .f32 := broadcastInDim S45 ![] bcast_S_S45 zero0
  let one45 : FVec Ideal S45 .f32 := broadcastInDim S45 ![] bcast_S_S45 one0
  let pairMean : FVec Ideal S45 .f32 :=
    select (cmpf .ogt cnt zero45) (Host.divf err (maximumf cnt one45)) (broadcastInDim S45 ![] bcast_S_S45 (id zero0))
  let occ : FVec Ideal S45 .f32 := uitofp .f32 (cmpf .ogt cnt zero45)
  let nPairs : FVec Ideal S_ .f32 := Host.reduceAdd occ zero0 reducesTo_S45_S_d0 h_S_
  let sumMean : FVec Ideal S_ .f32 := Host.reduceAdd pairMean zero0 reducesTo_S45_S_d0 h_S_
  let ranking := Host.divf sumMean (maximumf nPairs one0)
  addf (addf (addf (mulf one0 b) (mulf (constant S_ .f32 0x3E99999A#32) d))
    (mulf (constant S_ .f32 0x3E4CCCCD#32) t)) (mulf (constant S_ .f32 0x3DCCCCCD#32) ranking)

/-- The closing stretch of Spec is the closing stretch from the three means after the divisions by the counts. -/
theorem lossTail_eq (sb sd st : FVec Ideal S_ .f32) (cnt err : FVec Ideal S45 .f32) :
    Loss.lossTail sb sd st cnt err
      = tailMeans (Host.divf sb (constant S_ .f32 0x4B200000#32)) (Host.divf sd (constant S_ .f32 0x4B100000#32))
          (Host.divf st (constant S_ .f32 0x4B000000#32)) cnt err := by
  simp only [Loss.lossTail, tailMeans]

/-- What the second part leaves in the result buffer, from contents `W`: the closing stretch from the three means in
    their buffers, the column sums of the pair indicators and the column sums of the pair errors. -/
def sufTotal (W : Valuation τ sig (Elt Ideal)) : FVec Ideal S_ .f32 :=
  tailMeans (W (Proc.devRef .tc main_v6)) (W (Proc.devRef .tc main_v22)) (W (Proc.devRef .tc main_v40))
    (Host.reduceAdd (F := Ideal) (φ := .f32) ((W (Proc.devRef .tc main_v66)) : FVec Ideal S1048576x45 .f32) (constant S_ .f32 0x00000000#32) reducesTo_S1048576x45_S45_d0 h_S_)
    (Host.reduceAdd (F := Ideal) (φ := .f32)
      (errOf (W (Proc.devRef .tc main_v51)) (W (Proc.devRef .tc main_v62)) (W (Proc.devRef .tc main_v66))) (constant S_ .f32 0x00000000#32) reducesTo_S1048576x45_S45_d0 h_S_)

set_option maxHeartbeats 2000000 in
/-- The second part of the operations composes to the closing stretch over the six buffers it reads. -/
theorem suf_v97 (W : Valuation τ sig (Elt Ideal)) :
    (after (opsB (F := Ideal)) W (Proc.devRef .tc main_v97) : FVec Ideal S_ .f32) = sufTotal W := by
  rw [opsB_eq]
  after_results_simp
  simp only [sufTotal, tailMeans, errOf]

end Cert.ReferenceIdeal.RefRun

end
-- ==== Proof.RefArgs.lean ====
/-
  The reference never writes its arguments: the fold of its operations over any contents, read at an argument buffer,
  is those contents there.
-/
import proofs.«106290_j67534065762422_1_alg».proof.Proof.RefOps
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable (V : Valuation τ sig (Elt Ideal))

set_option maxHeartbeats 2000000 in
/-- No operation writes the first argument's buffer. -/
theorem after_arg0_of :
    after (ops (F := Ideal)) V (Proc.devRef .tc main_arg0) = V (Proc.devRef .tc main_arg0) := by
  after_results_simp

set_option maxHeartbeats 2000000 in
/-- No operation writes the second argument's buffer. -/
theorem after_arg1_of :
    after (ops (F := Ideal)) V (Proc.devRef .tc main_arg1) = V (Proc.devRef .tc main_arg1) := by
  after_results_simp

set_option maxHeartbeats 2000000 in
/-- No operation writes the third argument's buffer. -/
theorem after_arg2_of :
    after (ops (F := Ideal)) V (Proc.devRef .tc main_arg2) = V (Proc.devRef .tc main_arg2) := by
  after_results_simp

end Cert.ReferenceIdeal.RefRun

end
-- ==== Proof.RefValue.lean ====
/-
  The reference's result read back on the extended reals: the operations' fold at the result buffer is the closing
  stretch over the total sums of the arrays of per-row terms (Spec), and the argument arrays are never written.

  The list of operations is cut in two. The first part leaves, in six buffers, the means of the base, direction and
  trend arrays, the two arrays of pair differences and the array of pair indicators; the second part reads only those
  six buffers and composes to the closing stretch over them. Each array, written with the program's operations, is
  the array of Spec's row terms.
-/
import proofs.«106290_j67534065762422_1_alg».proof.Proof.RefOps
import proofs.«106290_j67534065762422_1_alg».proof.Proof.Spec
import proofs.«106290_j67534065762422_1_alg».proof.Proof.RefArr
import proofs.«106290_j67534065762422_1_alg».proof.Proof.RefCut
import proofs.«106290_j67534065762422_1_alg».proof.Proof.RefPreA
import proofs.«106290_j67534065762422_1_alg».proof.Proof.RefPreB
import proofs.«106290_j67534065762422_1_alg».proof.Proof.RefSuf
import proofs.«106290_j67534065762422_1_alg».proof.Proof.RefArgs
import Idealize.ShloMosaic.Lib.Pipeline.Value
import Idealize.ShloMosaic.Lib.ValueLayout

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The loss of Spec over the five arrays of per-row terms written with the program's operations: each of them is
    the array of Spec's row terms, the pair error array being the pair errors of the pair differences and the pair
    indicators. -/
theorem refTotal_eq (P T : FVec Ideal S1048576x10 .f32) (W : FVec Ideal S10 .f32) :
    Loss.refTotal P T W
      = Loss.lossTail
          (Host.reduceAdd (F := Ideal) (φ := .f32) (aBase P T W) (constant S_ .f32 0x00000000#32) reducesTo_S1048576x10_S_d0_1 h_S_)
          (Host.reduceAdd (F := Ideal) (φ := .f32) (aDir P T) (constant S_ .f32 0x00000000#32) reducesTo_S1048576x9_S_d0_1 h_S_)
          (Host.reduceAdd (F := Ideal) (φ := .f32) (aTrend P T) (constant S_ .f32 0x00000000#32) reducesTo_S1048576x8_S_d0_1 h_S_)
          (Host.reduceAdd (F := Ideal) (φ := .f32) (aSig T) (constant S_ .f32 0x00000000#32) reducesTo_S1048576x45_S45_d0 h_S_)
          (Host.reduceAdd (F := Ideal) (φ := .f32) (errOf (pairDiff T) (pairDiff P) (aSig T)) (constant S_ .f32 0x00000000#32) reducesTo_S1048576x45_S45_d0 h_S_) := by
  rw [aBase_eq, aDir_eq, aTrend_eq, aSig_eq,
    show errOf (pairDiff T) (pairDiff P) (Loss.sigArr T) = Loss.errArr P T from (by rw [← aSig_eq, ← aErr_eq]; rfl)]
  rfl

/-- The fold over any contents, read at the result buffer: the second part's closing stretch over what the first
    part leaves in the six buffers. -/
theorem after_v97_of (V : Valuation τ sig (Elt Ideal)) :
    (after (ops (F := Ideal)) V (Proc.devRef .tc main_v97) : FVec Ideal S_ .f32)
      = Loss.refTotal (V (Proc.devRef .tc main_arg0)) (V (Proc.devRef .tc main_arg1)) (V (Proc.devRef .tc main_arg2)) := by
  rw [ops_cut, after_append', suf_v97, refTotal_eq, lossTail_eq]
  simp only [sufTotal]
  rw [pre_v6, pre_v22, pre_v40, pre_v66, pre_v51, pre_v62]

variable (m : (ℓ : Loc nD τ sig) → Buf (Elt Ideal) ℓ)

theorem after_v97 (d : Dev nD) :
    (after (ops (F := Ideal)) (launchContents m d) (Proc.devRef .tc main_v97) : FVec Ideal S_ .f32)
      = Loss.refTotal (m ((d.tc : Thread nD τ).loc main_arg0)) (m ((d.tc : Thread nD τ).loc main_arg1)) (m ((d.tc : Thread nD τ).loc main_arg2)) :=
  after_v97_of (launchContents m d)

theorem after_arg0 (d : Dev nD) :
    after (ops (F := Ideal)) (launchContents m d) (Proc.devRef .tc main_arg0) = m ((d.tc : Thread nD τ).loc main_arg0) :=
  after_arg0_of (launchContents m d)
theorem after_arg1 (d : Dev nD) :
    after (ops (F := Ideal)) (launchContents m d) (Proc.devRef .tc main_arg1) = m ((d.tc : Thread nD τ).loc main_arg1) :=
  after_arg1_of (launchContents m d)
theorem after_arg2 (d : Dev nD) :
    after (ops (F := Ideal)) (launchContents m d) (Proc.devRef .tc main_arg2) = m ((d.tc : Thread nD τ).loc main_arg2) :=
  after_arg2_of (launchContents m d)

end Cert.ReferenceIdeal.RefRun

end
-- ==== Proof.Totals.lean ====
/-
  The two programs feed the closing stretch the same five values.

  The kernel hands it the total of each [1, k] array of column sums, the reference the total of the whole [B, k] array
  of row terms: both are the double sum over rows and columns, taken in the two orders. For the pairs the kernel hands
  it the [1, 45] array of column sums read as [45], the reference the sum of the [B, 45] array over its rows: entry k of
  both is the sum over the rows at pair k. Only commutativity and associativity of addition on the extended reals are
  used, so infinite entries are covered.
-/
import proofs.«106290_j67534065762422_1_alg».proof.Proof.Spec
import Idealize.ShloMosaic.Lib.Pipeline.Value

noncomputable section

namespace Loss

open Idealize.ShloMosaic Idealize.ShloMosaic.ValueIdx
open scoped BigOperators

/-- The host's total of an [n0, n1] array from a zero initial value: the double sum over its coordinates. -/
theorem total2 {n0 n1 : Nat} (x : (⟨2, ![n0, n1]⟩ : Shape).Idx → EReal)
    (h : (⟨2, ![n0, n1]⟩ : Shape).ReducesTo [0, 1] S0) (hu : 0 < S0.numel) (j : S0.Idx) :
    Host.reduceAdd (F := Ideal) (φ := .f32) x (constant S0 .f32 0x00000000#32) h hu j
      = ∑ a : Fin n0, ∑ b : Fin n1, x (ix2 a b) := by
  show Ideal.hostReduceAdd h x (Ideal.ofBits .f32 0x00000000#32) j = _
  rw [Ideal.hostReduceAdd_total h (fun b => b.elim0) x _ j, Ideal.ofBits_zero_f32, zero_add, sum_idx2]

/-- The total of the column sums is the total of the array. -/
theorem total_col {k : Nat} (f : Fin 1048576 → Fin k → EReal)
    (h : (⟨2, ![1, k]⟩ : Shape).ReducesTo [0, 1] S0) (h' : (⟨2, ![1048576, k]⟩ : Shape).ReducesTo [0, 1] S0)
    (hu hu' : 0 < S0.numel) :
    Host.reduceAdd (F := Ideal) (φ := .f32) (fun i : (⟨2, ![1, k]⟩ : Shape).Idx => ∑ b : Fin 1048576, f b (i 1))
        (constant S0 .f32 0x00000000#32) h hu
      = Host.reduceAdd (F := Ideal) (φ := .f32) (fun i : (⟨2, ![1048576, k]⟩ : Shape).Idx => f (i 0) (i 1))
        (constant S0 .f32 0x00000000#32) h' hu' := by
  funext j
  rw [total2, total2, Fin.sum_univ_one]
  exact Finset.sum_comm

/-- The column sums read as a vector are the array's sum over its rows. -/
theorem col_cast (f : Fin 1048576 → Fin 45 → EReal) (h : S1x45.ShapeCasts S45) (h' : SB45.ReducesTo [0] S45)
    (hu : 0 < S0.numel) :
    shapeCast S45 (fun i : S1x45.Idx => ∑ b : Fin 1048576, f b (i 1)) h
      = Host.reduceAdd (F := Ideal) (φ := .f32) (fun i : SB45.Idx => f (i 0) (i 1)) (constant S0 .f32 0x00000000#32) h' hu := by
  funext j
  obtain ⟨k, rfl⟩ : ∃ k : Fin 45, j = ix1 k := ⟨j 0, eq_ix1 j⟩
  rw [shapeCast_apply _ h (ix1 k) (ix2 (0 : Fin 1) k) (by
    rw [Shape.rowMajor_val_two, Shape.rowMajor_val_one]; show 0 * 45 + k.val = k.val; omega)]
  show _ = Ideal.hostReduceAdd h' _ (Ideal.ofBits .f32 0x00000000#32) (ix1 k)
  rw [Ideal.hostReduceAdd_single h' (by decide : SB45.Reduces [0] S45) _ _ (ix1 k), Ideal.ofBits_zero_f32, zero_add]
  rfl

theorem kernelTotal_eq_refTotal (P T : SB10.Idx → EReal) (W : S10.Idx → EReal) :
    kernelTotal (baseCol P T W) (dirCol P T) (trendCol P T) (errCol P T) (sigCol T) = refTotal P T W := by
  have e1 : Host.reduceAdd (F := Ideal) (φ := .f32) (baseCol P T W) (constant S0 .f32 0x00000000#32)
        (by decide : S1x10.ReducesTo [0, 1] S0) (by decide)
      = Host.reduceAdd (F := Ideal) (φ := .f32) (baseArr P T W) (constant S0 .f32 0x00000000#32)
        (by decide : SB10.ReducesTo [0, 1] S0) (by decide) :=
    total_col (fun b j => baseRow (rowOf P b) (rowOf T b) (vecOf W) j) _ _ _ _
  have e2 : Host.reduceAdd (F := Ideal) (φ := .f32) (dirCol P T) (constant S0 .f32 0x00000000#32)
        (by decide : S1x9.ReducesTo [0, 1] S0) (by decide)
      = Host.reduceAdd (F := Ideal) (φ := .f32) (dirArr P T) (constant S0 .f32 0x00000000#32)
        (by decide : SB9.ReducesTo [0, 1] S0) (by decide) :=
    total_col (fun b j => dirRow (rowOf P b) (rowOf T b) j) _ _ _ _
  have e3 : Host.reduceAdd (F := Ideal) (φ := .f32) (trendCol P T) (constant S0 .f32 0x00000000#32)
        (by decide : S1x8.ReducesTo [0, 1] S0) (by decide)
      = Host.reduceAdd (F := Ideal) (φ := .f32) (trendArr P T) (constant S0 .f32 0x00000000#32)
        (by decide : SB8.ReducesTo [0, 1] S0) (by decide) :=
    total_col (fun b j => trendRow (rowOf P b) (rowOf T b) j) _ _ _ _
  have e4 : shapeCast S45 (sigCol T) (by decide)
      = Host.reduceAdd (F := Ideal) (φ := .f32) (sigArr T) (constant S0 .f32 0x00000000#32)
        (by decide : SB45.ReducesTo [0] S45) (by decide) :=
    col_cast (fun b k => sigRow (rowOf T b) k) _ _ _
  have e5 : shapeCast S45 (errCol P T) (by decide)
      = Host.reduceAdd (F := Ideal) (φ := .f32) (errArr P T) (constant S0 .f32 0x00000000#32)
        (by decide : SB45.ReducesTo [0] S45) (by decide) :=
    col_cast (fun b k => errRow (rowOf P b) (rowOf T b) k) _ _ _
  unfold kernelTotal refTotal
  rw [e1, e2, e3, e4, e5]

end Loss

end
-- ==== Proof.lean ====
/-
  The certificate of the price-prediction loss kernel against its jnp reference, over the extended reals.

  Both programs compute one scalar from predictions P and targets T of shape [1048576, 10] and ten weights w:
    1.0 · mean((P - T)² · w) + 0.3 · mean([sign ΔP ≠ sign ΔT] · (1 + |ΔT|)) + 0.2 · mean((Δ²P - Δ²T)²)
      + 0.1 · (mean over the occurring pairs I < J of Σ_rows err · ind / max (Σ_rows ind, 1)),
  with ind = [|T_I - T_J| > θ] and err = max (1 - (T_I - T_J)(P_I - P_J) / (|T_I - T_J| + ε), 0).
  The kernel streams the rows in 128 blocks of 8192 and keeps five running column sums across the grid, the host
  operations after it finish the means; the reference reduces the whole arrays. A sum over all 1048576 rows taken
  block by block is the same sum (commutativity and associativity only, so infinite entries are covered), the pair
  columns the kernel lays side by side are the columns the reference gathers, the kernel's sign (1.0 with the
  argument's sign bit, selected where the argument is not zero) is the host's sign on every extended real, and the
  closing operations are the same in both programs.

  Modules: Spec (the mathematics), KDefs / KPieces / KPay / KPair / KAccum / KTail / KRun (the kernel's value off its
  frame run), RefOps / RefRun (the reference's run), RefArr / RefCut / RefPreA / RefPreB / RefSuf / RefArgs / RefValue (its value, the
  operation list read in two stretches), Totals (the two ways of summing).
-/
import proofs.«106290_j67534065762422_1_alg».proof.Defs
import proofs.«106290_j67534065762422_1_alg».proof.Proof.Gen.Kernel
import proofs.«106290_j67534065762422_1_alg».proof.Proof.Gen.Kernel.Skeleton
import proofs.«106290_j67534065762422_1_alg».proof.Proof.Gen.Kernel.Launch
import proofs.«106290_j67534065762422_1_alg».proof.Proof.Gen.Kernel.Points
import proofs.«106290_j67534065762422_1_alg».proof.Proof.Gen.Kernel.Frame
import proofs.«106290_j67534065762422_1_alg».proof.Proof.Gen.KernelIdeal
import proofs.«106290_j67534065762422_1_alg».proof.Proof.Gen.KernelIdeal.Skeleton
import proofs.«106290_j67534065762422_1_alg».proof.Proof.Gen.KernelIdeal.Launch
import proofs.«106290_j67534065762422_1_alg».proof.Proof.Gen.KernelIdeal.Points
import proofs.«106290_j67534065762422_1_alg».proof.Proof.Gen.KernelIdeal.Frame
import proofs.«106290_j67534065762422_1_alg».proof.Proof.Gen.ReferenceIdeal
import proofs.«106290_j67534065762422_1_alg».proof.Proof.Gen.Pre_finite_inputs
import proofs.«106290_j67534065762422_1_alg».proof.Proof.KRun
import proofs.«106290_j67534065762422_1_alg».proof.Proof.RefRun
import proofs.«106290_j67534065762422_1_alg».proof.Proof.RefValue
import proofs.«106290_j67534065762422_1_alg».proof.Proof.Totals
import Idealize.ShloMosaic.Adequacy
import Idealize.ShloMosaic.Init

noncomputable section

namespace Cert.Proof

open Idealize.ShloMosaic Idealize.ShloMosaic.TcCoe Idealize.SL.Sem

/-- The two frames of the kernel program, word level and idealized: the generated frame certificates. -/
theorem frame_k : Cert.frame_Kernel := fun m ρ _ => Cert.Kernel.Gen.frame m ρ
theorem frame_ki : Cert.frame_KernelIdeal := fun m ρ _ => Cert.KernelIdeal.Gen.frame m ρ

/-- The reference's run read back: the result buffer ends at the closing stretch over the total sums of the arrays of
    row terms, the arguments unchanged. -/
theorem refRun (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        (r.2.mem ((c.tc : Thread Cert.ReferenceIdeal.nD Cert.ReferenceIdeal.τ).loc Cert.ReferenceIdeal.main_v97) : FVec Ideal Cert.ReferenceIdeal.S_ .f32)
          = Loss.refTotal (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run (Cert.ReferenceIdeal.defs (F := Ideal)) _ _).mono
    (fun _ h c => ⟨(h c Cert.ReferenceIdeal.main_v97).trans (Cert.ReferenceIdeal.RefRun.after_v97 m c),
      (h c Cert.ReferenceIdeal.main_arg0).trans (Cert.ReferenceIdeal.RefRun.after_arg0 m c),
      (h c Cert.ReferenceIdeal.main_arg1).trans (Cert.ReferenceIdeal.RefRun.after_arg1 m c),
      (h c Cert.ReferenceIdeal.main_arg2).trans (Cert.ReferenceIdeal.RefRun.after_arg2 m c)⟩)
    (Cert.ReferenceIdeal.RefRun.runAfter (F := Ideal) m ρ)

/-- The reference's frame: its run with the result dropped. -/
theorem frame_ri : Cert.frame_ReferenceIdeal := fun m ρ _ =>
  (θ_run (Cert.ReferenceIdeal.defs (F := Ideal)) _ _).mono (fun _ h c => (h c).2) (refRun m ρ)

/-- The ideal pass rewrote two reads of a sign bit (1.0 with the sign of the prediction difference, and of the target
    difference) to a comparison with zero: the rule's statement, twice. -/
theorem preserves : Cert.preserves_Kernel_KernelIdeal :=
  ⟨IdealRules.sign_bit.statement Cert.KernelIdeal.S8192x9 .f32, IdealRules.sign_bit.statement Cert.KernelIdeal.S8192x9 .f32⟩

/-- From memories agreeing on the arguments the idealized kernel ends at the closing stretch over the five column sums
    and the reference at the closing stretch over the arrays' totals: one value (Totals). -/
theorem algebraic : Cert.algebraic_KernelIdeal_ReferenceIdeal := by
  intro m ρ m' ρ' _ hagree
  refine ⟨_, Cert.KernelIdeal.Acc.kernelRun m ρ, ?_⟩
  refine (θ_run (Cert.ReferenceIdeal.defs (F := Ideal)) _ _).mono (fun _ h c => ⟨(h c).1.trans ?_, (h c).2⟩) (refRun m' ρ')
  rw [(hagree c).1, (hagree c).2.1, (hagree c).2.2]
  exact (Loss.kernelTotal_eq_refTotal _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
